-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x512x512 : Shape := ⟨4, ![32, 1, 512, 512]⟩
abbrev S32x4096x2 : Shape := ⟨3, ![32, 4096, 2]⟩
abbrev S_ : Shape := ⟨0, ![]⟩
abbrev S32x512x512 : Shape := ⟨3, ![32, 512, 512]⟩
abbrev S32 : Shape := ⟨1, ![32]⟩

class Facts : Prop where
  bcast_S_S32x1x512x512 : S_.BroadcastsInDim S32x1x512x512 (![] : Fin 0 → Fin S32x1x512x512.rank)
  reducesTo_S32x1x512x512_S_d0_1_2_3 : S32x1x512x512.ReducesTo [0, 1, 2, 3] S_
  h_S_ : 0 < S_.numel
  reducesTo_S_S_d : S_.ReducesTo [] S_
  shapeCasts_S32x1x512x512_S32x512x512 : S32x1x512x512.ShapeCasts S32x512x512
  reducesTo_S32x512x512_S32_d1_2 : S32x512x512.ReducesTo [1, 2] S32
  bcast_S_S32 : S_.BroadcastsInDim S32 (![] : Fin 0 → Fin S32.rank)
  reducesTo_S32_S_d0 : S32.ReducesTo [0] S_

variable [Facts]

def fn {F : FTy → Type} [FloatOps F] (main_arg0 : FVec F S32x1x512x512 .f32) (main_arg1 : IVec S32x4096x2 32) (main_arg2 : FVec F S_ .f32) : IVec S_ 1 :=
  let main_v0 : FVec F S32x1x512x512 .f32 := Host.absf main_arg0
  let main_cst : FVec F S_ .f32 := constant S_ .f32 0x7F800000#32
  let main_v1 : FVec F S32x1x512x512 .f32 := broadcastInDim S32x1x512x512 ![] bcast_S_S32x1x512x512 main_cst
  let main_v2 : IVec S32x1x512x512 1 := cmpf .olt main_v0 main_v1
  let main_c : IVec S_ 1 := constantI S_ 1 1#1
  let main_v3 : IVec S_ 1 := (fun x v => Host.reduce IntOp.andi x v reducesTo_S32x1x512x512_S_d0_1_2_3 h_S_) main_v2 main_c
  let main_v4 : FVec F S_ .f32 := Host.absf main_arg2
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S32x512x512 .f32 := shapeCast S32x512x512 main_arg0 shapeCasts_S32x1x512x512_S32x512x512
  let main_cst_2 : FVec F S_ .f32 := constant S_ .f32 0x00000000#32
  let main_v9 : FVec F S32 .f32 := (fun x v => Host.reduceAdd x v reducesTo_S32x512x512_S32_d1_2 h_S_) main_v8 main_cst_2
  let main_cst_3 : FVec F S_ .f32 := constant S_ .f32 0x322BCC77#32
  let main_v10 : FVec F S32 .f32 := broadcastInDim S32 ![] bcast_S_S32 main_cst_3
  let main_v11 : FVec F S32 .f32 := addf main_v9 main_v10
  let main_cst_4 : FVec F S_ .f32 := constant S_ .f32 0x00000000#32
  let main_v12 : FVec F S32 .f32 := broadcastInDim S32 ![] bcast_S_S32 main_cst_4
  let main_v13 : IVec S32 1 := cmpf .une main_v11 main_v12
  let main_c_5 : IVec S_ 1 := constantI S_ 1 1#1
  let main_v14 : IVec S_ 1 := (fun x v => Host.reduce IntOp.andi x v reducesTo_S32_S_d0 h_S_) main_v13 main_c_5
  let main_v15 : IVec S_ 1 := andi main_v7 main_v14
  main_v15
-- ==== Kernel.lean ====
abbrev S32x1x512x512 : Shape := ⟨4, ![32, 1, 512, 512]⟩
abbrev S32x4096x2 : Shape := ⟨3, ![32, 4096, 2]⟩
abbrev S_ : Shape := ⟨0, ![]⟩
abbrev S32x512x512 : Shape := ⟨3, ![32, 512, 512]⟩
abbrev S4x512x2 : Shape := ⟨3, ![4, 512, 2]⟩
abbrev S4x512x512 : Shape := ⟨3, ![4, 512, 512]⟩
abbrev S4x512x1 : Shape := ⟨3, ![4, 512, 1]⟩
abbrev S4x512 : Shape := ⟨2, ![4, 512]⟩
abbrev S32x128 : Shape := ⟨2, ![32, 128]⟩
abbrev S8x512x512 : Shape := ⟨3, ![8, 512, 512]⟩
abbrev S8x128 : Shape := ⟨2, ![8, 128]⟩
abbrev S8x514x514 : Shape := ⟨3, ![8, 514, 514]⟩
abbrev S8x512 : Shape := ⟨2, ![8, 512]⟩
abbrev S8 : Shape := ⟨1, ![8]⟩
abbrev S8x1 : Shape := ⟨2, ![8, 1]⟩
abbrev S32x1 : Shape := ⟨2, ![32, 1]⟩
abbrev S32 : Shape := ⟨1, ![32]⟩

abbrev nBuf : Space → Nat
  | .hbm => 30
  | .vmem => 13
  | .smem => 0
  | _ => 0

abbrev bufTy : (tb : Table) → Fin (tcTables nBuf tb) → BufTy
  | .hbm, ⟨0, _⟩ => ⟨S32x1x512x512, .f32⟩
  | .hbm, ⟨1, _⟩ => ⟨S32x4096x2, .i32⟩
  | .hbm, ⟨2, _⟩ => ⟨S_, .f32⟩
  | .hbm, ⟨3, _⟩ => ⟨S32x512x512, .f32⟩
  | .hbm, ⟨4, _⟩ => ⟨S32x512x512, .f32⟩
  | .hbm, ⟨5, _⟩ => ⟨S32x128, .f32⟩
  | .hbm, ⟨6, _⟩ => ⟨S32x128, .f32⟩
  | .hbm, ⟨7, _⟩ => ⟨S32x1, .f32⟩
  | .hbm, ⟨8, _⟩ => ⟨S32, .f32⟩
  | .hbm, ⟨9, _⟩ => ⟨S32x1, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S4x512x2, .i32⟩
  | .local _ .vmem, ⟨1, _⟩ => ⟨S4x512x2, .i32⟩
  | .local _ .vmem, ⟨2, _⟩ => ⟨S4x512x512, .f32⟩
  | .local _ .vmem, ⟨3, _⟩ => ⟨S4x512x512, .f32⟩
  | .local _ .vmem, ⟨4, _⟩ => ⟨S4x512x512, .f32⟩
  | .local _ .vmem, ⟨5, _⟩ => ⟨S8x512x512, .f32⟩
  | .local _ .vmem, ⟨6, _⟩ => ⟨S8x512x512, .f32⟩
  | .local _ .vmem, ⟨7, _⟩ => ⟨S8x512x512, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x514x514, .f32⟩
  | _, _ => ⟨S32x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 2 → Memref sig .tc .vmem S8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S32x1x512x512_S32x512x512 : S32x1x512x512.ShapeCasts S32x512x512
  inb_S4x512x512_S4x512x512_0_0_0 : ∀ a, (![0, 0, 0] : Fin 3 → Nat) a + S4x512x512.size a ≤ S4x512x512.size a
  h_S4x512x512 : 0 < S4x512x512.numel
  shapeCasts_S4x512x512_S4x512x512 : S4x512x512.ShapeCasts S4x512x512
  inb_S4x512x2_S4x512x2_0_0_0 : ∀ a, (![0, 0, 0] : Fin 3 → Nat) a + S4x512x2.size a ≤ S4x512x2.size a
  h_S4x512x2 : 0 < S4x512x2.numel
  slices_S4x512x2_o0_0_0_S4x512x1 : S4x512x2.Slices ![0, 0, 0] S4x512x1
  shapeCasts_S4x512x1_S4x512 : S4x512x1.ShapeCasts S4x512
  slices_S4x512x2_o0_0_1_S4x512x1 : S4x512x2.Slices ![0, 0, 1] S4x512x1
  iota_S4x512x512_d2_w32 : S4x512x512.Iotas .tc 32 [2]
  shapeCasts_S4x512_S4x512x1 : S4x512.ShapeCasts S4x512x1
  broadcasts_S4x512x1_S4x512x512 : S4x512x1.Broadcasts S4x512x512
  natLt_1_32 : 1 < 32
  bitsLt_bf16_f32 : FTy.bits .bf16 < FTy.bits .f32
  inb_S8x512x512_S8x512x512_0_0_0 : ∀ a, (![0, 0, 0] : Fin 3 → Nat) a + S8x512x512.size a ≤ S8x512x512.size a
  h_S8x512x512 : 0 < S8x512x512.numel
  shapeCasts_S8x512x512_S8x512x512 : S8x512x512.ShapeCasts S8x512x512
  inb_S8x514x514_S8x514x514_0_0_0 : ∀ a, (![0, 0, 0] : Fin 3 → Nat) a + S8x514x514.size a ≤ S8x514x514.size a
  h_S8x514x514 : 0 < S8x514x514.numel
  shapeCasts_S8x514x514_S8x514x514 : S8x514x514.ShapeCasts S8x514x514
  inb_S8x514x514_S8x512x512_0_1_1 : ∀ a, (![0, 1, 1] : Fin 3 → Nat) a + S8x512x512.size a ≤ S8x514x514.size a
  inb_S8x514x514_S8x512x512_0_2_2 : ∀ a, (![0, 2, 2] : Fin 3 → Nat) a + S8x512x512.size a ≤ S8x514x514.size a
  inb_S8x514x514_S8x512x512_0_2_1 : ∀ a, (![0, 2, 1] : Fin 3 → Nat) a + S8x512x512.size a ≤ S8x514x514.size a
  inb_S8x514x514_S8x512x512_0_2_0 : ∀ a, (![0, 2, 0] : Fin 3 → Nat) a + S8x512x512.size a ≤ S8x514x514.size a
  inb_S8x514x514_S8x512x512_0_1_2 : ∀ a, (![0, 1, 2] : Fin 3 → Nat) a + S8x512x512.size a ≤ S8x514x514.size a
  inb_S8x514x514_S8x512x512_0_1_0 : ∀ a, (![0, 1, 0] : Fin 3 → Nat) a + S8x512x512.size a ≤ S8x514x514.size a
  inb_S8x514x514_S8x512x512_0_0_2 : ∀ a, (![0, 0, 2] : Fin 3 → Nat) a + S8x512x512.size a ≤ S8x514x514.size a
  inb_S8x514x514_S8x512x512_0_0_1 : ∀ a, (![0, 0, 1] : Fin 3 → Nat) a + S8x512x512.size a ≤ S8x514x514.size a
  inb_S8x514x514_S8x512x512_0_0_0 : ∀ a, (![0, 0, 0] : Fin 3 → Nat) a + S8x512x512.size a ≤ S8x514x514.size a
  reduces_S8x512x512_S8x512 : S8x512x512.Reduces [2] S8x512
  reduces_S8x512_S8 : S8x512.Reduces [1] S8
  shapeCasts_S8_S8x1 : S8.ShapeCasts S8x1
  shapeCasts_S8x1_S8x1 : S8x1.ShapeCasts S8x1
  broadcasts_S8x1_S8x128 : S8x1.Broadcasts S8x128
  inb_S8x128_S8x128_0_0 : ∀ a, (![0, 0] : Fin 2 → Nat) a + S8x128.size a ≤ S8x128.size a
  h_S8x128 : 0 < S8x128.numel
  slices_S32x128_S32x1_0_0 : S32x128.Slices ![0, 0] S32x1
  shapeCasts_S32x1_S32 : S32x1.ShapeCasts S32
  bcast_S_S32 : S_.BroadcastsInDim S32 (![] : Fin 0 → Fin S32.rank)
  reducesTo_S32_S_d0 : S32.ReducesTo [0] S_
  h_S_ : 0 < S_.numel
  dot_S4x512x512_S4x512x512_S4x512x512_1_1_2_2_0_0_wf : DotDims.WF S4x512x512 S4x512x512 S4x512x512 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x2.size a ≤ S32x4096x2.size a
  hwx0_0 : ∀ i : grid0.Coords, EltTy.bits .i32 = 32 ∨ (Rect.block (s := S32x4096x2) S4x512x2.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x512.size a ≤ S32x512x512.size a
  hwx0_1 : ∀ i : grid0.Coords, EltTy.bits .f32 = 32 ∨ (Rect.block (s := S32x512x512) S4x512x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x512x512.size a ≤ S32x512x512.size a
  hwx1_0 : ∀ i : grid1.Coords, EltTy.bits .f32 = 32 ∨ (Rect.block (s := S32x512x512) S8x512x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x512x512.size a ≤ S32x512x512.size a
  hwx1_1 : ∀ i : grid1.Coords, EltTy.bits .f32 = 32 ∨ (Rect.block (s := S32x512x512) S8x512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128.size a ≤ S32x128.size a
  hwx1_2 : ∀ i : grid1.Coords, EltTy.bits .f32 = 32 ∨ (Rect.block (s := S32x128) S8x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x128.size a ≤ S32x128.size a
  hwx1_3 : ∀ i : grid1.Coords, EltTy.bits .f32 = 32 ∨ (Rect.block (s := S32x128) S8x128.size (cc1_transform_3 i) (hinb1_3 i)).WholeWords (EltTy.packing .f32)

variable [Facts₀]

def dot_S4x512x512_S4x512x512_S4x512x512_1_1_2_2_0_0 : DotDims S4x512x512 S4x512x512 S4x512x512 where
  lhsContracting := [1]
  rhsContracting := [1]
  lhsNonContracting := [2]
  rhsNonContracting := [2]
  lhsBatch := [0]
  rhsBatch := [0]
  wf := dot_S4x512x512_S4x512x512_S4x512x512_1_1_2_2_0_0_wf

abbrev win0_0 : Pipeline.Window sig grid0 :=
  Pipeline.Window.ofSpec (Memref.whole main_arg1) S4x512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S8x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8x512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2_0) S8x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_1) S8x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x1x512x512 : Shape := ⟨4, ![32, 1, 512, 512]⟩
abbrev S32x4096x2 : Shape := ⟨3, ![32, 4096, 2]⟩
abbrev S_ : Shape := ⟨0, ![]⟩
abbrev S9 : Shape := ⟨1, ![9]⟩
abbrev S32x512x512 : Shape := ⟨3, ![32, 512, 512]⟩
abbrev S32 : Shape := ⟨1, ![32]⟩
abbrev S32x4096x1 : Shape := ⟨3, ![32, 4096, 1]⟩
abbrev S32x4096 : Shape := ⟨2, ![32, 4096]⟩
abbrev S1x1x9 : Shape := ⟨3, ![1, 1, 9]⟩
abbrev S32x4096x9 : Shape := ⟨3, ![32, 4096, 9]⟩
abbrev S32x1x1 : Shape := ⟨3, ![32, 1, 1]⟩
abbrev S32x262144 : Shape := ⟨2, ![32, 262144]⟩
abbrev S32x4096x9x1 : Shape := ⟨4, ![32, 4096, 9, 1]⟩
abbrev S32x4096x9x2 : Shape := ⟨4, ![32, 4096, 9, 2]⟩

abbrev nBuf : Space → Nat
  | .hbm => 141
  | .vmem => 0
  | .smem => 0
  | _ => 0

abbrev hbmTy0_0 (i : Nat) : BufTy := match i % 128 with
  | 0 => ⟨S32x1x512x512, .f32⟩
  | 1 => ⟨S32x4096x2, .i32⟩
  | 2 => ⟨S_, .f32⟩
  | 3 => ⟨S9, .i32⟩
  | 4 => ⟨S9, .i32⟩
  | 5 => ⟨S9, .f32⟩
  | 6 => ⟨S32x512x512, .f32⟩
  | 7 => ⟨S_, .f32⟩
  | 8 => ⟨S32, .f32⟩
  | 9 => ⟨S32, .f32⟩
  | 10 => ⟨S32, .f32⟩
  | 11 => ⟨S_, .f32⟩
  | 12 => ⟨S32, .f32⟩
  | 13 => ⟨S32, .f32⟩
  | 14 => ⟨S32, .f32⟩
  | 15 => ⟨S_, .f32⟩
  | 16 => ⟨S_, .f32⟩
  | 17 => ⟨S32x4096x1, .i32⟩
  | 18 => ⟨S32x4096, .i32⟩
  | 19 => ⟨S_, .i32⟩
  | 20 => ⟨S_, .i32⟩
  | 21 => ⟨S_, .i32⟩
  | 22 => ⟨S32x4096, .i32⟩
  | 23 => ⟨S32x4096, .i32⟩
  | 24 => ⟨S_, .i32⟩
  | 25 => ⟨S32x4096, .i32⟩
  | 26 => ⟨S32x4096, .i32⟩
  | 27 => ⟨S32x4096x1, .i32⟩
  | 28 => ⟨S32x4096, .i32⟩
  | 29 => ⟨S_, .i32⟩
  | 30 => ⟨S_, .i32⟩
  | 31 => ⟨S_, .i32⟩
  | 32 => ⟨S32x4096, .i32⟩
  | 33 => ⟨S32x4096, .i32⟩
  | 34 => ⟨S_, .i32⟩
  | 35 => ⟨S32x4096, .i32⟩
  | 36 => ⟨S32x4096, .i32⟩
  | 37 => ⟨S32x4096x1, .i32⟩
  | 38 => ⟨S1x1x9, .i32⟩
  | 39 => ⟨S32x4096x9, .i32⟩
  | 40 => ⟨S32x4096x9, .i32⟩
  | 41 => ⟨S32x4096x9, .i32⟩
  | 42 => ⟨S32x4096x1, .i32⟩
  | 43 => ⟨S1x1x9, .i32⟩
  | 44 => ⟨S32x4096x9, .i32⟩
  | 45 => ⟨S32x4096x9, .i32⟩
  | 46 => ⟨S32x4096x9, .i32⟩
  | 47 => ⟨S_, .i32⟩
  | 48 => ⟨S32x4096x9, .i32⟩
  | 49 => ⟨S32x4096x9, .i1⟩
  | 50 => ⟨S_, .i32⟩
  | 51 => ⟨S32x4096x9, .i32⟩
  | 52 => ⟨S32x4096x9, .i1⟩
  | 53 => ⟨S32x4096x9, .i1⟩
  | 54 => ⟨S_, .i32⟩
  | 55 => ⟨S32x4096x9, .i32⟩
  | 56 => ⟨S32x4096x9, .i1⟩
  | 57 => ⟨S32x4096x9, .i1⟩
  | 58 => ⟨S_, .i32⟩
  | 59 => ⟨S32x4096x9, .i32⟩
  | 60 => ⟨S32x4096x9, .i1⟩
  | 61 => ⟨S32x4096x9, .i1⟩
  | 62 => ⟨S_, .i32⟩
  | 63 => ⟨S_, .i32⟩
  | 64 => ⟨S_, .i32⟩
  | 65 => ⟨S32x4096x9, .i32⟩
  | 66 => ⟨S32x4096x9, .i32⟩
  | 67 => ⟨S_, .i32⟩
  | 68 => ⟨S32x4096x9, .i32⟩
  | 69 => ⟨S32x4096x9, .i32⟩
  | 70 => ⟨S_, .i32⟩
  | 71 => ⟨S32x4096x9, .i32⟩
  | 72 => ⟨S32x4096x9, .i32⟩
  | 73 => ⟨S_, .i32⟩
  | 74 => ⟨S_, .i32⟩
  | 75 => ⟨S_, .i32⟩
  | 76 => ⟨S32x4096x9, .i32⟩
  | 77 => ⟨S32x4096x9, .i32⟩
  | 78 => ⟨S_, .i32⟩
  | 79 => ⟨S32x4096x9, .i32⟩
  | 80 => ⟨S32x4096x9, .i32⟩
  | 81 => ⟨S32x4096x9, .i32⟩
  | 82 => ⟨S_, .f32⟩
  | 83 => ⟨S32x4096x9, .f32⟩
  | 84 => ⟨S32x4096x9, .f32⟩
  | 85 => ⟨S32x4096x9, .f32⟩
  | 86 => ⟨S32, .i32⟩
  | 87 => ⟨S32x1x1, .i32⟩
  | 88 => ⟨S32x4096x9, .i32⟩
  | 89 => ⟨S_, .f32⟩
  | 90 => ⟨S32x262144, .f32⟩
  | 91 => ⟨S_, .i32⟩
  | 92 => ⟨S32x4096x9, .i32⟩
  | 93 => ⟨S32x4096x9, .i1⟩
  | 94 => ⟨S_, .i32⟩
  | 95 => ⟨S32x4096x9, .i32⟩
  | 96 => ⟨S32x4096x9, .i32⟩
  | 97 => ⟨S32x4096x9, .i32⟩
  | 98 => ⟨S_, .i32⟩
  | 99 => ⟨S32x4096x9, .i32⟩
  | 100 => ⟨S32x4096x9, .i1⟩
  | 101 => ⟨S_, .i32⟩
  | 102 => ⟨S32x4096x9, .i32⟩
  | 103 => ⟨S32x4096x9, .i32⟩
  | 104 => ⟨S32x4096x9, .i32⟩
  | 105 => ⟨S32x4096x9x1, .i32⟩
  | 106 => ⟨S32x4096x9x1, .i32⟩
  | 107 => ⟨S32x4096x9x2, .i32⟩
  | 108 => ⟨S32x262144, .f32⟩
  | 109 => ⟨S32x512x512, .f32⟩
  | 110 => ⟨S_, .f32⟩
  | 111 => ⟨S32, .f32⟩
  | 112 => ⟨S32x1x1, .f32⟩
  | 113 => ⟨S32x512x512, .f32⟩
  | 114 => ⟨S32x512x512, .f32⟩
  | 115 => ⟨S_, .f32⟩
  | 116 => ⟨S32, .f32⟩
  | 117 => ⟨S32x1x1, .f32⟩
  | 118 => ⟨S_, .f32⟩
  | 119 => ⟨S32x1x1, .f32⟩
  | 120 => ⟨S32x1x1, .f32⟩
  | 121 => ⟨S32x512x512, .f32⟩
  | 122 => ⟨S32x512x512, .f32⟩
  | 123 => ⟨S32x512x512, .f32⟩
  | 124 => ⟨S32x512x512, .f32⟩
  | 125 => ⟨S_, .f32⟩
  | 126 => ⟨S32, .f32⟩
  | 127 => ⟨S_, .f32⟩
  | _ => ⟨S32x1x512x512, .f32⟩

abbrev hbmTy0_1 (i : Nat) : BufTy := match i % 128 with
  | 0 => ⟨S32, .f32⟩
  | 1 => ⟨S32, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | _ => ⟨S32x1x512x512, .f32⟩

abbrev hbmTy (i : Nat) : BufTy := match i / 128 with
  | 0 => hbmTy0_0 i
  | 1 => hbmTy0_1 i
  | _ => ⟨S32x1x512x512, .f32⟩

abbrev bufTy : (tb : Table) → Fin (tcTables nBuf tb) → BufTy
  | .hbm, ⟨i, _⟩ => hbmTy i
  | _, _ => ⟨S32x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_cst : Ref sig .tc := ⟨.hbm, 5, rfl⟩
abbrev main_v0 : Ref sig .tc := ⟨.hbm, 6, rfl⟩
abbrev main_cst_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_c_5 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c_6 : Ref sig .tc := ⟨.hbm, 29, rfl⟩
abbrev main_c_7 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_8 : Ref sig .tc := ⟨.hbm, 47, rfl⟩
abbrev main_v24 : Ref sig .tc := ⟨.hbm, 48, rfl⟩
abbrev main_v25 : Ref sig .tc := ⟨.hbm, 49, rfl⟩
abbrev main_c_9 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_10 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_11 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_c_12 : Ref sig .tc := ⟨.hbm, 62, rfl⟩
abbrev main_c_13 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_v35 : Ref sig .tc := ⟨.hbm, 69, rfl⟩
abbrev main_c_14 : Ref sig .tc := ⟨.hbm, 70, rfl⟩
abbrev main_v36 : Ref sig .tc := ⟨.hbm, 71, rfl⟩
abbrev main_v37 : Ref sig .tc := ⟨.hbm, 72, rfl⟩
abbrev main_c_15 : Ref sig .tc := ⟨.hbm, 73, rfl⟩
abbrev main_c_16 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_v38 : Ref sig .tc := ⟨.hbm, 80, rfl⟩
abbrev main_v39 : Ref sig .tc := ⟨.hbm, 81, rfl⟩
abbrev main_cst_17 : Ref sig .tc := ⟨.hbm, 82, rfl⟩
abbrev main_call4_v0 : Ref sig .tc := ⟨.hbm, 83, rfl⟩
abbrev main_call4_v1 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_cst_18 : Ref sig .tc := ⟨.hbm, 89, rfl⟩
abbrev main_v44 : Ref sig .tc := ⟨.hbm, 90, rfl⟩
abbrev main_c_19 : Ref sig .tc := ⟨.hbm, 91, rfl⟩
abbrev main_v45 : Ref sig .tc := ⟨.hbm, 92, rfl⟩
abbrev main_v46 : Ref sig .tc := ⟨.hbm, 93, rfl⟩
abbrev main_c_20 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_c_21 : Ref sig .tc := ⟨.hbm, 98, rfl⟩
abbrev main_v50 : Ref sig .tc := ⟨.hbm, 99, rfl⟩
abbrev main_v51 : Ref sig .tc := ⟨.hbm, 100, rfl⟩
abbrev main_c_22 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_cst_23 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_cst_24 : Ref sig .tc := ⟨.hbm, 115, rfl⟩
abbrev main_v64 : Ref sig .tc := ⟨.hbm, 116, rfl⟩
abbrev main_v65 : Ref sig .tc := ⟨.hbm, 117, rfl⟩
abbrev main_cst_25 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_cst_26 : Ref sig .tc := ⟨.hbm, 125, rfl⟩
abbrev main_v72 : Ref sig .tc := ⟨.hbm, 126, rfl⟩
abbrev main_cst_27 : Ref sig .tc := ⟨.hbm, 127, rfl⟩
abbrev main_v73 : Ref sig .tc := ⟨.hbm, 128, rfl⟩
abbrev main_v74 : Ref sig .tc := ⟨.hbm, 129, rfl⟩
abbrev main_cst_28 : Ref sig .tc := ⟨.hbm, 130, rfl⟩
abbrev main_v75 : Ref sig .tc := ⟨.hbm, 131, rfl⟩
abbrev main_cst_29 : Ref sig .tc := ⟨.hbm, 132, rfl⟩
abbrev main_v76 : Ref sig .tc := ⟨.hbm, 133, rfl⟩
abbrev main_cst_30 : Ref sig .tc := ⟨.hbm, 134, rfl⟩
abbrev main_v77 : Ref sig .tc := ⟨.hbm, 135, rfl⟩
abbrev main_cst_31 : Ref sig .tc := ⟨.hbm, 136, rfl⟩
abbrev main_v78 : Ref sig .tc := ⟨.hbm, 137, rfl⟩
abbrev main_cst_32 : Ref sig .tc := ⟨.hbm, 138, rfl⟩
abbrev main_v79 : Ref sig .tc := ⟨.hbm, 139, rfl⟩
abbrev main_v80 : Ref sig .tc := ⟨.hbm, 140, rfl⟩

abbrev nD : Nat := 1
abbrev τ : Topo := Topo.v7x

variable {F : FTy → Type} [FloatOps F]

class Facts₀ : Prop where
  shapeCasts_S32x1x512x512_S32x512x512 : S32x1x512x512.ShapeCasts S32x512x512
  reducesTo_S32x512x512_S32_d1_2 : S32x512x512.ReducesTo [1, 2] S32
  h_S_ : 0 < S_.numel
  bcast_S_S32 : S_.BroadcastsInDim S32 (![] : Fin 0 → Fin S32.rank)
  reducesTo_S32_S_d0 : S32.ReducesTo [0] S_
  slices_S32x4096x2_S32x4096x1_0_0_0 : S32x4096x2.Slices ![0, 0, 0] S32x4096x1
  shapeCasts_S32x4096x1_S32x4096 : S32x4096x1.ShapeCasts S32x4096
  bcast_S_S32x4096 : S_.BroadcastsInDim S32x4096 (![] : Fin 0 → Fin S32x4096.rank)
  slices_S32x4096x2_S32x4096x1_0_0_1 : S32x4096x2.Slices ![0, 0, 1] S32x4096x1
  bcast_S32x4096_S32x4096x1_0_1 : S32x4096.BroadcastsInDim S32x4096x1 (![0, 1] : Fin 2 → Fin S32x4096x1.rank)
  bcast_S9_S1x1x9_2 : S9.BroadcastsInDim S1x1x9 (![2] : Fin 1 → Fin S1x1x9.rank)
  bcast_S32x4096x1_S32x4096x9_0_1_2 : S32x4096x1.BroadcastsInDim S32x4096x9 (![0, 1, 2] : Fin 3 → Fin S32x4096x9.rank)
  bcast_S1x1x9_S32x4096x9_0_1_2 : S1x1x9.BroadcastsInDim S32x4096x9 (![0, 1, 2] : Fin 3 → Fin S32x4096x9.rank)
  bcast_S_S32x4096x9 : S_.BroadcastsInDim S32x4096x9 (![] : Fin 0 → Fin S32x4096x9.rank)
  bcast_S9_S32x4096x9_2 : S9.BroadcastsInDim S32x4096x9 (![2] : Fin 1 → Fin S32x4096x9.rank)
  bcast_S32_S32x1x1_0 : S32.BroadcastsInDim S32x1x1 (![0] : Fin 1 → Fin S32x1x1.rank)
  bcast_S32x1x1_S32x4096x9_0_1_2 : S32x1x1.BroadcastsInDim S32x4096x9 (![0, 1, 2] : Fin 3 → Fin S32x4096x9.rank)
  bcast_S_S32x262144 : S_.BroadcastsInDim S32x262144 (![] : Fin 0 → Fin S32x262144.rank)
  bcast_S32x4096x9_S32x4096x9x1_0_1_2 : S32x4096x9.BroadcastsInDim S32x4096x9x1 (![0, 1, 2] : Fin 3 → Fin S32x4096x9x1.rank)
  concatenates_S32x4096x9x1_S32x4096x9x1_S32x4096x9x2_d3 : Shape.Concatenates [S32x4096x9x1, S32x4096x9x1] S32x4096x9x2 3
  shapeCasts_S32x262144_S32x512x512 : S32x262144.ShapeCasts S32x512x512
  bcast_S32x1x1_S32x512x512_0_1_2 : S32x1x1.BroadcastsInDim S32x512x512 (![0, 1, 2] : Fin 3 → Fin S32x512x512.rank)
  bcast_S_S32x1x1 : S_.BroadcastsInDim S32x1x1 (![] : Fin 0 → Fin S32x1x1.rank)
  scatter_S32x262144_S32x4096x9x2_S32x4096x9_n_01_01_3_wf : ScatterDims.WF S32x262144 S32x4096x9x2 S32x4096x9 [] [0, 1] [0, 1] 3

variable [Facts₀]

def scatter_S32x262144_S32x4096x9x2_S32x4096x9_n_01_01_3 : ScatterDims S32x262144 S32x4096x9x2 S32x4096x9 where
  updateWindowDims := []
  insertedWindowDims := [0, 1]
  scatterDimsToOperandDims := [0, 1]
  indexVectorDim := 3
  wf := scatter_S32x262144_S32x4096x9x2_S32x4096x9_n_01_01_3_wf

class Facts : Prop extends Facts₀ where

variable [Facts]
-- ==== Proof.Spec.lean ====
/-
  The mathematics both programs compute, stated once over the extended reals and literal extents.

  An image batch has 32 images of 512 × 512 cells. Each image comes with 4096 points (x, y); a point is first clamped into
  the grid. The COUNT MAP of an image holds at cell (h, w) the number of its points whose clamped coordinates are (w, h).
  The TARGET is the count map spread by a 3 × 3 stencil: cell (h, w) receives, from each of the nine neighbours
  (h − dy, w − dx), the neighbour's count times the weight exp(−√(dx² + dy²)/2) rounded to single precision; a neighbour
  outside the grid counts zero. Both programs then compare the prediction, normalised by its sum plus a small constant,
  with the target normalised by its sum, by the mean of the squared differences; one program computes the squared
  differences cell by cell, the other expands the square into five whole-image sums.
-/
import Idealize.ShloMosaic.PureOps.Ideal
import Idealize.ShloMosaic.Lib.ValueIdx

noncomputable section

open scoped BigOperators

namespace Cert.Spec

open Idealize.ShloMosaic Idealize.ShloMosaic.ValueIdx

/-- The points: 32 images × 4096 points × (x, y). -/
abbrev SPts : Shape := ⟨3, ![32, 4096, 2]⟩
/-- An image batch: 32 images × 512 rows × 512 columns. -/
abbrev SImg : Shape := ⟨3, ![32, 512, 512]⟩

/-- The prediction as it arrives: 32 images × 1 channel × 512 × 512. -/
abbrev SPred : Shape := ⟨4, ![32, 1, 512, 512]⟩

/-- The prediction with its channel axis dropped. -/
def img (a : SPred.Idx → EReal) : SImg.Idx → EReal := fun j => a (ix4 (j 0) (0 : Fin 1) (j 1) (j 2))

/-- A coordinate word clamped into [0, 511] as a signed integer. -/
def clampW (v : BitVec 32) : BitVec 32 := IntOp.minsi 511#32 (IntOp.maxsi 0#32 v)

/-- The clamped x coordinate (a column) of point `n` of image `b`. -/
def px (pts : IVec SPts 32) (b : Fin 32) (n : Fin 4096) : BitVec 32 := clampW (pts (ix3 b n (0 : Fin 2)))
/-- The clamped y coordinate (a row) of point `n` of image `b`. -/
def py (pts : IVec SPts 32) (b : Fin 32) (n : Fin 4096) : BitVec 32 := clampW (pts (ix3 b n (1 : Fin 2)))

/-- 1 when point `n` of image `b` falls in cell (h, w), else 0. -/
def hit (pts : IVec SPts 32) (b : Fin 32) (n : Fin 4096) (h w : Fin 512) : EReal :=
  (if py pts b n = BitVec.ofNat 32 h.val then (1 : EReal) else 0) * (if px pts b n = BitVec.ofNat 32 w.val then (1 : EReal) else 0)

/-- The count map: how many points of the image fall in each cell. -/
def cnt (pts : IVec SPts 32) : SImg.Idx → EReal := fun j => ∑ n : Fin 4096, hit pts (j 0) n (j 1) (j 2)

/-- The stencil's three weights, as the single-precision words both programs carry. -/
def wCorner : EReal := Ideal.ofBits .f32 0x3EFC7380#32
def wEdge : EReal := Ideal.ofBits .f32 0x3F1B4598#32
def wCentre : EReal := Ideal.ofBits .f32 0x3F800000#32

/-- Tap `k` of the stencil, k = 3·(dy + 1) + (dx + 1): its weight, -/
def wgt : Fin 9 → EReal := ![wCorner, wEdge, wCorner, wEdge, wCentre, wEdge, wCorner, wEdge, wCorner]
/-- its row offset 1 − dy into the image padded by one cell all round, -/
def oy : Fin 9 → ℕ := ![2, 2, 2, 1, 1, 1, 0, 0, 0]
/-- and its column offset 1 − dx. -/
def ox : Fin 9 → ℕ := ![2, 1, 0, 2, 1, 0, 2, 1, 0]

/-- An image padded with one zero cell all round, read at padded coordinates (r, s) ∈ [0, 514)². -/
def pad (a : SImg.Idx → EReal) (b : Fin 32) (r s : ℕ) : EReal :=
  if h : (1 ≤ r ∧ r ≤ 512) ∧ (1 ≤ s ∧ s ≤ 512) then a (ix3 b ⟨r - 1, by omega⟩ ⟨s - 1, by omega⟩) else 0

/-- The stencil applied to an image batch. -/
def targ (a : SImg.Idx → EReal) : SImg.Idx → EReal :=
  fun j => ∑ k : Fin 9, wgt k * pad a (j 0) ((j 1).val + oy k) ((j 2).val + ox k)

/-- The sum of image `b`. -/
def sumImg (a : SImg.Idx → EReal) (b : Fin 32) : EReal := ∑ h : Fin 512, ∑ w : Fin 512, a (ix3 b h w)

/-- The constant added to the prediction's sum, the number of cells, and the scalars of the final combination. -/
def eps : EReal := Ideal.ofBits .f32 0x322BCC77#32
def nCells : EReal := Ideal.ofBits .f32 0x48800000#32
def cTwo : EReal := Ideal.ofBits .f32 0x40000000#32
def cPts : EReal := Ideal.ofBits .f32 0x45800000#32
def cBatch : EReal := Ideal.ofBits .f32 0x42000000#32
def cSpatial : EReal := Ideal.ofBits .f32 0x3E19999A#32

/-- The mean squared difference of the normalised images, with the square expanded into whole-image sums. -/
def mseK (p t : SImg.Idx → EReal) (b : Fin 32) : EReal :=
  Ideal.div
    ((Ideal.div (sumImg (fun j => p j * p j) b) ((sumImg p b + eps) * (sumImg p b + eps))
        - Ideal.div (cTwo * sumImg (fun j => p j * t j) b) ((sumImg p b + eps) * sumImg t b))
      + Ideal.div (sumImg (fun j => t j * t j) b) (sumImg t b * sumImg t b))
    nCells

/-- The same, cell by cell. -/
def mseR (p t : SImg.Idx → EReal) (b : Fin 32) : EReal :=
  Ideal.div
    (sumImg (fun j => (Ideal.div (p j) (sumImg p (j 0) + eps) - Ideal.div (t j) (sumImg t (j 0)))
        * (Ideal.div (p j) (sumImg p (j 0) + eps) - Ideal.div (t j) (sumImg t (j 0)))) b)
    nCells

/-- The loss: twice the mean absolute count error plus 0.15 times the mean of the per-image spatial errors. -/
def final (sp mse : Fin 32 → EReal) (area : EReal) : EReal :=
  cTwo * Ideal.div (∑ b : Fin 32, max (Ideal.div (sp b) area - cPts) (-(Ideal.div (sp b) area - cPts))) cBatch
    + cSpatial * Ideal.div (∑ b : Fin 32, mse b) cBatch

end Cert.Spec

end
-- ==== Proof.Algebra.lean ====
/-
  Pure algebra over the extended reals for the shared vocabulary.

  1. The constants are finite reals (the small additive constant and the stencil weights positive; the scalar two exactly 2).
  2. For real-valued images p, t with P = Σ p + eps ≠ 0 and T = Σ t ≠ 0, the mean of the squared differences
     Σ (p/P − t/T)² equals Σp²/P² − 2·Σpt/(P·T) + Σt²/T²: the square expanded and summed over the cells.
  3. The count map is a nonnegative real at every cell (a finite sum of products of 0/1 indicators); the stencil of the
     count map is a nonnegative real at every cell; and its sum over an image is not zero, because point 0 of the image,
     once clamped, lies in some cell, whose count is therefore at least one, and the centre tap carries a positive
     weight there.
-/
import proofs.«429451_j33646773797363_4_alg».proof.Proof.Spec

noncomputable section

open scoped BigOperators

namespace Cert.Spec.Algebra

open Idealize.ShloMosaic Idealize.ShloMosaic.ValueIdx

/-! ### The constants -/

/-- The scalar two denotes the real 2. -/
theorem cTwo_eq : cTwo = ((2 : ℝ) : EReal) := by
  simp [cTwo, Ideal.ofBits, Ideal.ieee, -EReal.coe_mul]; norm_num

/-- The additive constant is a positive real. -/
theorem eps_real : ∃ r : ℝ, eps = (r : EReal) ∧ 0 < r := by
  simp [eps, Ideal.ofBits, Ideal.ieee, -EReal.coe_mul]

/-- Every stencil weight is a positive real. -/
theorem wgt_real (k : Fin 9) : ∃ r : ℝ, wgt k = (r : EReal) ∧ 0 < r := by
  fin_cases k <;> simp [wgt, wCorner, wEdge, wCentre, Ideal.ofBits, Ideal.ieee, -EReal.coe_mul]

/-- The real a stencil weight denotes. -/
def wgtR (k : Fin 9) : ℝ := (wgt k).toReal

theorem wgt_eq (k : Fin 9) : wgt k = (wgtR k : EReal) := by
  obtain ⟨r, hr, -⟩ := wgt_real k
  rw [wgtR, hr, EReal.toReal_coe]

theorem wgtR_pos (k : Fin 9) : 0 < wgtR k := by
  obtain ⟨r, hr, hpos⟩ := wgt_real k
  rw [wgtR, hr, EReal.toReal_coe]; exact hpos

/-! ### Finite real sums inside the extended reals -/

/-- The coercion of a finite real sum is the sum of the coercions. -/
theorem coe_sum {ι : Type*} (s : Finset ι) (f : ι → ℝ) :
    ((∑ i ∈ s, f i : ℝ) : EReal) = ∑ i ∈ s, (f i : EReal) := by
  classical
  refine Finset.induction_on s (by simp) (fun a s ha ih => ?_)
  rw [Finset.sum_insert ha, Finset.sum_insert ha, EReal.coe_add, ih]

/-- The real sum of image `b`. -/
def sumR (f : SImg.Idx → ℝ) (b : Fin 32) : ℝ := ∑ h : Fin 512, ∑ w : Fin 512, f (ix3 b h w)

/-- The sum of a real-valued image is the real sum. -/
theorem sumImg_coe (f : SImg.Idx → ℝ) (b : Fin 32) :
    sumImg (fun j => (f j : EReal)) b = ((sumR f b : ℝ) : EReal) := by
  unfold sumImg sumR
  rw [coe_sum]
  refine Finset.sum_congr rfl (fun h _ => ?_)
  rw [coe_sum]

/-- The sum of image `b` only reads the cells of image `b`. -/
theorem sumImg_congr (F G : SImg.Idx → EReal) (b : Fin 32)
    (h : ∀ (y x : Fin 512), F (ix3 b y x) = G (ix3 b y x)) : sumImg F b = sumImg G b := by
  unfold sumImg
  exact Finset.sum_congr rfl (fun y _ => Finset.sum_congr rfl (fun x _ => h y x))

/-- The square of a difference of scaled terms, summed over an image:
    Σ (a·u − c·v)² = (Σ a²)·u² − 2·(Σ a·c)·u·v + (Σ c²)·v². -/
theorem sumR_expand (a c : SImg.Idx → ℝ) (u v : ℝ) (b : Fin 32) :
    sumR (fun j => (a j * u - c j * v) * (a j * u - c j * v)) b
      = sumR (fun j => a j * a j) b * (u * u) - 2 * sumR (fun j => a j * c j) b * (u * v)
        + sumR (fun j => c j * c j) b * (v * v) := by
  unfold sumR
  have e : ∀ (y x : Fin 512), (a (ix3 b y x) * u - c (ix3 b y x) * v) * (a (ix3 b y x) * u - c (ix3 b y x) * v)
      = a (ix3 b y x) * a (ix3 b y x) * (u * u) - 2 * (a (ix3 b y x) * c (ix3 b y x)) * (u * v)
        + c (ix3 b y x) * c (ix3 b y x) * (v * v) := fun y x => by ring
  simp only [e, Finset.sum_add_distrib, Finset.sum_sub_distrib, ← Finset.sum_mul, ← Finset.mul_sum]

/-! ### The two forms of the mean squared difference agree -/

theorem mse_eq (p t : SImg.Idx → EReal) (hp : ∀ j, ∃ r : ℝ, p j = (r : EReal))
    (ht : ∀ j, ∃ r : ℝ, t j = (r : EReal)) (b : Fin 32) (hps : sumImg p b + eps ≠ 0)
    (hts : sumImg t b ≠ 0) : mseK p t b = mseR p t b := by
  choose rp hrp using hp
  choose rt hrt using ht
  obtain ⟨e, he, -⟩ := eps_real
  obtain rfl : p = fun j => (rp j : EReal) := funext hrp
  obtain rfl : t = fun j => (rt j : EReal) := funext hrt
  have hP : sumImg (fun j => (rp j : EReal)) b + eps = ((sumR rp b + e : ℝ) : EReal) := by
    rw [sumImg_coe, he, EReal.coe_add]
  have hT : sumImg (fun j => (rt j : EReal)) b = ((sumR rt b : ℝ) : EReal) := sumImg_coe rt b
  have hPne : sumR rp b + e ≠ 0 := by
    intro h0; apply hps; rw [hP, h0]; rfl
  have hTne : sumR rt b ≠ 0 := by
    intro h0; apply hts; rw [hT, h0]; rfl
  set P : ℝ := sumR rp b + e with hPdef
  set T : ℝ := sumR rt b with hTdef
  have hPP : P * P ≠ 0 := mul_ne_zero hPne hPne
  have hPT : P * T ≠ 0 := mul_ne_zero hPne hTne
  have hTT : T * T ≠ 0 := mul_ne_zero hTne hTne
  -- the expanded form is a real
  have hK : (Ideal.div (sumImg (fun j => (rp j : EReal) * (rp j : EReal)) b)
          ((sumImg (fun j => (rp j : EReal)) b + eps) * (sumImg (fun j => (rp j : EReal)) b + eps))
        - Ideal.div (cTwo * sumImg (fun j => (rp j : EReal) * (rt j : EReal)) b)
          ((sumImg (fun j => (rp j : EReal)) b + eps) * sumImg (fun j => (rt j : EReal)) b))
      + Ideal.div (sumImg (fun j => (rt j : EReal) * (rt j : EReal)) b)
          (sumImg (fun j => (rt j : EReal)) b * sumImg (fun j => (rt j : EReal)) b)
      = ((sumR (fun j => rp j * rp j) b * (1 / (P * P)) - 2 * sumR (fun j => rp j * rt j) b * (1 / (P * T))
          + sumR (fun j => rt j * rt j) b * (1 / (T * T)) : ℝ) : EReal) := by
    rw [hP, hT, cTwo_eq]
    simp only [← EReal.coe_mul]
    rw [sumImg_coe, sumImg_coe, sumImg_coe, Ideal.div_coe hPP, Ideal.div_coe hPT, Ideal.div_coe hTT]
    simp only [← EReal.coe_mul, ← EReal.coe_sub, ← EReal.coe_add]
  -- the cell-by-cell form is a real: inside the sum of image b the cell's image is b
  have hR : sumImg (fun j => (Ideal.div ((rp j : EReal)) (sumImg (fun j => (rp j : EReal)) (j 0) + eps)
          - Ideal.div ((rt j : EReal)) (sumImg (fun j => (rt j : EReal)) (j 0)))
        * (Ideal.div ((rp j : EReal)) (sumImg (fun j => (rp j : EReal)) (j 0) + eps)
          - Ideal.div ((rt j : EReal)) (sumImg (fun j => (rt j : EReal)) (j 0)))) b
      = ((sumR (fun j => (rp j * (1 / P) - rt j * (1 / T)) * (rp j * (1 / P) - rt j * (1 / T))) b : ℝ) : EReal) := by
    rw [← sumImg_coe]
    refine sumImg_congr _ _ b (fun y x => ?_)
    show (Ideal.div ((rp (ix3 b y x) : EReal)) (sumImg (fun j => (rp j : EReal)) b + eps)
          - Ideal.div ((rt (ix3 b y x) : EReal)) (sumImg (fun j => (rt j : EReal)) b))
        * (Ideal.div ((rp (ix3 b y x) : EReal)) (sumImg (fun j => (rp j : EReal)) b + eps)
          - Ideal.div ((rt (ix3 b y x) : EReal)) (sumImg (fun j => (rt j : EReal)) b)) = _
    rw [hP, hT, Ideal.div_coe hPne, Ideal.div_coe hTne]
    simp only [← EReal.coe_mul, ← EReal.coe_sub]
  unfold mseK mseR
  rw [hK, hR]
  refine congrArg (fun z : ℝ => Ideal.div (z : EReal) nCells) ?_
  rw [sumR_expand]
  have h1 : (1 : ℝ) / (P * P) = 1 / P * (1 / P) := by field_simp
  have h2 : (1 : ℝ) / (P * T) = 1 / P * (1 / T) := by field_simp
  have h3 : (1 : ℝ) / (T * T) = 1 / T * (1 / T) := by field_simp
  rw [h1, h2, h3]

/-! ### The count map and its stencil are nonnegative reals -/

/-- A clamped word, read as a natural number, is below 512. -/
theorem clampW_lt (v : BitVec 32) : (clampW v).toNat < 512 := by
  unfold clampW IntOp.minsi IntOp.maxsi
  have hv := BitVec.toInt_eq_toNat_cond v
  split_ifs at hv <;> split_ifs with h1 h2 h2 <;> simp [BitVec.slt] at h1 h2 ⊢ <;> omega

/-- The indicator that point `n` of image `b` falls in cell (h, w), as a real. -/
def hitR (pts : IVec SPts 32) (b : Fin 32) (n : Fin 4096) (h w : Fin 512) : ℝ :=
  (if py pts b n = BitVec.ofNat 32 h.val then (1 : ℝ) else 0) * (if px pts b n = BitVec.ofNat 32 w.val then (1 : ℝ) else 0)

theorem hit_eq (pts : IVec SPts 32) (b : Fin 32) (n : Fin 4096) (h w : Fin 512) :
    hit pts b n h w = (hitR pts b n h w : EReal) := by
  unfold hit hitR
  split_ifs <;> simp

theorem hitR_nonneg (pts : IVec SPts 32) (b : Fin 32) (n : Fin 4096) (h w : Fin 512) : 0 ≤ hitR pts b n h w := by
  unfold hitR
  split_ifs <;> simp

/-- The count map as a real. -/
def cntR (pts : IVec SPts 32) (j : SImg.Idx) : ℝ := ∑ n : Fin 4096, hitR pts (j 0) n (j 1) (j 2)

theorem cnt_eq (pts : IVec SPts 32) (j : SImg.Idx) : cnt pts j = (cntR pts j : EReal) := by
  unfold cnt cntR
  rw [coe_sum]
  exact Finset.sum_congr rfl (fun n _ => hit_eq pts _ n _ _)

theorem cntR_nonneg (pts : IVec SPts 32) (j : SImg.Idx) : 0 ≤ cntR pts j :=
  Finset.sum_nonneg (fun n _ => hitR_nonneg pts _ n _ _)

/-- The count at a cell is a nonnegative real. -/
theorem cnt_real (pts : IVec SPts 32) (j : SImg.Idx) : ∃ r : ℝ, cnt pts j = (r : EReal) ∧ 0 ≤ r :=
  ⟨cntR pts j, cnt_eq pts j, cntR_nonneg pts j⟩

/-- A real image padded with one zero cell all round. -/
def padR (a : SImg.Idx → ℝ) (b : Fin 32) (r s : ℕ) : ℝ :=
  if h : (1 ≤ r ∧ r ≤ 512) ∧ (1 ≤ s ∧ s ≤ 512) then a (ix3 b ⟨r - 1, by omega⟩ ⟨s - 1, by omega⟩) else 0

theorem pad_coe (a : SImg.Idx → ℝ) (b : Fin 32) (r s : ℕ) :
    pad (fun j => (a j : EReal)) b r s = (padR a b r s : EReal) := by
  unfold pad padR
  split_ifs <;> simp

theorem padR_nonneg (a : SImg.Idx → ℝ) (ha : ∀ j, 0 ≤ a j) (b : Fin 32) (r s : ℕ) : 0 ≤ padR a b r s := by
  unfold padR
  split_ifs
  · exact ha _
  · exact le_refl _

/-- The stencil applied to a real image. -/
def targR (a : SImg.Idx → ℝ) (j : SImg.Idx) : ℝ :=
  ∑ k : Fin 9, wgtR k * padR a (j 0) ((j 1).val + oy k) ((j 2).val + ox k)

theorem targ_coe (a : SImg.Idx → ℝ) (j : SImg.Idx) :
    targ (fun j => (a j : EReal)) j = (targR a j : EReal) := by
  unfold targ targR
  rw [coe_sum]
  refine Finset.sum_congr rfl (fun k _ => ?_)
  rw [wgt_eq, EReal.coe_mul]
  exact congrArg (fun z => (wgtR k : EReal) * z) (pad_coe a (j 0) _ _)

theorem targR_nonneg (a : SImg.Idx → ℝ) (ha : ∀ j, 0 ≤ a j) (j : SImg.Idx) : 0 ≤ targR a j :=
  Finset.sum_nonneg (fun k _ => mul_nonneg (wgtR_pos k).le (padR_nonneg a ha _ _ _))

theorem cnt_fun_eq (pts : IVec SPts 32) : cnt pts = fun j => (cntR pts j : EReal) := funext (cnt_eq pts)

theorem targ_cnt_eq (pts : IVec SPts 32) : targ (cnt pts) = fun j => (targR (cntR pts) j : EReal) := by
  rw [cnt_fun_eq]; exact funext (targ_coe _)

/-- The stencil of the count map is a real at every cell. -/
theorem targ_cnt_real (pts : IVec SPts 32) (j : SImg.Idx) : ∃ r : ℝ, targ (cnt pts) j = (r : EReal) :=
  ⟨targR (cntR pts) j, congrFun (targ_cnt_eq pts) j⟩

/-- and a nonnegative one. -/
theorem targ_cnt_real_nonneg (pts : IVec SPts 32) (j : SImg.Idx) :
    ∃ r : ℝ, targ (cnt pts) j = (r : EReal) ∧ 0 ≤ r :=
  ⟨targR (cntR pts) j, congrFun (targ_cnt_eq pts) j, targR_nonneg _ (cntR_nonneg pts) j⟩

/-! ### The image sum of the stencilled count map is not zero -/

/-- The centre tap alone: the stencil at a cell is at least the centre weight times the image's value there. -/
theorem targR_centre (a : SImg.Idx → ℝ) (ha : ∀ j, 0 ≤ a j) (b : Fin 32) (h w : Fin 512) :
    wgtR 4 * a (ix3 b h w) ≤ targR a (ix3 b h w) := by
  have h4 : wgtR 4 * a (ix3 b h w)
      = wgtR 4 * padR a ((ix3 b h w : SImg.Idx) 0) (((ix3 b h w : SImg.Idx) 1).val + oy 4) (((ix3 b h w : SImg.Idx) 2).val + ox 4) := by
    show _ = wgtR 4 * padR a b (h.val + 1) (w.val + 1)
    unfold padR
    rw [dif_pos ⟨⟨by omega, by omega⟩, by omega, by omega⟩]
    rfl
  rw [h4]
  exact Finset.single_le_sum (f := fun k : Fin 9 => wgtR k * padR a ((ix3 b h w : SImg.Idx) 0) (((ix3 b h w : SImg.Idx) 1).val + oy k) (((ix3 b h w : SImg.Idx) 2).val + ox k))
    (fun k _ => mul_nonneg (wgtR_pos k).le (padR_nonneg a ha _ _ _)) (Finset.mem_univ 4)

/-- Point 0 of image `b` falls in some cell, so the count there is at least one. -/
theorem cntR_pos (pts : IVec SPts 32) (b : Fin 32) : ∃ h w : Fin 512, 1 ≤ cntR pts (ix3 b h w) := by
  refine ⟨⟨(py pts b 0).toNat, clampW_lt _⟩, ⟨(px pts b 0).toNat, clampW_lt _⟩, ?_⟩
  have h1 : (1 : ℝ) = hitR pts b 0 ⟨(py pts b 0).toNat, clampW_lt _⟩ ⟨(px pts b 0).toNat, clampW_lt _⟩ := by
    unfold hitR
    rw [if_pos (by simp), if_pos (by simp)]; norm_num
  rw [h1]
  exact Finset.single_le_sum (f := fun n : Fin 4096 => hitR pts b n ⟨(py pts b 0).toNat, clampW_lt _⟩ ⟨(px pts b 0).toNat, clampW_lt _⟩)
    (fun n _ => hitR_nonneg pts _ n _ _) (Finset.mem_univ 0)

/-- A nonnegative real image with a positive cell has a positive sum. -/
theorem sumR_pos (f : SImg.Idx → ℝ) (hf : ∀ j, 0 ≤ f j) (b : Fin 32) (h w : Fin 512) (hpos : 0 < f (ix3 b h w)) :
    0 < sumR f b := by
  unfold sumR
  have h1 : f (ix3 b h w) ≤ ∑ x : Fin 512, f (ix3 b h x) :=
    Finset.single_le_sum (f := fun x : Fin 512 => f (ix3 b h x)) (fun x _ => hf _) (Finset.mem_univ w)
  have h2 : ∑ x : Fin 512, f (ix3 b h x) ≤ ∑ y : Fin 512, ∑ x : Fin 512, f (ix3 b y x) :=
    Finset.single_le_sum (f := fun y : Fin 512 => ∑ x : Fin 512, f (ix3 b y x))
      (fun y _ => Finset.sum_nonneg (fun x _ => hf _)) (Finset.mem_univ h)
  linarith

theorem targ_cnt_sum_ne (pts : IVec SPts 32) (b : Fin 32) : sumImg (targ (cnt pts)) b ≠ 0 := by
  rw [targ_cnt_eq, sumImg_coe]
  obtain ⟨h, w, hc⟩ := cntR_pos pts b
  have hpos : 0 < targR (cntR pts) (ix3 b h w) := by
    refine lt_of_lt_of_le ?_ (targR_centre (cntR pts) (cntR_nonneg pts) b h w)
    exact mul_pos (wgtR_pos 4) (by linarith)
  have := sumR_pos (targR (cntR pts)) (targR_nonneg _ (cntR_nonneg pts)) b h w hpos
  exact_mod_cast this.ne'

end Cert.Spec.Algebra

end
-- ==== Proof.Reduce12.lean ====
/-
  The sum over the last two axes of an image batch, read at one image.

  A reduction over axes 1 and 2 of a 32 × 512 × 512 array keeps, for image b, exactly the indices whose first
  coordinate is b; these are the triples (b, h, w), so the filtered sum is the double sum over rows and columns.
-/
import proofs.«429451_j33646773797363_4_alg».proof.Proof.Spec
import Idealize.ShloMosaic.PureOps.Reduce
import Idealize.ShloMosaic.PureOps.Ideal.Laws

noncomputable section

open scoped BigOperators

namespace Cert.Reduce12

open Idealize.ShloMosaic Idealize.ShloMosaic.ValueIdx

/-- An index of the batch drops to image `b` exactly when its first coordinate is `b`. -/
theorem drop_eq_iff (hred : Cert.Spec.SImg.ReducesTo [1, 2] (⟨1, ![32]⟩ : Shape)) (b : Fin 32) (i : Cert.Spec.SImg.Idx) :
    hred.drop i = ix1 b ↔ i 0 = b := by
  have hv : (hred.drop i 0 : Nat) = i 0 := Shape.ReducesTo.drop_apply_val_of_eq hred i 0 0
  constructor
  · intro e
    rw [e] at hv
    exact Fin.ext hv.symm
  · intro e
    funext d
    have hd : d = 0 := Subsingleton.elim _ _
    subst hd
    exact Fin.ext (by rw [hv, e])

/-- The sum over the indices that drop to image `b` is the double sum over the rows and columns of image `b`. -/
theorem sum_filter_drop (x : Cert.Spec.SImg.Idx → EReal) (hred : Cert.Spec.SImg.ReducesTo [1, 2] (⟨1, ![32]⟩ : Shape))
    (b : Fin 32) :
    ∑ i ∈ Finset.univ.filter (fun i => hred.drop i = ix1 b), x i = Cert.Spec.sumImg x b := by
  unfold Cert.Spec.sumImg
  rw [← Finset.sum_product']
  refine Finset.sum_bij' (fun i _ => (i 1, i 2)) (fun p _ => ix3 b p.1 p.2)
    (fun _ _ => Finset.mem_product.2 ⟨Finset.mem_univ _, Finset.mem_univ _⟩)
    (fun p _ => Finset.mem_filter.2 ⟨Finset.mem_univ _, (drop_eq_iff hred b _).2 rfl⟩) ?_ (fun _ _ => rfl) ?_
  · intro i hi
    have h0 : i 0 = b := (drop_eq_iff hred b i).1 (Finset.mem_filter.1 hi).2
    subst h0
    exact (eq_ix3 i).symm
  · intro i hi
    have h0 : i 0 = b := (drop_eq_iff hred b i).1 (Finset.mem_filter.1 hi).2
    subst h0
    exact congrArg x (eq_ix3 i)

/-- The host's sum over axes 1 and 2, read at image `b`: the initial value plus the sum of image `b`. -/
theorem reduce12_apply (x : Cert.Spec.SImg.Idx → EReal) (init : EReal)
    (hred : Cert.Spec.SImg.ReducesTo [1, 2] (⟨1, ![32]⟩ : Shape)) (b : Fin 32) :
    Ideal.hostReduceAdd hred x init (ValueIdx.ix1 b) = init + Cert.Spec.sumImg x b := by
  unfold Ideal.hostReduceAdd
  rw [sum_filter_drop]

end Cert.Reduce12

end
-- ==== Proof.PreFacts.lean ====
/-
  What the precondition says of the inputs.

  The precondition is a conjunction of three tests, each an "all" over an array of one-bit words: every entry of the
  prediction has absolute value below +∞; so has the scalar; and, for every image, the sum of the image plus a small
  constant differs from zero. Read over the extended reals, the first says that every entry of the prediction is a
  real number, and the third is the statement itself once the reshape to 32 × 512 × 512 and the sum over the last two
  axes are read at an index.
-/
import proofs.«429451_j33646773797363_4_alg».proof.Pre_finite_inputs
import proofs.«429451_j33646773797363_4_alg».proof.Proof.Gen.Pre_finite_inputs
import proofs.«429451_j33646773797363_4_alg».proof.Proof.Spec
import proofs.«429451_j33646773797363_4_alg».proof.Proof.Reduce12
import Idealize.ShloMosaic.Lib.ReduceAll
import Idealize.ShloMosaic.Lib.IdealHost
import Idealize.ShloMosaic.Lib.ValueLayout
import Idealize.ShloMosaic.PureOps.Ideal.Laws

noncomputable section

open scoped BigOperators

namespace Cert.PreFacts

open Idealize.ShloMosaic Idealize.ShloMosaic.ValueIdx
open Cert.Pre_finite_inputs

/-- The scalar shape has one index. -/
instance : Subsingleton S_.Idx := ⟨fun a b => funext fun d => d.elim0⟩

/-- The conjunction of two one-bit arrays, read at an index. -/
theorem andi_apply {s : Shape} {w : Nat} (x y : IVec s w) (i : s.Idx) : andi x y i = IntOp.andi (x i) (y i) := rfl

/-- The word 0x7F800000 is +∞. -/
theorem ofBits_inf : Ideal.ofBits .f32 0x7F800000#32 = ⊤ := by simp [Ideal.ofBits, Ideal.ieee]

/-- A "less than" test that came out 1 holds. -/
theorem cmp_olt_of_eq_one {x y : EReal} (h : Ideal.cmp .olt x y = 1#1) : x < y := by
  unfold Ideal.cmp at h
  by_contra hn
  simp [hn] at h

/-- A "not equal" test that came out 1 holds. -/
theorem cmp_une_of_eq_one {x y : EReal} (h : Ideal.cmp .une x y = 1#1) : x ≠ y := by
  unfold Ideal.cmp at h
  intro hn
  simp [hn] at h

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The prediction reshaped to 32 × 512 × 512 is the prediction with its channel axis dropped: (b, h, w) and
    (b, 0, h, w) have the same row-major position. -/
theorem shapeCast_img (a0 : S32x1x512x512.Idx → EReal) (hc : S32x1x512x512.ShapeCasts S32x512x512) :
    shapeCast S32x512x512 a0 hc = Cert.Spec.img a0 := by
  funext j
  obtain ⟨b, h, w, rfl⟩ : ∃ b h w, j = ix3 b h w := ⟨j 0, j 1, j 2, eq_ix3 j⟩
  refine shapeCast_apply a0 hc _ (ix4 b (0 : Fin 1) h w) ?_
  rw [Shape.rowMajor_val_four, Shape.rowMajor_val_three]
  show ((b.val * 1 + 0) * 512 + h.val) * 512 + w.val = (b.val * 512 + h.val) * 512 + w.val
  omega

/-- The three conjuncts of the precondition, each still an "all". -/
theorem split [Facts] (a0 : FVec Ideal S32x1x512x512 .f32) (a1 : IVec S32x4096x2 32) (a2 : FVec Ideal S_ .f32)
    (h : fn (F := Ideal) a0 a1 a2 = fun _ => 1#1) :
    (∀ j, Ideal.cmp .olt (max (a0 j) (-(a0 j))) (Ideal.ofBits .f32 0x7F800000#32) = 1#1)
      ∧ (∀ b : Fin 32, Ideal.cmp .une
          (Ideal.hostReduceAdd Facts.reducesTo_S32x512x512_S32_d1_2
              (shapeCast S32x512x512 a0 Facts.shapeCasts_S32x1x512x512_S32x512x512) (Ideal.ofBits .f32 0x00000000#32) (ix1 b)
            + Ideal.ofBits .f32 0x322BCC77#32)
          (Ideal.ofBits .f32 0x00000000#32) = 1#1) := by
  have h0 := congrFun h ix0
  dsimp only [fn] at h0
  rw [andi_apply] at h0
  obtain ⟨h12, h3⟩ := IntOp.andi_eq_one.1 h0
  rw [andi_apply] at h12
  obtain ⟨h1, -⟩ := IntOp.andi_eq_one.1 h12
  have e1 := Host.reduce_andi_all _ _ _ _ _ h1
  have e3 := Host.reduce_andi_all _ _ _ _ _ h3
  exact ⟨fun j => e1 j, fun b => e3 (ix1 b)⟩

/-- Every entry of the prediction is a real number. -/
theorem pred_real [Facts] (a0 : FVec Ideal S32x1x512x512 .f32) (a1 : IVec S32x4096x2 32) (a2 : FVec Ideal S_ .f32)
    (h : fn (F := Ideal) a0 a1 a2 = fun _ => 1#1) : ∀ j, ∃ r : ℝ, a0 j = (r : EReal) := by
  intro j
  have hj := cmp_olt_of_eq_one ((split a0 a1 a2 h).1 j)
  rw [ofBits_inf] at hj
  exact real_of_abs_lt_top _ hj

/-- For every image, the sum of the image plus the small constant is not zero. -/
theorem psum_ne [Facts] (a0 : FVec Ideal S32x1x512x512 .f32) (a1 : IVec S32x4096x2 32) (a2 : FVec Ideal S_ .f32)
    (h : fn (F := Ideal) a0 a1 a2 = fun _ => 1#1) :
    ∀ b : Fin 32, Cert.Spec.sumImg (Cert.Spec.img a0) b + Cert.Spec.eps ≠ 0 := by
  intro b
  have hb := cmp_une_of_eq_one ((split a0 a1 a2 h).2 b)
  rw [shapeCast_img, Cert.Reduce12.reduce12_apply, Ideal.ofBits_zero_f32, zero_add] at hb
  exact hb

end Cert.PreFacts

end
-- ==== Proof.Bridge.lean ====
/-
  The two forms of the loss agree under the precondition: the prediction's entries are real numbers, no image's sum plus the
  small constant is zero, the target is a nonnegative real image whose sum is positive, so the expansion of the square applies
  image by image.
-/
import proofs.«429451_j33646773797363_4_alg».proof.Proof.Spec
import proofs.«429451_j33646773797363_4_alg».proof.Proof.Algebra
import proofs.«429451_j33646773797363_4_alg».proof.Proof.PreFacts

noncomputable section

namespace Cert.Bridge

open Idealize.ShloMosaic Idealize.ShloMosaic.ValueIdx

/-- Under the precondition the expanded form of the per-image error is the cell-by-cell form, for every image. -/
theorem mse_agree (a0 : FVec Ideal Cert.Pre_finite_inputs.S32x1x512x512 .f32) (a1 : IVec Cert.Pre_finite_inputs.S32x4096x2 32)
    (a2 : FVec Ideal Cert.Pre_finite_inputs.S_ .f32)
    (h : Cert.Pre_finite_inputs.fn (F := Ideal) a0 a1 a2 = fun _ => 1#1) :
    Cert.Spec.mseK (Cert.Spec.img a0) (Cert.Spec.targ (Cert.Spec.cnt a1))
      = Cert.Spec.mseR (Cert.Spec.img a0) (Cert.Spec.targ (Cert.Spec.cnt a1)) := by
  funext b
  exact Cert.Spec.Algebra.mse_eq _ _ (fun j => Cert.PreFacts.pred_real a0 a1 a2 h _) (Cert.Spec.Algebra.targ_cnt_real a1) b
    (Cert.PreFacts.psum_ne a0 a1 a2 h b) (Cert.Spec.Algebra.targ_cnt_sum_ne a1 b)

/-- So the two losses are one number. -/
theorem final_agree (a0 : FVec Ideal Cert.Pre_finite_inputs.S32x1x512x512 .f32) (a1 : IVec Cert.Pre_finite_inputs.S32x4096x2 32)
    (a2 : FVec Ideal Cert.Pre_finite_inputs.S_ .f32)
    (h : Cert.Pre_finite_inputs.fn (F := Ideal) a0 a1 a2 = fun _ => 1#1) :
    Cert.Spec.final (Cert.Spec.sumImg (Cert.Spec.img a0)) (Cert.Spec.mseK (Cert.Spec.img a0) (Cert.Spec.targ (Cert.Spec.cnt a1))) (a2 ix0)
      = Cert.Spec.final (Cert.Spec.sumImg (Cert.Spec.img a0)) (Cert.Spec.mseR (Cert.Spec.img a0) (Cert.Spec.targ (Cert.Spec.cnt a1))) (a2 ix0) := by
  rw [mse_agree a0 a1 a2 h]

end Cert.Bridge

end
-- ==== Proof.K.Frame0.lean ====
/-
  Region 0 (the count map): the proof data of its pipeline at the contents `V` the region is entered with, and what the
  launch needs of it.

  The grid has 8 × 8 points, point t = 8·i + n. At each point the body loads a chunk of 512 points of four images, adds
  the chunk's one-hot product to an accumulator it carries from point to point in a scratch buffer, and stores the
  accumulator into the output block; at the first chunk of a row (n = 0) it first stores zeros into the accumulator.
  Two cases therefore: the accumulator is reset (what it held before does not matter), or it continues from what the
  point before left.
-/
import proofs.«429451_j33646773797363_4_alg».proof.Proof.Gen.KernelIdeal.Launch
import proofs.«429451_j33646773797363_4_alg».proof.Proof.Gen.KernelIdeal.Skeleton
import proofs.«429451_j33646773797363_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch condition -/

/-- The condition of the body's one conditional: the second grid coordinate is zero. -/
abbrev cond0_0 (i : grid0.Coords) : Prop := (Scalar.cmpi .ne (Scalar.extui (Scalar.cmpi .eq (BitVec.ofNat 32 (i 1).val) 0#32)) 0#32) = 1#1
/-- It holds at the points ≡ 0 (mod 8): decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-- Neither window is ever idle. -/
theorem liveAt0_0 : ∀ t : Fin cfg0.N, cfg0.idle 0 (grid0.coords t) = false := by decide +kernel
theorem liveAt0_1 : ∀ t : Fin cfg0.N, cfg0.idle 1 (grid0.coords t) = false := by decide +kernel

/-! ## The memrefs the body is called on -/

/-- Each window's current staging memref at point `t`, and its wholeness. -/
abbrev ms0_0 (t : Fin cfg0.N) : Memref sig .tc .vmem S4x512x2 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x512x512 .f32 := win0_1.stage (cfg0.slots t 1)
abbrev hs0_1 (t : Fin cfg0.N) : (ms0_1 t).IsWhole := hstage0_1 ((cfg0.slots t 1).cast nbuf0_1)
/-- The accumulator: a whole scoped buffer of the kernel's own, passed beside the windows. -/
abbrev scM0_0 : Memref sig .tc .vmem S4x512x512 .f32 := Memref.whole cc0_scratch0
/-- The accumulator as a view: what it holds is stated through it. -/
abbrev VS0_0 : View sig .tc .vmem S4x512x512 .f32 := scM0_0.view
/-- One staging buffer of the output window, through which its contents are stated (the choice does not matter). -/
abbrev VO0_1 : View sig .tc .vmem S4x512x512 .f32 := (Memref.whole cc0_stg1_0 : Memref sig .tc .vmem S4x512x512 .f32).view

/-- The scoped buffers of the core other than this call's staging buffers and the accumulator, each whole at some
    contents: never opened. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- What the launch hands the region, with the accumulator as a memref owned at some contents. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA rest0; rw [scopedRest0_eq]; simp only [scM0_0, owns_whole]; try rfl

/-! ## The body on any staging memrefs, case by case -/

set_option maxHeartbeats 1000000 in
/-- What the body's stores leave in the output's staging memref and in the accumulator, as pieces (last first), when the
    accumulator is RESET (the condition holds), with the proof that on whole memrefs — the input's at its contents, the
    output's and the accumulator's at anything — the body runs to the continuation holding the input's as it was and the
    two others with their pieces written. -/
noncomputable def kernelRun0_A (c : Dev nD) (i : grid0.Coords) (arg2 : Memref sig .tc .vmem S4x512x2 .i32) (harg2 : arg2.IsWhole) (arg3 : Memref sig .tc .vmem S4x512x512 .f32) (harg3 : arg3.IsWhole) (arg4 : Memref sig .tc .vmem S4x512x512 .f32) (harg4 : arg4.IsWhole) (hc0 : cond0_0 i)
    (x0 : Vec F S4x512x2 .i32) :
    Σ' (L1 : List (View.Piece (Elt F) S4x512x512 .f32)), { LS0 : List (View.Piece (Elt F) S4x512x512 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__hist_kernel i arg2 harg2 arg3 harg3 arg4 harg4) K } := by
  refine ⟨?_, ?_, fun E K => ?run⟩
  case run =>
    simp only [cc0__hist_kernel_eq_skeleton]; unfold cc0__hist_kernel_skel
    simp only [k0_part1_eq_skeleton]
    unfold owns
    iintro ⟨⟨%f0, %hf0, H0⟩, ⟨%d1, %f1, -, H1⟩, ⟨%ds0, %fs0, -, HS0⟩, Hk⟩
    obtain rfl := harg2.eq_unread hf0
    sl_exec (disch := first | exact hc0)
    sl_step
    iapply Hk
    isplitl [H0]
    · iexists _; isplitr; · ipureintro; exact harg2.read_unread _
      iexact H0
    isplitl [H1]; · iexists _; iexact H1
    iexists _; iexact HS0

set_option maxHeartbeats 1000000 in
/-- The same when the accumulator CONTINUES (the condition fails): the accumulator is taken at the contents `xs0` the
    point before left. -/
noncomputable def kernelRun0_B (c : Dev nD) (i : grid0.Coords) (arg2 : Memref sig .tc .vmem S4x512x2 .i32) (harg2 : arg2.IsWhole) (arg3 : Memref sig .tc .vmem S4x512x512 .f32) (harg3 : arg3.IsWhole) (arg4 : Memref sig .tc .vmem S4x512x512 .f32) (harg4 : arg4.IsWhole) (hc0 : ¬cond0_0 i)
    (x0 : Vec F S4x512x2 .i32) (xs0 : Vec F S4x512x512 .f32) :
    Σ' (L1 : List (View.Piece (Elt F) S4x512x512 .f32)), { LS0 : List (View.Piece (Elt F) S4x512x512 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__hist_kernel i arg2 harg2 arg3 harg3 arg4 harg4) K } := by
  refine ⟨?_, ?_, fun E K => ?run⟩
  case run =>
    simp only [cc0__hist_kernel_eq_skeleton]; unfold cc0__hist_kernel_skel
    simp only [k0_part1_eq_skeleton]
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0)
    sl_step
    iapply Hk
    isplitl [H0]
    · iexists _; isplitr; · ipureintro; exact harg2.read_unread _
      iexact H0
    isplitl [H1]; · iexists _; iexact H1
    iexists _; iexact HS0

/-! ## What each case leaves -/

/-- The reset case's pieces for the output tile its block, so they cover it. -/
theorem cover0_A_1 (c : Dev nD) (i : grid0.Coords) (arg2 : Memref sig .tc .vmem S4x512x2 .i32) (harg2 : arg2.IsWhole) (arg3 : Memref sig .tc .vmem S4x512x512 .f32) (harg3 : arg3.IsWhole) (arg4 : Memref sig .tc .vmem S4x512x512 .f32) (harg4 : arg4.IsWhole) (hc0 : cond0_0 i)
    (x0 : Vec F S4x512x2 .i32) (y : S4x512x512.Idx) :
    ∃ pc ∈ (kernelRun0_A c i arg2 harg2 arg3 harg3 arg4 harg4 hc0 x0).1, y ∈ pc.1.set :=
  View.cover_of_tiledL (kernelRun0_A c i arg2 harg2 arg3 harg3 arg4 harg4 hc0 x0).1 S4x512x512.size (by sl_kernel_rfl) y

/-- What the reset case leaves in the output's staging buffer: its pieces read back over junk. -/
def out0_A_1 (c : Dev nD) (i : grid0.Coords) (arg2 : Memref sig .tc .vmem S4x512x2 .i32) (harg2 : arg2.IsWhole) (arg3 : Memref sig .tc .vmem S4x512x512 .f32) (harg3 : arg3.IsWhole) (arg4 : Memref sig .tc .vmem S4x512x512 .f32) (harg4 : arg4.IsWhole) (hc0 : cond0_0 i)
    (x0 : Vec F S4x512x2 .i32) : Vec F S4x512x512 .f32 :=
  VO0_1.read (Elt F) (VO0_1.writes (Elt F) VO0_1.junk (kernelRun0_A c i arg2 harg2 arg3 harg3 arg4 harg4 hc0 x0).1)

/-- The reset case's pieces for the accumulator cover it. -/
theorem scover0_A_0 (c : Dev nD) (i : grid0.Coords) (arg2 : Memref sig .tc .vmem S4x512x2 .i32) (harg2 : arg2.IsWhole) (arg3 : Memref sig .tc .vmem S4x512x512 .f32) (harg3 : arg3.IsWhole) (arg4 : Memref sig .tc .vmem S4x512x512 .f32) (harg4 : arg4.IsWhole) (hc0 : cond0_0 i)
    (x0 : Vec F S4x512x2 .i32) (y : S4x512x512.Idx) :
    ∃ pc ∈ (kernelRun0_A c i arg2 harg2 arg3 harg3 arg4 harg4 hc0 x0).2.1, y ∈ pc.1.set :=
  View.cover_of_tiledL (kernelRun0_A c i arg2 harg2 arg3 harg3 arg4 harg4 hc0 x0).2.1 S4x512x512.size (by sl_kernel_rfl) y

/-- What the reset case leaves in the accumulator: its pieces read back over junk. -/
def sout0_A_0 (c : Dev nD) (i : grid0.Coords) (arg2 : Memref sig .tc .vmem S4x512x2 .i32) (harg2 : arg2.IsWhole) (arg3 : Memref sig .tc .vmem S4x512x512 .f32) (harg3 : arg3.IsWhole) (arg4 : Memref sig .tc .vmem S4x512x512 .f32) (harg4 : arg4.IsWhole) (hc0 : cond0_0 i)
    (x0 : Vec F S4x512x2 .i32) : Vec F S4x512x512 .f32 :=
  VS0_0.read (Elt F) (VS0_0.writes (Elt F) VS0_0.junk (kernelRun0_A c i arg2 harg2 arg3 harg3 arg4 harg4 hc0 x0).2.1)

/-- The continuing case's pieces for the output cover its block. -/
theorem cover0_B_1 (c : Dev nD) (i : grid0.Coords) (arg2 : Memref sig .tc .vmem S4x512x2 .i32) (harg2 : arg2.IsWhole) (arg3 : Memref sig .tc .vmem S4x512x512 .f32) (harg3 : arg3.IsWhole) (arg4 : Memref sig .tc .vmem S4x512x512 .f32) (harg4 : arg4.IsWhole) (hc0 : ¬cond0_0 i)
    (x0 : Vec F S4x512x2 .i32) (xs0 : Vec F S4x512x512 .f32) (y : S4x512x512.Idx) :
    ∃ pc ∈ (kernelRun0_B c i arg2 harg2 arg3 harg3 arg4 harg4 hc0 x0 xs0).1, y ∈ pc.1.set :=
  View.cover_of_tiledL (kernelRun0_B c i arg2 harg2 arg3 harg3 arg4 harg4 hc0 x0 xs0).1 S4x512x512.size (by sl_kernel_rfl) y

/-- What the continuing case leaves in the output's staging buffer. -/
def out0_B_1 (c : Dev nD) (i : grid0.Coords) (arg2 : Memref sig .tc .vmem S4x512x2 .i32) (harg2 : arg2.IsWhole) (arg3 : Memref sig .tc .vmem S4x512x512 .f32) (harg3 : arg3.IsWhole) (arg4 : Memref sig .tc .vmem S4x512x512 .f32) (harg4 : arg4.IsWhole) (hc0 : ¬cond0_0 i)
    (x0 : Vec F S4x512x2 .i32) (xs0 : Vec F S4x512x512 .f32) : Vec F S4x512x512 .f32 :=
  VO0_1.read (Elt F) (VO0_1.writes (Elt F) VO0_1.junk (kernelRun0_B c i arg2 harg2 arg3 harg3 arg4 harg4 hc0 x0 xs0).1)

/-- The continuing case's pieces for the accumulator cover it. -/
theorem scover0_B_0 (c : Dev nD) (i : grid0.Coords) (arg2 : Memref sig .tc .vmem S4x512x2 .i32) (harg2 : arg2.IsWhole) (arg3 : Memref sig .tc .vmem S4x512x512 .f32) (harg3 : arg3.IsWhole) (arg4 : Memref sig .tc .vmem S4x512x512 .f32) (harg4 : arg4.IsWhole) (hc0 : ¬cond0_0 i)
    (x0 : Vec F S4x512x2 .i32) (xs0 : Vec F S4x512x512 .f32) (y : S4x512x512.Idx) :
    ∃ pc ∈ (kernelRun0_B c i arg2 harg2 arg3 harg3 arg4 harg4 hc0 x0 xs0).2.1, y ∈ pc.1.set :=
  View.cover_of_tiledL (kernelRun0_B c i arg2 harg2 arg3 harg3 arg4 harg4 hc0 x0 xs0).2.1 S4x512x512.size (by sl_kernel_rfl) y

/-- What the continuing case leaves in the accumulator. -/
def sout0_B_0 (c : Dev nD) (i : grid0.Coords) (arg2 : Memref sig .tc .vmem S4x512x2 .i32) (harg2 : arg2.IsWhole) (arg3 : Memref sig .tc .vmem S4x512x512 .f32) (harg3 : arg3.IsWhole) (arg4 : Memref sig .tc .vmem S4x512x512 .f32) (harg4 : arg4.IsWhole) (hc0 : ¬cond0_0 i)
    (x0 : Vec F S4x512x2 .i32) (xs0 : Vec F S4x512x512 .f32) : Vec F S4x512x512 .f32 :=
  VS0_0.read (Elt F) (VS0_0.writes (Elt F) VS0_0.junk (kernelRun0_B c i arg2 harg2 arg3 harg3 arg4 harg4 hc0 x0 xs0).2.1)

/-! ## The pieces read back -/

theorem hz3 : (![0, 0, 0] : Fin 3 → Nat) = fun _ => 0 := funext fun a => by fin_cases a <;> rfl

/-- A load through the whole-shape rectangle at zero offsets, after stores the LAST of which went through that
    rectangle, reads the last store's payload. -/
theorem readCov_cons_unit_zero {Val : EltTy → Type} [∀ e, Nonempty (Val e)] {S : Shape} {e : EltTy} {sg : RefSig} {κ : Kind} {sp : Space}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- Reset: the accumulator ends at the chunk's product added to zeros. -/
theorem sout0_A_0_eq (c : Dev nD) (i : grid0.Coords) (arg2 : Memref sig .tc .vmem S4x512x2 .i32) (harg2 : arg2.IsWhole) (arg3 : Memref sig .tc .vmem S4x512x512 .f32) (harg3 : arg3.IsWhole) (arg4 : Memref sig .tc .vmem S4x512x512 .f32) (harg4 : arg4.IsWhole) (hc0 : cond0_0 i)
    (x0 : Vec F S4x512x2 .i32) : sout0_A_0 c i arg2 harg2 arg3 harg3 arg4 harg4 hc0 x0 = k0_pay2 x0 k0_pay1 := by
  unfold sout0_A_0
  rw [View.read_writes_eq_canon _ _ _ (scover0_A_0 c i arg2 harg2 arg3 harg3 arg4 harg4 hc0 x0)]
  unfold kernelRun0_A
  dsimp only
  sl_unfold_words
  rw [View.canon_cons_unit_zero (S := S4x512x512) hz3, View.readCov_unit_zero (S := S4x512x512) _ hz3]
  simp only [View.readAt_eq_ld, harg2.read_unread, View.ld_unit_zero (S := S4x512x2) hz3]

/-- Reset: the output's buffer ends at the same array. -/
theorem out0_A_1_eq (c : Dev nD) (i : grid0.Coords) (arg2 : Memref sig .tc .vmem S4x512x2 .i32) (harg2 : arg2.IsWhole) (arg3 : Memref sig .tc .vmem S4x512x512 .f32) (harg3 : arg3.IsWhole) (arg4 : Memref sig .tc .vmem S4x512x512 .f32) (harg4 : arg4.IsWhole) (hc0 : cond0_0 i)
    (x0 : Vec F S4x512x2 .i32) : out0_A_1 c i arg2 harg2 arg3 harg3 arg4 harg4 hc0 x0 = k0_pay2 x0 k0_pay1 := by
  unfold out0_A_1
  rw [View.read_writes_eq_canon _ _ _ (cover0_A_1 c i arg2 harg2 arg3 harg3 arg4 harg4 hc0 x0)]
  unfold kernelRun0_A
  dsimp only
  sl_unfold_words
  rw [View.canon_unit_zero (S := S4x512x512) hz3, readCov_cons_unit_zero (S := S4x512x512) _ hz3, View.readCov_unit_zero (S := S4x512x512) _ hz3]
  simp only [View.readAt_eq_ld, harg2.read_unread, View.ld_unit_zero (S := S4x512x2) hz3]

/-- Continuing: the accumulator ends at the chunk's product added to what it held. -/
theorem sout0_B_0_eq (c : Dev nD) (i : grid0.Coords) (arg2 : Memref sig .tc .vmem S4x512x2 .i32) (harg2 : arg2.IsWhole) (arg3 : Memref sig .tc .vmem S4x512x512 .f32) (harg3 : arg3.IsWhole) (arg4 : Memref sig .tc .vmem S4x512x512 .f32) (harg4 : arg4.IsWhole) (hc0 : ¬cond0_0 i)
    (x0 : Vec F S4x512x2 .i32) (xs0 : Vec F S4x512x512 .f32) : sout0_B_0 c i arg2 harg2 arg3 harg3 arg4 harg4 hc0 x0 xs0 = k0_pay2 x0 xs0 := by
  unfold sout0_B_0
  rw [View.read_writes_eq_canon _ _ _ (scover0_B_0 c i arg2 harg2 arg3 harg3 arg4 harg4 hc0 x0 xs0)]
  unfold kernelRun0_B
  dsimp only
  sl_unfold_words
  rw [View.canon_unit_zero (S := S4x512x512) hz3]
  simp only [View.readAt_eq_ld, harg2.read_unread, harg4.read_unread, View.ld_unit_zero (S := S4x512x2) hz3, View.ld_unit_zero (S := S4x512x512) hz3]

/-- Continuing: the output's buffer ends at the same array. -/
theorem out0_B_1_eq (c : Dev nD) (i : grid0.Coords) (arg2 : Memref sig .tc .vmem S4x512x2 .i32) (harg2 : arg2.IsWhole) (arg3 : Memref sig .tc .vmem S4x512x512 .f32) (harg3 : arg3.IsWhole) (arg4 : Memref sig .tc .vmem S4x512x512 .f32) (harg4 : arg4.IsWhole) (hc0 : ¬cond0_0 i)
    (x0 : Vec F S4x512x2 .i32) (xs0 : Vec F S4x512x512 .f32) : out0_B_1 c i arg2 harg2 arg3 harg3 arg4 harg4 hc0 x0 xs0 = k0_pay2 x0 xs0 := by
  unfold out0_B_1
  rw [View.read_writes_eq_canon _ _ _ (cover0_B_1 c i arg2 harg2 arg3 harg3 arg4 harg4 hc0 x0 xs0)]
  unfold kernelRun0_B
  dsimp only
  sl_unfold_words
  rw [View.canon_unit_zero (S := S4x512x512) hz3, View.readCov_unit_zero (S := S4x512x512) _ hz3]
  simp only [View.readAt_eq_ld, harg2.read_unread, harg4.read_unread, View.ld_unit_zero (S := S4x512x2) hz3, View.ld_unit_zero (S := S4x512x512) hz3]

/-! ## The blocks and the accumulator -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after position `n`: reset at the first point of each row of the grid, then one chunk of points added. -/
def acc0 (c : Dev nD) : (n : ℕ) → n < cfg0.N → Vec F S4x512x512 .f32
  | 0, hn => k0_pay2 (iblk0 V c 0 ⟨0, hn⟩) k0_pay1
  | n + 1, hn =>
    if (n + 1) % 8 = 0 then k0_pay2 (iblk0 V c 0 ⟨n + 1, hn⟩) k0_pay1
    else k0_pay2 (iblk0 V c 0 ⟨n + 1, hn⟩) (acc0 c n (Nat.lt_of_succ_lt hn))

/-- The accumulator at a point where it is reset. -/
theorem acc0_A (c : Dev nD) (t : Fin cfg0.N) (h0 : t.val % 8 = 0) :
    acc0 V c t.val t.isLt = k0_pay2 (iblk0 V c 0 t) k0_pay1 := by
  obtain ⟨n, hn⟩ := t
  cases n with
  | zero => rfl
  | succ n => exact if_pos h0

/-- The accumulator at a point where it continues: over what the point before left. -/
theorem acc0_B (c : Dev nD) (t : Fin cfg0.N) (h0 : ¬t.val % 8 = 0) :
    acc0 V c t.val t.isLt = k0_pay2 (iblk0 V c 0 t) (acc0 V c (t.val - 1) (Nat.lt_of_le_of_lt (Nat.sub_le _ _) t.isLt)) := by
  obtain ⟨n, hn⟩ := t
  cases n with
  | zero => exact absurd (Nat.zero_mod _) h0
  | succ n => exact if_neg h0

/-- The input's current staging buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The region invariant -/

/-- The invariant before position `n`: before the first point what the launch hands over (every scoped buffer at
    anything); afterwards the accumulator at what the point before left, the other scoped buffers at anything, and the
    generator register at some state. -/
def PhiS (c : Dev nD) : (n : ℕ) → n ≤ cfg0.N → sProp 𝕄
  | 0, _ => Pipeline.ΦA spec0 c
  | n + 1, hn => iprop(iprop(owns (c : Thread nD τ) scM0_0 fullShare (acc0 V c n hn) ∗ rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (acc0 V c n hn) ∗ rest0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare (acc0 V c (n - 1) (by omega)) ∗ rest0 (F := F) c) ∗ (∃ r, prngReg c r)) := by
  cases n with
  | zero => exact absurd rfl hz
  | succ n => rfl

/-! ## The pipeline's proof data -/

/-- The proof data of pipeline 0 on core `c`: the arrays as the region finds them; after the body at point `t` the
    input's buffer at its block and the output's at the accumulator; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => acc0 V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

/-- The invariant at a point's start, restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = acc0 V c t.val t.isLt := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the input's memref holds its block; the closed form says which case the point is in; the
    invariant hands the body the accumulator (at anything when it is reset, at what the point before left when it
    continues) and takes it back at this point's contents; the output's buffer ends at the same contents; the other
    scoped buffers and the generator register pass through; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 8 = 0
  · rw [acc0_A V c t h0]
    by_cases hz : t.val = 0
    · rw [PhiS_castSucc V c t, PhiS_zero V c _ _ hz, PhiA0_eq]
      iintro ⟨⟨⟨HS0, Hr⟩, Hg⟩, Ho, ⟨%d0, H0⟩, ⟨%d1, H1⟩⟩
      iapply ((kernelRun0_A c (grid0.coords t) _ _ _ _ _ _ ((hcond0_0 t).mpr h0) (iblk0 V c 0 t)).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hr Hg]
      · isplitl [HS0 Hr]
        · isplitl [HS0]
          · unfold owns; iexists _; isplitr
            swap; · iexact HS0
            ipureintro; exact (View.read_writes_of_cover _ _ _ _ _ (scover0_A_0 c _ _ _ _ _ _ _ _ _)).trans (sout0_A_0_eq c (grid0.coords t) (ms0_0 t) (hs0_0 t) (ms0_1 t) (hs0_1 t) scM0_0 (Memref.isWhole_whole _) ((hcond0_0 t).mpr h0) (iblk0 V c 0 t))
          iexact Hr
        iexact Hg
      isplitl [Ho]; · iexact Ho
      isplitl [H0]; · iexact H0
      unfold owns; iexists _; isplitr
      swap; · iexact H1
      ipureintro; exact (View.read_writes_of_cover _ _ _ _ _ (cover0_A_1 c _ _ _ _ _ _ _ _ _)).trans (out0_A_1_eq c (grid0.coords t) (ms0_0 t) (hs0_0 t) (ms0_1 t) (hs0_1 t) scM0_0 (Memref.isWhole_whole _) ((hcond0_0 t).mpr h0) (iblk0 V c 0 t))
    · rw [PhiS_castSucc V c t, PhiS_pos V c _ _ hz]
      iintro ⟨⟨⟨HS0, Hr⟩, Hg⟩, Ho, ⟨%d0, H0⟩, ⟨%d1, H1⟩⟩
      iapply ((kernelRun0_A c (grid0.coords t) _ _ _ _ _ _ ((hcond0_0 t).mpr h0) (iblk0 V c 0 t)).2.2 Set.univ _)
      isplitl [H0]; · iexact H0
      isplitl [H1]; · iexists _; iexact H1
      isplitl [HS0]; · iexists _; iexact HS0
      iintro ⟨H0, ⟨%e1, H1⟩, ⟨%es0, HS0⟩⟩
      isplitl [HS0 Hr Hg]
      · isplitl [HS0 Hr]
        · isplitl [HS0]
          · unfold owns; iexists _; isplitr
            swap; · iexact HS0
            ipureintro; exact (View.read_writes_of_cover _ _ _ _ _ (scover0_A_0 c _ _ _ _ _ _ _ _ _)).trans (sout0_A_0_eq c (grid0.coords t) (ms0_0 t) (hs0_0 t) (ms0_1 t) (hs0_1 t) scM0_0 (Memref.isWhole_whole _) ((hcond0_0 t).mpr h0) (iblk0 V c 0 t))
          iexact Hr
        iexact Hg
      isplitl [Ho]; · iexact Ho
      isplitl [H0]; · iexact H0
      unfold owns; iexists _; isplitr
      swap; · iexact H1
      ipureintro; exact (View.read_writes_of_cover _ _ _ _ _ (cover0_A_1 c _ _ _ _ _ _ _ _ _)).trans (out0_A_1_eq c (grid0.coords t) (ms0_0 t) (hs0_0 t) (ms0_1 t) (hs0_1 t) scM0_0 (Memref.isWhole_whole _) ((hcond0_0 t).mpr h0) (iblk0 V c 0 t))
  · rw [acc0_B V c t h0]
    have hz : t.val ≠ 0 := fun e => h0 (by rw [e])
    rw [PhiS_castSucc V c t, PhiS_pos V c _ _ hz]
    iintro ⟨⟨⟨HS0, Hr⟩, Hg⟩, Ho, ⟨%d0, H0⟩, ⟨%d1, H1⟩⟩
    iapply ((kernelRun0_B c (grid0.coords t) _ _ _ _ _ _ (fun h => h0 ((hcond0_0 t).mp h)) (iblk0 V c 0 t) _).2.2 Set.univ _)
    isplitl [H0]; · iexact H0
    isplitl [H1]; · iexists _; iexact H1
    isplitl [HS0]; · iexact HS0
    iintro ⟨H0, ⟨%e1, H1⟩, ⟨%es0, HS0⟩⟩
    isplitl [HS0 Hr Hg]
    · isplitl [HS0 Hr]
      · isplitl [HS0]
        · unfold owns; iexists _; isplitr
          swap; · iexact HS0
          ipureintro; exact (View.read_writes_of_cover _ _ _ _ _ (scover0_B_0 c _ _ _ _ _ _ _ _ _ _)).trans (sout0_B_0_eq c (grid0.coords t) (ms0_0 t) (hs0_0 t) (ms0_1 t) (hs0_1 t) scM0_0 (Memref.isWhole_whole _) (fun h => h0 ((hcond0_0 t).mp h)) (iblk0 V c 0 t) _)
        iexact Hr
      iexact Hg
    isplitl [Ho]; · iexact Ho
    isplitl [H0]; · iexact H0
    unfold owns; iexists _; isplitr
    swap; · iexact H1
    ipureintro; exact (View.read_writes_of_cover _ _ _ _ _ (cover0_B_1 c _ _ _ _ _ _ _ _ _ _)).trans (out0_B_1_eq c (grid0.coords t) (ms0_0 t) (hs0_0 t) (ms0_1 t) (hs0_1 t) scM0_0 (Memref.isWhole_whole _) (fun h => h0 ((hcond0_0 t).mp h)) (iblk0 V c 0 t) _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After any point but the first the invariant gives it back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Hand

end
-- ==== Proof.K.Frame1.lean ====
/-
  Region 1 (the five sums and the per-image error): the proof data of its pipeline at the contents `V` the region is
  entered with, and what the launch needs of it.

  The grid has 4 points; at each the body loads a block of 8 predicted images and the block of their count maps, stores
  zeros over a scratch buffer of 8 × 514 × 514 cells, stores the count block one cell in from its border, reads the
  nine shifted windows of the padded scratch, and stores two blocks of per-image results. The scratch is written whole
  before it is read, so nothing is carried from point to point.
-/
import proofs.«429451_j33646773797363_4_alg».proof.Proof.Gen.KernelIdeal.Launch
import proofs.«429451_j33646773797363_4_alg».proof.Proof.Gen.KernelIdeal.Skeleton
import proofs.«429451_j33646773797363_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch after the body's two stores: zeros everywhere, then the count block one cell in from the border (pieces LAST FIRST). -/
def padv (x1 : Vec F S8x512x512 .f32) : Vec F S8x514x514 .f32 :=
  View.canon [⟨Rect.unit (s := S8x514x514) ![0, 1, 1] S8x512x512.size inb_S8x514x514_S8x512x512_0_1_1, k1_pay5 x1⟩,
    ⟨Rect.unit (s := S8x514x514) ![0, 0, 0] S8x514x514.size inb_S8x514x514_S8x514x514_0_0_0, k1_pay4 (F := F)⟩]

/-- The nine shifted reads of the padded scratch, by their offsets. -/
def tap22 (x1 : Vec F S8x512x512 .f32) : Vec F S8x512x512 .f32 := View.ld (padv x1) (Rect.unit (s := S8x514x514) ![0, 2, 2] S8x512x512.size inb_S8x514x514_S8x512x512_0_2_2)
def tap21 (x1 : Vec F S8x512x512 .f32) : Vec F S8x512x512 .f32 := View.ld (padv x1) (Rect.unit (s := S8x514x514) ![0, 2, 1] S8x512x512.size inb_S8x514x514_S8x512x512_0_2_1)
def tap20 (x1 : Vec F S8x512x512 .f32) : Vec F S8x512x512 .f32 := View.ld (padv x1) (Rect.unit (s := S8x514x514) ![0, 2, 0] S8x512x512.size inb_S8x514x514_S8x512x512_0_2_0)
def tap12 (x1 : Vec F S8x512x512 .f32) : Vec F S8x512x512 .f32 := View.ld (padv x1) (Rect.unit (s := S8x514x514) ![0, 1, 2] S8x512x512.size inb_S8x514x514_S8x512x512_0_1_2)
def tap11 (x1 : Vec F S8x512x512 .f32) : Vec F S8x512x512 .f32 := View.ld (padv x1) (Rect.unit (s := S8x514x514) ![0, 1, 1] S8x512x512.size inb_S8x514x514_S8x512x512_0_1_1)
def tap10 (x1 : Vec F S8x512x512 .f32) : Vec F S8x512x512 .f32 := View.ld (padv x1) (Rect.unit (s := S8x514x514) ![0, 1, 0] S8x512x512.size inb_S8x514x514_S8x512x512_0_1_0)
def tap02 (x1 : Vec F S8x512x512 .f32) : Vec F S8x512x512 .f32 := View.ld (padv x1) (Rect.unit (s := S8x514x514) ![0, 0, 2] S8x512x512.size inb_S8x514x514_S8x512x512_0_0_2)
def tap01 (x1 : Vec F S8x512x512 .f32) : Vec F S8x512x512 .f32 := View.ld (padv x1) (Rect.unit (s := S8x514x514) ![0, 0, 1] S8x512x512.size inb_S8x514x514_S8x512x512_0_0_1)
def tap00 (x1 : Vec F S8x512x512 .f32) : Vec F S8x512x512 .f32 := View.ld (padv x1) (Rect.unit (s := S8x514x514) ![0, 0, 0] S8x512x512.size inb_S8x514x514_S8x512x512_0_0_0)

/-- What the body leaves in output window 2's buffer (the sums of the prediction's images), from the two input blocks. -/
def out1_2 (x0 x1 : Vec F S8x512x512 .f32) : Vec F S8x128 .f32 := k1_pay1 (k1_pay9 (k1_pay3 x0))
/-- What the body leaves in output window 3's buffer (the per-image errors), from the two input blocks. -/
def out1_3 (x0 x1 : Vec F S8x512x512 .f32) : Vec F S8x128 .f32 :=
  k1_pay2 (k1_pay9 (k1_pay3 x0)) (k1_pay10 (k1_pay3 x0))
    (k1_pay11 (k1_pay6 (tap22 x1) (tap21 x1) (tap20 x1)) (k1_pay7 (tap12 x1)) (tap11 x1) (tap10 x1) (tap02 x1) (tap01 x1) (tap00 x1))
    (k1_pay12 (k1_pay6 (tap22 x1) (tap21 x1) (tap20 x1)) (k1_pay7 (tap12 x1)) (tap11 x1) (tap10 x1) (tap02 x1) (tap01 x1) (tap00 x1))
    (k1_pay13 (k1_pay3 x0) (k1_pay6 (tap22 x1) (tap21 x1) (tap20 x1)) (k1_pay7 (tap12 x1)) (tap11 x1) (tap10 x1) (tap02 x1) (tap01 x1) (tap00 x1))

/-! ## The memrefs the body is called on -/

/-- No window is ever idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

/-- Each window's current staging memref at point `t`, and its wholeness. -/
abbrev ms1_0 (t : Fin cfg1.N) : Memref sig .tc .vmem S8x512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x128 .f32 := win1_3.stage (cfg1.slots t 3)
abbrev hs1_3 (t : Fin cfg1.N) : (ms1_3 t).IsWhole := hstage1_3 ((cfg1.slots t 3).cast nbuf1_3)
/-- The padded scratch: a whole scoped buffer of the kernel's own, passed beside the windows. -/
abbrev scM1_0 : Memref sig .tc .vmem S8x514x514 .f32 := Memref.whole cc1_scratch0
/-- One staging buffer of each output window, through which its contents are stated (the choice does not matter). -/
abbrev VO1_2 : View sig .tc .vmem S8x128 .f32 := (Memref.whole cc1_stg2_0 : Memref sig .tc .vmem S8x128 .f32).view
abbrev VO1_3 : View sig .tc .vmem S8x128 .f32 := (Memref.whole cc1_stg3_0 : Memref sig .tc .vmem S8x128 .f32).view

/-- What the launch hands the region, with the padded scratch as a memref owned at some contents; the other scoped
    buffers, each whole at some contents, are never opened. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

/-! ## The body on any staging memrefs -/

theorem hz3_1 : (![0, 0, 0] : Fin 3 → Nat) = fun _ => 0 := funext fun a => by fin_cases a <;> rfl
theorem hz2_1 : (![0, 0] : Fin 2 → Nat) = fun _ => 0 := funext fun a => by fin_cases a <;> rfl

/-- A load of the scratch after its two stores reads the padded array through the load's rectangle. -/
theorem readCov_padv (arg5 : Memref sig .tc .vmem S8x514x514 .f32) (x1 : Vec F S8x512x512 .f32) (r : Rect S8x514x514) :
    arg5.view.readCov [⟨Rect.unit (s := S8x514x514) ![0, 1, 1] S8x512x512.size inb_S8x514x514_S8x512x512_0_1_1, k1_pay5 x1⟩,
      ⟨Rect.unit (s := S8x514x514) ![0, 0, 0] S8x514x514.size inb_S8x514x514_S8x514x514_0_0_0, k1_pay4 (F := F)⟩] r.toLoadRect
      = View.ld (padv x1) r := by
  unfold padv
  exact View.readCov_eq_canon_ld _ _ _ (fun y => ⟨_, List.mem_cons_of_mem _ (List.mem_singleton_self _), View.mem_set_unit_zero (S := S8x514x514) hz3_1 inb_S8x514x514_S8x514x514_0_0_0 y⟩)

set_option maxHeartbeats 1000000 in
noncomputable def kernelRun1 (c : Dev nD) (i : grid1.Coords) (arg1 : Memref sig .tc .vmem S8x512x512 .f32) (harg1 : arg1.IsWhole) (arg2 : Memref sig .tc .vmem S8x512x512 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x514x514 .f32) (harg5 : arg5.IsWhole)
    (x0 x1 : Vec F S8x512x512 .f32) :
    Σ' (L2 : List (View.Piece (Elt F) S8x128 .f32)) (L3 : List (View.Piece (Elt F) S8x128 .f32)), { LS0 : List (View.Piece (Elt F) S8x514x514 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc1__loss_kernel i arg1 harg1 arg2 harg2 arg3 harg3 arg4 harg4 arg5 harg5) K } := by
  refine ⟨?_, ?_, ?_, fun E K => ?run⟩
  case run =>
    simp only [cc1__loss_kernel_eq_skeleton]; unfold cc1__loss_kernel_skel
    simp only [k1_part1_eq_skeleton, k1_part2_eq_skeleton]
    unfold owns
    iintro ⟨⟨%f0, %hf0, H0⟩, ⟨%f1, %hf1, H1⟩, ⟨%d2, %f2, -, H2⟩, ⟨%d3, %f3, -, H3⟩, ⟨%ds0, %fs0, -, HS0⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

theorem cover1_2 (c : Dev nD) (i : grid1.Coords) (arg1 : Memref sig .tc .vmem S8x512x512 .f32) (harg1 : arg1.IsWhole) (arg2 : Memref sig .tc .vmem S8x512x512 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x514x514 .f32) (harg5 : arg5.IsWhole)
    (x0 x1 : Vec F S8x512x512 .f32) (y : S8x128.Idx) :
    ∃ pc ∈ (kernelRun1 c i arg1 harg1 arg2 harg2 arg3 harg3 arg4 harg4 arg5 harg5 x0 x1).1, y ∈ pc.1.set :=
  View.cover_of_tiledL (kernelRun1 c i arg1 harg1 arg2 harg2 arg3 harg3 arg4 harg4 arg5 harg5 x0 x1).1 S8x128.size (by sl_kernel_rfl) y

theorem cover1_3 (c : Dev nD) (i : grid1.Coords) (arg1 : Memref sig .tc .vmem S8x512x512 .f32) (harg1 : arg1.IsWhole) (arg2 : Memref sig .tc .vmem S8x512x512 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x514x514 .f32) (harg5 : arg5.IsWhole)
    (x0 x1 : Vec F S8x512x512 .f32) (y : S8x128.Idx) :
    ∃ pc ∈ (kernelRun1 c i arg1 harg1 arg2 harg2 arg3 harg3 arg4 harg4 arg5 harg5 x0 x1).2.1, y ∈ pc.1.set :=
  View.cover_of_tiledL (kernelRun1 c i arg1 harg1 arg2 harg2 arg3 harg3 arg4 harg4 arg5 harg5 x0 x1).2.1 S8x128.size (by sl_kernel_rfl) y

set_option maxHeartbeats 400000 in
theorem found1_2_eq (c : Dev nD) (i : grid1.Coords) (arg1 : Memref sig .tc .vmem S8x512x512 .f32) (harg1 : arg1.IsWhole) (arg2 : Memref sig .tc .vmem S8x512x512 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x514x514 .f32) (harg5 : arg5.IsWhole)
    (x0 x1 : Vec F S8x512x512 .f32) :
    VO1_2.read (Elt F) (VO1_2.writes (Elt F) VO1_2.junk (kernelRun1 c i arg1 harg1 arg2 harg2 arg3 harg3 arg4 harg4 arg5 harg5 x0 x1).1) = out1_2 x0 x1 := by
  rw [View.read_writes_eq_canon _ _ _ (cover1_2 c i arg1 harg1 arg2 harg2 arg3 harg3 arg4 harg4 arg5 harg5 x0 x1)]
  unfold kernelRun1
  dsimp only
  sl_unfold_words
  rw [View.canon_unit_zero (S := S8x128) hz2_1]
  simp only [View.readAt_eq_ld, harg1.read_unread, View.ld_unit_zero (S := S8x512x512) hz3_1]
  rfl

set_option maxHeartbeats 400000 in
theorem found1_3_eq (c : Dev nD) (i : grid1.Coords) (arg1 : Memref sig .tc .vmem S8x512x512 .f32) (harg1 : arg1.IsWhole) (arg2 : Memref sig .tc .vmem S8x512x512 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x514x514 .f32) (harg5 : arg5.IsWhole)
    (x0 x1 : Vec F S8x512x512 .f32) :
    VO1_3.read (Elt F) (VO1_3.writes (Elt F) VO1_3.junk (kernelRun1 c i arg1 harg1 arg2 harg2 arg3 harg3 arg4 harg4 arg5 harg5 x0 x1).2.1) = out1_3 x0 x1 := by
  rw [View.read_writes_eq_canon _ _ _ (cover1_3 c i arg1 harg1 arg2 harg2 arg3 harg3 arg4 harg4 arg5 harg5 x0 x1)]
  unfold kernelRun1
  dsimp only
  sl_unfold_words
  rw [View.canon_unit_zero (S := S8x128) hz2_1]
  simp only [View.readAt_eq_ld, harg1.read_unread, harg2.read_unread, View.ld_unit_zero (S := S8x512x512) hz3_1]
  iterate 9 rw [readCov_padv]
  rfl

/-! ## The inputs' blocks -/

/-- Input window 0's current staging buffer holds its block at every point, for any proof data whose array is `V`'s
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the invariant hands the body the padded scratch at
    anything and takes it back at anything; each output's buffer ends at the named function of the two input blocks;
    the other scoped buffers and the generator register pass through; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Pipeline.ΦA spec1 c from rfl, show (dat1 V c).Φ t.castSucc = Pipeline.ΦA spec1 c from rfl, PhiA1_eq]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  iintro ⟨⟨⟨Hr1, Hr2, Hr3, Hr4, Hr5, HS0⟩, Hg⟩, Ho, ⟨%d0, H0⟩, ⟨%d1, H1⟩, ⟨%d2, H2⟩, ⟨%d3, H3⟩⟩
  iapply ((kernelRun1 c (grid1.coords t) _ _ _ _ _ _ _ _ _ _ (iblk1 V c 0 t) (iblk1 V c 1 t)).2.2.2 Set.univ _)
  isplitl [H0]; · iexact H0
  isplitl [H1]; · iexact H1
  isplitl [H2]; · iexists _; iexact H2
  isplitl [H3]; · iexists _; iexact H3
  isplitl [HS0]; · iexact HS0
  iintro ⟨H0, H1, ⟨%e2, H2⟩, ⟨%e3, H3⟩, ⟨%es0, HS0⟩⟩
  isplitl [Hr1 Hr2 Hr3 Hr4 Hr5 HS0 Hg]
  · isplitl [Hr1 Hr2 Hr3 Hr4 Hr5 HS0]
    · isplitl [Hr1]; · iexact Hr1
      isplitl [Hr2]; · iexact Hr2
      isplitl [Hr3]; · iexact Hr3
      isplitl [Hr4]; · iexact Hr4
      isplitl [Hr5]; · iexact Hr5
      iexists _; unfold owns; iexists _; isplitr
      swap; · iexact HS0
      ipureintro; rfl
    iexact Hg
  isplitl [Ho]; · iexact Ho
  isplitl [H0]; · iexact H0
  isplitl [H1]; · iexact H1
  isplitl [H2]
  · unfold owns; iexists _; isplitr
    swap; · iexact H2
    ipureintro; exact (View.read_writes_of_cover _ _ _ _ _ (cover1_2 c _ _ _ _ _ _ _ _ _ _ _ _ _)).trans (found1_2_eq c (grid1.coords t) (ms1_0 t) (hs1_0 t) (ms1_1 t) (hs1_1 t) (ms1_2 t) (hs1_2 t) (ms1_3 t) (hs1_3 t) scM1_0 (Memref.isWhole_whole _) (iblk1 V c 0 t) (iblk1 V c 1 t))
  unfold owns; iexists _; isplitr
  swap; · iexact H3
  ipureintro; exact (View.read_writes_of_cover _ _ _ _ _ (cover1_3 c _ _ _ _ _ _ _ _ _ _ _ _ _)).trans (found1_3_eq c (grid1.coords t) (ms1_0 t) (hs1_0 t) (ms1_1 t) (hs1_1 t) (ms1_2 t) (hs1_2 t) (ms1_3 t) (hs1_3 t) scM1_0 (Memref.isWhole_whole _) (iblk1 V c 0 t) (iblk1 V c 1 t))

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant, at every point. -/
theorem hin1 (c : Dev nD) : Pipeline.ΦA spec1 c ⊢ (dat1 V c).Φ 0 :=
  Idealize.SL.BI.Entails.refl _

theorem hout1 (c : Dev nD) : (dat1 V c).Φ (Fin.last cfg1.N) ⊢ Pipeline.ΦA spec1 c :=
  Idealize.SL.BI.Entails.refl _

end Cert.KernelIdeal.Hand

end
-- ==== Proof.K.Run.lean ====
/-
  The launch of the two-region program: @main's four items (a stretch of host operations, the count-map region, the
  sums-and-error region, a last stretch of host operations) run in order over the several-regions launch, from the two
  regions' proof data. What it gives: every weakly fair execution terminates, and at the end every unscoped buffer of a
  core holds the fold `W4` of the launch memory through the four items; in particular the three arguments end as launched.
-/
import proofs.«429451_j33646773797363_4_alg».proof.Proof.K.Frame0
import proofs.«429451_j33646773797363_4_alg».proof.Proof.K.Frame1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between two items: a fold through @main -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the input as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents, which region 1 is entered from). -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last host stretch: what the program returns with. -/
abbrev W4 : Dev nD → Valuation τ sig (Elt F) := fun c => StableHlo.after hostOps2 (W3 m ρ c)

/-! ### What the host stretches write -/

/-- No operation of the first stretch allocates a buffer. -/
theorem hostOps0_fresh : (hostOps0 : List (HloOp τ sig (Elt F))).Forall fun op => op.fresh = ∅ := by
  simp only [List.Forall]; repeat' constructor
/-- No operation of the last stretch allocates a buffer. -/
theorem hostOps2_fresh : (hostOps2 : List (HloOp τ sig (Elt F))).Forall fun op => op.fresh = ∅ := by
  simp only [List.Forall]; repeat' constructor

/-- The one reference the first stretch writes. -/
abbrev hostOps0_W : List (Ref sig .tc) := [main_v0]
theorem hostOps0_writes : (hostOps0 : List (HloOp τ sig (Elt F))).Forall fun op => op.writes ⊆ (hostOps0_W.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  exact List.mem_map_of_mem (by decide)
/-- The references the last stretch writes. -/
abbrev hostOps2_W : List (Ref sig .tc) := [main_v3, main_v4, main_v5, main_v6, main_v7, main_v8, main_cst, main_v9, main_v10, main_v11, main_cst_0, main_v12, main_cst_1, main_v13, main_cst_2, main_v14, main_cst_3, main_v15, main_cst_4, main_v16, main_cst_5, main_v17, main_v18]
theorem hostOps2_writes : (hostOps2 : List (HloOp τ sig (Elt F))).Forall fun op => op.writes ⊆ (hostOps2_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-! ### The arguments end as launched: no host operation and no region writes one (region 0 reads the points through an
    input window; the other two arguments are no window's array) -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at
    some state. -/
abbrev Tₙ (c : Dev nD) : sProp 𝕄 := iprop(StableHlo.held (c : Thread nD τ) (Pipeline.ucRefs τ sig) (W4 m ρ c) ∗ ∃ r, prngReg c r)

/-- The last host stretch's thread state, regrouped: the dues apart from the rest. -/
theorem last_assoc (c : Dev nD) :
    iprop(StableHlo.held (c : Thread nD τ) (Pipeline.ucRefs τ sig) (W4 m ρ c) ∗ R c)
      ⊢ iprop(Tₙ m ρ c ∗ ∃ W, owes (c : Thread nD τ) (0 : CellTallies nD τ sig Unit) W) := by
  iintro ⟨Hh, Hp, HO⟩
  isplitl [Hh Hp]
  · isplitl [Hh] <;> iassumption
  iexact HO

/-! ## The regions as segments -/

set_option backward.isDefEq.respectTransparency.types false in
/-- Region 0 over the thread state: entered from every unscoped buffer at `W1`, left at `W2`. Its arrays split out of the
    unscoped buffers and put back at the exit contents; the generator register and the scoped rest into the region's invariant
    and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2` (what region 0 leaves: no host operation
    stands between the two), left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun w => A_eq1 (V2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: the chain of its items, then the segments' run against that chain. -/
theorem main_run (c : Dev nD) : main (F := F) c = Pipeline.Seg.run (segs m ρ) := (main_chain c).trans (by chain_rfl)

set_option backward.isDefEq.respectTransparency.types false in
/-- THE RUN. From any memory with zero counters, every weakly fair execution of @main on the TensorCores terminates, nothing
    faulting, and in every final state each unscoped buffer of each core holds the fold `W4` of the launch memory through the
    four items. -/
theorem run_all : θ_run defs (onTc (τ := τ) (main (F := F))) ⟨m, fun _ => 0, ρ⟩
    (fun r => ∀ c : Dev nD, ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => last_assoc m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

/-- THE FRAME at any `F`: every weakly fair execution of @main terminates, nothing faulting, and every final state has the three
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  OrdCont.mono (θ_run defs (onTc (τ := τ) (main (F := F))) ⟨m, fun _ => 0, ρ⟩) (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.KernelIdeal.Hand

end
-- ==== Proof.K.Tail.lean ====
/-
  The two host stretches of the program read at the extended reals.

  Before the first region the prediction's unit channel axis is dropped: the 32 × 512 × 512 array at (b, h, w) is the
  32 × 1 × 512 × 512 array at (b, 0, h, w), and nothing else changes.

  After the second region, column 0 of the two 32 × 128 result arrays holds, per image, a sum over the image and an error.
  The loss is read off them: each sum is divided by the area and compared with the number of points, the absolute errors
  are averaged over the 32 images and doubled, the per-image errors are averaged and scaled by 0.15, and the two are added.
-/
import proofs.«429451_j33646773797363_4_alg».proof.Proof.Gen.KernelIdeal.Launch
import proofs.«429451_j33646773797363_4_alg».proof.Proof.Spec
import Idealize.ShloMosaic.Lib.StableHlo.Run
import Idealize.ShloMosaic.PureOps.Ideal.Laws
import Idealize.ShloMosaic.Lib.ValueIdx
import Idealize.ShloMosaic.Lib.Pipeline.Value
import Idealize.ShloMosaic.Lib.IdealHost

set_option maxRecDepth 16384

noncomputable section

open scoped BigOperators

namespace Cert.KernelIdeal.HandTail

open Idealize.ShloMosaic Idealize.ShloMosaic.TcCoe Idealize.ShloMosaic.ValueIdx
open Cert.KernelIdeal Cert.KernelIdeal.Gen

/-- Column 0 of a 32 × 128 array, cut out as a 32 × 1 array and read as a 32-vector, at b is the array at (b, 0). -/
theorem col0_apply (X : S32x128.Idx → EReal) (hs : S32x128.Slices ![0, 0] S32x1) (hc : S32x1.ShapeCasts S32) (b : Fin 32) :
    shapeCast S32 (extractStridedSlice S32x1 ![0, 0] X hs) hc (ix1 b) = X (ix2 b (0 : Fin 128)) := by
  refine (shapeCast_apply _ hc (ix1 b) (ix2 b (0 : Fin 1)) ?_).trans ?_
  · rw [Shape.rowMajor_val_two, Shape.rowMajor_val_one]
    show b.val * 1 + 0 = b.val
    omega
  · exact extractStridedSlice_apply _ X hs (ix2 b (0 : Fin 1)) (ix2 b (0 : Fin 128)) (fun a =>
      match a with
      | ⟨0, _⟩ => by show b.val = 0 + b.val; omega
      | ⟨1, _⟩ => rfl)

/-- A sum over the indices of a 32-vector is the sum over its coordinate. -/
theorem sum_idx1 (x : S32.Idx → EReal) : ∑ j : S32.Idx, x j = ∑ b : Fin 32, x (ix1 b) :=
  (Fintype.sum_equiv ⟨fun b : Fin 32 => (ix1 b : S32.Idx), fun j => j 0, fun _ => rfl, fun j => (eq_ix1 j).symm⟩ _ _
    (fun _ => rfl)).symm

/-- The host's sum of a 32-vector into a scalar, from the zero word, is the sum of its entries. -/
theorem sum32 (x : S32.Idx → EReal) (h : S32.ReducesTo [0] S_) (hu : 0 < S_.numel) (i : S_.Idx) :
    Host.reduceAdd (F := Ideal) (φ := .f32) x (constant (F := Ideal) S_ .f32 0x00000000#32) h hu i = ∑ b : Fin 32, x (ix1 b) := by
  show Ideal.hostReduceAdd h x (Ideal.ofBits .f32 0x00000000#32) i = _
  rw [Ideal.hostReduceAdd_total h (fun b => b.elim0) x, Ideal.ofBits_zero_f32, zero_add]
  exact sum_idx1 x

/-- The absolute count error of one image: its sum over the area, less the number of points, in absolute value. -/
theorem absErr_apply (v : S32.Idx → EReal) (a : S_.Idx → EReal) (hb : S_.BroadcastsInDim S32 (![] : Fin 0 → Fin S32.rank)) (j : S32.Idx) :
    Host.absf (F := Ideal) (φ := .f32)
        (subf (Host.divf v (broadcastInDim S32 ![] hb a)) (broadcastInDim S32 ![] hb (constant (F := Ideal) S_ .f32 0x45800000#32))) j
      = max (Ideal.div (v j) (a ix0) - Ideal.ofBits .f32 0x45800000#32) (-(Ideal.div (v j) (a ix0) - Ideal.ofBits .f32 0x45800000#32)) := by
  show max (Ideal.div (v j) (broadcastInDim S32 ![] hb a j) - broadcastInDim S32 ![] hb (constant (F := Ideal) S_ .f32 0x45800000#32) j)
      (-(Ideal.div (v j) (broadcastInDim S32 ![] hb a j) - broadcastInDim S32 ![] hb (constant (F := Ideal) S_ .f32 0x45800000#32) j)) = _
  rw [broadcastInDim_scalar_apply hb a j, broadcastInDim_scalar_apply hb (constant (F := Ideal) S_ .f32 0x45800000#32) j]
  rfl

/-- After the second stretch the result is the loss of the per-image sums and errors in column 0 of the two result arrays. -/
theorem tail_val (W : Valuation τ sig (Elt Ideal)) :
    StableHlo.after (Cert.KernelIdeal.Gen.hostOps2 (F := Ideal)) W (Proc.devRef .tc main_v18)
      = fun _ => Cert.Spec.final (fun b => W (Proc.devRef .tc main_v2_0) (ValueIdx.ix2 b (0 : Fin 128)))
          (fun b => W (Proc.devRef .tc main_v2_1) (ValueIdx.ix2 b (0 : Fin 128))) (W (Proc.devRef .tc main_arg2) ValueIdx.ix0) := by
  open StableHlo in after_results
  funext i
  unfold Cert.Spec.final Cert.Spec.cTwo Cert.Spec.cBatch Cert.Spec.cSpatial Cert.Spec.cPts
  refine congrArg₂ (· + ·) (congrArg (Ideal.ofBits .f32 0x40000000#32 * ·) (congrArg (Ideal.div · (Ideal.ofBits .f32 0x42000000#32)) ?_))
    (congrArg (Ideal.ofBits .f32 0x3E19999A#32 * ·) (congrArg (Ideal.div · (Ideal.ofBits .f32 0x42000000#32)) ?_))
  · refine (sum32 _ reducesTo_S32_S_d0 h_S_ i).trans (Finset.sum_congr rfl fun b _ => ?_)
    refine (absErr_apply _ _ bcast_S_S32 (ix1 b)).trans ?_
    exact congrArg (fun t => max (Ideal.div t (W (Proc.devRef .tc main_arg2) ix0) - Ideal.ofBits .f32 0x45800000#32)
        (-(Ideal.div t (W (Proc.devRef .tc main_arg2) ix0) - Ideal.ofBits .f32 0x45800000#32)))
      (col0_apply (W (Proc.devRef .tc main_v2_0)) slices_S32x128_S32x1_0_0 shapeCasts_S32x1_S32 b)
  · refine (sum32 _ reducesTo_S32_S_d0 h_S_ i).trans (Finset.sum_congr rfl fun b _ => ?_)
    exact col0_apply (W (Proc.devRef .tc main_v2_1)) slices_S32x128_S32x1_0_0 shapeCasts_S32x1_S32 b

/-- Dropping the unit channel axis: the 32 × 512 × 512 reading of a 32 × 1 × 512 × 512 array at (b, h, w) is the array at (b, 0, h, w). -/
theorem dropChan_apply (X : S32x1x512x512.Idx → EReal) (hc : S32x1x512x512.ShapeCasts S32x512x512) (b : Fin 32) (h w : Fin 512) :
    shapeCast S32x512x512 X hc (ix3 b h w) = X (ix4 b (0 : Fin 1) h w) := by
  refine shapeCast_apply X hc (ix3 b h w) (ix4 b (0 : Fin 1) h w) ?_
  rw [Shape.rowMajor_val_four, Shape.rowMajor_val_three]
  show ((b.val * 1 + 0) * 512 + h.val) * 512 + w.val = (b.val * 512 + h.val) * 512 + w.val
  omega

/-- After the first stretch the prediction stands with its channel axis dropped. -/
theorem head_v0 (W : Valuation τ sig (Elt Ideal)) :
    StableHlo.after (Cert.KernelIdeal.Gen.hostOps0 (F := Ideal)) W (Proc.devRef .tc main_v0)
      = Cert.Spec.img (W (Proc.devRef .tc main_arg0)) := by
  open StableHlo in after_results
  funext j
  obtain ⟨b, h, w, rfl⟩ : ∃ (b : Fin 32) (h w : Fin 512), j = ix3 b h w := ⟨j 0, j 1, j 2, eq_ix3 j⟩
  exact dropChan_apply (W (Proc.devRef .tc main_arg0)) shapeCasts_S32x1x512x512_S32x512x512 b h w

/-- The first stretch writes nothing else. -/
theorem head_keep (W : Valuation τ sig (Elt Ideal)) (r : Ref sig .tc) (hr : r ≠ main_v0) :
    StableHlo.after (Cert.KernelIdeal.Gen.hostOps0 (F := Ideal)) W (Proc.devRef .tc r) = W (Proc.devRef .tc r) := by
  simp only [StableHlo.after_cons, StableHlo.after_nil]
  rw [StableHlo.reshape_result_ne]
  exact hr

end Cert.KernelIdeal.HandTail
-- ==== Proof.K.Value0a.lean ====
/-
  The first kernel's body at an index.

  Per point, the body adds to its accumulator the product of two one-hot arrays built from a block of 4 × 512 points:
  the left array holds at (r, p, h) whether the clamped y coordinate of point p of row r is h, the right array at
  (r, p, w) whether its clamped x coordinate is w; the product contracts the point axis. So the body's value at
  (r, h, w) is the accumulator there plus the number of the block's points that fall in cell (h, w).
-/
import proofs.«429451_j33646773797363_4_alg».proof.Proof.Gen.KernelIdeal.Skeleton
import proofs.«429451_j33646773797363_4_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.HandValue

open Idealize.ShloMosaic Idealize.ShloMosaic.ValueIdx
open Cert.KernelIdeal Cert.KernelIdeal.Gen

/-- A one-bit word widened to 32 bits and read as a signed integer is 1 or 0. -/
theorem toInt_setWidth_bit (c : BitVec 1) : (c.setWidth 32).toInt = if c = 1#1 then 1 else 0 := by
  revert c; decide

/-- The equality test of two words is 1 exactly when they are equal. -/
theorem cmpi_eq_eq_one (a b : BitVec 32) : IntOp.cmpi .eq a b = 1#1 ↔ a = b := by
  unfold IntOp.cmpi
  by_cases h : a = b
  · simp [h]
  · have hb : (a == b) = false := by simpa using h
    simp [hb, h]

/-- The equality test widened, read as a signed integer, as an extended real: the indicator of equality. -/
theorem onehot_val (a b : BitVec 32) :
    ((((IntOp.cmpi .eq a b).setWidth 32).toInt : ℝ) : EReal) = if a = b then (1 : EReal) else 0 := by
  rw [toInt_setWidth_bit]
  by_cases h : a = b
  · rw [if_pos ((cmpi_eq_eq_one a b).2 h), if_pos h]; norm_num
  · rw [if_neg (fun e => h ((cmpi_eq_eq_one a b).1 e)), if_neg h]; norm_num

/-- Column `o` of the block of points, as a 4 × 512 array. -/
theorem slice_col_apply (v3 : S4x512x2.Idx → BitVec 32) (o : ℕ) (ho : o < 2) (hs : S4x512x2.Slices ![0, 0, o] S4x512x1)
    (hc : S4x512x1.ShapeCasts S4x512) (r : Fin 4) (p : Fin 512) :
    shapeCast S4x512 (extractStridedSlice S4x512x1 ![0, 0, o] v3 hs) hc (ix2 r p) = v3 (ix3 r p ⟨o, ho⟩) := by
  refine (shapeCast_apply _ hc _ (ix3 r p (0 : Fin 1)) ?_).trans ?_
  · rw [Shape.rowMajor_val_three, Shape.rowMajor_val_two]
    show (r.val * 512 + p.val) * 1 + 0 = r.val * 512 + p.val
    omega
  · refine extractStridedSlice_apply _ v3 hs _ _ fun a => ?_
    match a with
    | ⟨0, _⟩ => show r.val = 0 + r.val; omega
    | ⟨1, _⟩ => show p.val = 0 + p.val; omega
    | ⟨2, _⟩ => show o = o + 0; omega

/-- A 4 × 512 array viewed as a column and spread along a new last axis reads, at (r, p, q), the array at (r, p). -/
theorem col_bcast_apply (x : S4x512.Idx → BitVec 32) (hc : S4x512.ShapeCasts S4x512x1) (hb : S4x512x1.Broadcasts S4x512x512)
    (r : Fin 4) (p q : Fin 512) :
    broadcastTo S4x512x512 (shapeCast S4x512x1 x hc) hb (ix3 r p q) = x (ix2 r p) := by
  refine (broadcastTo_apply _ hb _ (ix3 r p (0 : Fin 1)) fun a => ?_).trans ?_
  · match a with
    | ⟨0, _⟩ => rfl
    | ⟨1, _⟩ => rfl
    | ⟨2, _⟩ => rfl
  · refine shapeCast_apply x hc _ (ix2 r p) ?_
    rw [Shape.rowMajor_val_three, Shape.rowMajor_val_two]
    show r.val * 512 + p.val = (r.val * 512 + p.val) * 1 + 0
    omega

/-- A one-hot array: the test of the last coordinate against a column of words, as an extended real. -/
theorem onehot_apply (x : S4x512.Idx → BitVec 32) (hi : S4x512x512.Iotas .tc 32 [2]) (hc : S4x512.ShapeCasts S4x512x1)
    (hb : S4x512x1.Broadcasts S4x512x512) (hlt : 1 < 32) (hbits : FTy.bf16.bits < FTy.f32.bits) (r : Fin 4) (p q : Fin 512) :
    (truncf .bf16 (sitofp (F := Ideal) .f32 (extui 32 (cmpi .eq (iota .tc S4x512x512 32 [2] hi)
        (broadcastTo S4x512x512 (shapeCast S4x512x1 x hc) hb)) hlt)) hbits) (ix3 r p q)
      = if x (ix2 r p) = BitVec.ofNat 32 q.val then (1 : EReal) else 0 := by
  show ((((IntOp.cmpi .eq (iota .tc S4x512x512 32 [2] hi (ix3 r p q))
      (broadcastTo S4x512x512 (shapeCast S4x512x1 x hc) hb (ix3 r p q))).setWidth 32).toInt : ℝ) : EReal) = _
  rw [onehot_val, iota_single_apply, col_bcast_apply]
  exact if_congr eq_comm rfl rfl

/-- The product of two 4 × 512 × 512 stacks contracting the middle axis of both, into zero, read at an index. -/
theorem matmul0_apply (A B : FVec Ideal S4x512x512 .bf16) (r : Fin 4) (h w : Fin 512) :
    matmul dot_S4x512x512_S4x512x512_S4x512x512_1_1_2_2_0_0 none A B (constant (F := Ideal) S4x512x512 .f32 0x00000000#32) (ix3 r h w)
      = ∑ p : Fin 512, A (ix3 r p h) * B (ix3 r p w) := by
  show FloatOps.matmul dot_S4x512x512_S4x512x512_S4x512x512_1_1_2_2_0_0 none A B (constant S4x512x512 .f32 0x00000000#32) (ix3 r h w) = _
  rw [Ideal.matmul_constant_zero_apply,
    ← Equiv.sum_comp (contrEquiv1 dot_S4x512x512_S4x512x512_S4x512x512_1_1_2_2_0_0 512 rfl rfl).symm]
  refine Finset.sum_congr rfl fun p _ => ?_
  have c3 := contrEquiv1_symm_val dot_S4x512x512_S4x512x512_S4x512x512_1_1_2_2_0_0 512 rfl rfl p
  have l3 : dot_S4x512x512_S4x512x512_S4x512x512_1_1_2_2_0_0.lhsIdx (ix3 r h w) ((contrEquiv1 _ 512 rfl rfl).symm p) = ix3 r p h := by
    funext ax; apply Fin.ext
    match ax with
    | ⟨0, _⟩ => simp [DotDims.lhsIdx, dot_S4x512x512_S4x512x512_S4x512x512_1_1_2_2_0_0]; rfl
    | ⟨1, _⟩ => simp [DotDims.lhsIdx, dot_S4x512x512_S4x512x512_S4x512x512_1_1_2_2_0_0]; exact c3
    | ⟨2, _⟩ => simp [DotDims.lhsIdx, dot_S4x512x512_S4x512x512_S4x512x512_1_1_2_2_0_0]; rfl
  have r3 : dot_S4x512x512_S4x512x512_S4x512x512_1_1_2_2_0_0.rhsIdx (ix3 r h w) ((contrEquiv1 _ 512 rfl rfl).symm p) = ix3 r p w := by
    funext ax; apply Fin.ext
    match ax with
    | ⟨0, _⟩ => simp [DotDims.rhsIdx, dot_S4x512x512_S4x512x512_S4x512x512_1_1_2_2_0_0]; rfl
    | ⟨1, _⟩ => simp [DotDims.rhsIdx, dot_S4x512x512_S4x512x512_S4x512x512_1_1_2_2_0_0]; exact c3
    | ⟨2, _⟩ => simp [DotDims.rhsIdx, dot_S4x512x512_S4x512x512_S4x512x512_1_1_2_2_0_0]; rfl
  rw [l3, r3]

/-- A column of the block of points, clamped into [0, 511]. -/
theorem clamp_col_apply (v3 : S4x512x2.Idx → BitVec 32) (o : ℕ) (ho : o < 2) (hs : S4x512x2.Slices ![0, 0, o] S4x512x1)
    (hc : S4x512x1.ShapeCasts S4x512) (r : Fin 4) (p : Fin 512) :
    minsi (broadcast S4x512 511#32) (maxsi (broadcast S4x512 0#32)
        (shapeCast S4x512 (extractStridedSlice S4x512x1 ![0, 0, o] v3 hs) hc)) (ix2 r p)
      = Cert.Spec.clampW (v3 (ix3 r p ⟨o, ho⟩)) := by
  show IntOp.minsi 511#32 (IntOp.maxsi 0#32
    (shapeCast S4x512 (extractStridedSlice S4x512x1 ![0, 0, o] v3 hs) hc (ix2 r p))) = _
  rw [slice_col_apply v3 o ho]
  rfl

/-- The value the body stores at the first point of a row of points: zero. -/
theorem k0_pay1_apply (j : S4x512x512.Idx) : k0_pay1 (F := Ideal) j = 0 := by
  dsimp only [k0_pay1]
  rw [shapeCast_self]
  show Ideal.ofBits .f32 0x00000000#32 = 0
  exact Ideal.ofBits_zero_f32

/-- The value the body stores at (r, h, w): the accumulator there plus the number of points of row r of the block
    whose clamped coordinates are (w, h). -/
theorem k0_pay2_apply (v3 : Vec Ideal S4x512x2 .i32) (v30 : Vec Ideal S4x512x512 .f32) (r : Fin 4) (h w : Fin 512) :
    k0_pay2 (F := Ideal) v3 v30 (ix3 r h w)
      = v30 (ix3 r h w) + ∑ p : Fin 512,
          (if Cert.Spec.clampW (v3 (ix3 r p (1 : Fin 2))) = BitVec.ofNat 32 h.val then (1 : EReal) else 0)
            * (if Cert.Spec.clampW (v3 (ix3 r p (0 : Fin 2))) = BitVec.ofNat 32 w.val then (1 : EReal) else 0) := by
  dsimp only [k0_pay2]
  rw [shapeCast_self, addf_apply, matmul0_apply]
  refine congrArg (v30 (ix3 r h w) + ·) (Finset.sum_congr rfl fun p _ => ?_)
  rw [onehot_apply, onehot_apply, clamp_col_apply v3 1 (by omega), clamp_col_apply v3 0 (by omega)]
  rfl

end Cert.KernelIdeal.HandValue

end
-- ==== Proof.K.Value0.lean ====
/-
  Region 0 (the count map): what its output array holds after the region, at the ideal values.

  The grid has 8 × 8 points; point t = 8·i + n reads chunk n (512 points) of the four images 4·i … 4·i + 3 and adds, at
  every cell (h, w) of each of them, the number of the chunk's points whose clamped coordinates are (w, h) to an
  accumulator that is reset at n = 0. So after point t the accumulator holds the sum of the chunks 0 … n of its image
  group, and at n = 7, where the block is written back, the count over all 8 · 512 = 4096 points of each image: its block
  of the count map. The blocks written back cover the array.
-/
import proofs.«429451_j33646773797363_4_alg».proof.Proof.K.Frame0
import proofs.«429451_j33646773797363_4_alg».proof.Proof.K.Value0a
import proofs.«429451_j33646773797363_4_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.HandValue

open Idealize.ShloMosaic Idealize.ShloMosaic.ValueIdx Idealize.ShloMosaic.TcCoe
open Cert.KernelIdeal Cert.KernelIdeal.Gen

open Cert.KernelIdeal.Hand

variable (V : (c : Dev nD) → (b : Ref sig .tc) → Buf (Elt Ideal) ((c : Thread nD τ).loc b)) (c : Dev nD)

/-! ## The accumulator after a point: the chunks of the point's row of the grid so far, added up -/

/-- What one chunk of 512 points adds at a cell of its four images: how many of them fall in the cell. -/
def chunk (v3 : Vec Ideal S4x512x2 .i32) (j : S4x512x512.Idx) : EReal :=
  ∑ p : Fin 512, (if Cert.Spec.clampW (v3 (ix3 (j 0 : Fin 4) p (1 : Fin 2))) = BitVec.ofNat 32 (j 1).val then (1 : EReal) else 0)
    * (if Cert.Spec.clampW (v3 (ix3 (j 0 : Fin 4) p (0 : Fin 2))) = BitVec.ofNat 32 (j 2).val then (1 : EReal) else 0)

/-- One step of the body adds the chunk to what the accumulator held. -/
theorem pay2_chunk (v3 : Vec Ideal S4x512x2 .i32) (v30 : Vec Ideal S4x512x512 .f32) (j : S4x512x512.Idx) :
    k0_pay2 (F := Ideal) v3 v30 j = v30 j + chunk v3 j := by
  obtain ⟨r, h, w, rfl⟩ : ∃ (r : Fin 4) (h w : Fin 512), j = ix3 r h w := ⟨j 0, j 1, j 2, eq_ix3 j⟩
  exact k0_pay2_apply v3 v30 r h w

/-- The chunk of the points block read at point `n` of the grid (zero past the grid). -/
def addend (n : ℕ) (j : S4x512x512.Idx) : EReal :=
  if hn : n < cfg0.N then chunk (iblk0 V c 0 ⟨n, hn⟩) j else 0

/-- The accumulator after point `t`: the chunks of the points `8·(t / 8) … t`, summed. -/
theorem acc0_eq (t : Fin cfg0.N) (j : S4x512x512.Idx) :
    acc0 V c t.val t.isLt j = ∑ s ∈ Finset.range (t.val % 8 + 1), addend V c (8 * (t.val / 8) + s) j := by
  have h' : 8 * (t.val / 8) + t.val % 8 < cfg0.N := by rw [Nat.div_add_mod]; exact t.isLt
  have h0 : ∀ (n : ℕ) (h : n < cfg0.N), n % 8 = 0 →
      acc0 V c n h = k0_pay2 (F := Ideal) (iblk0 V c 0 ⟨n, h⟩) (k0_pay1 (F := Ideal)) := by
    intro n h hm
    cases n with
    | zero => rfl
    | succ n => show (if (n + 1) % 8 = 0 then _ else _) = _; rw [if_pos hm]
  have hs : ∀ (n : ℕ) (h : n + 1 < cfg0.N), ¬(n + 1) % 8 = 0 →
      acc0 V c (n + 1) h = k0_pay2 (F := Ideal) (iblk0 V c 0 ⟨n + 1, h⟩) (acc0 V c n (Nat.lt_of_succ_lt h)) := by
    intro n h hm
    show (if (n + 1) % 8 = 0 then _ else _) = _
    rw [if_neg hm]
  rw [Pipeline.eq_accAt_of_mod (acc0 V c) 8 (fun n h => k0_pay2 (F := Ideal) (iblk0 V c 0 ⟨n, h⟩) (k0_pay1 (F := Ideal)))
    (fun n h acc => k0_pay2 (F := Ideal) (iblk0 V c 0 ⟨n, h⟩) acc) h0 hs (by decide) t.val t.isLt h']
  have hm : t.val % 8 ≤ 7 := by omega
  rw [Pipeline.accAt_add_apply _ _ (fun _ => (0 : EReal)) (addend V c) (8 * (t.val / 8)) 7
    (fun h i => by
      show k0_pay2 (F := Ideal) _ _ i = _
      rw [pay2_chunk, k0_pay1_apply]; unfold addend; rw [dif_pos h])
    (fun n h acc i _ _ => by
      show k0_pay2 (F := Ideal) _ _ i = _
      rw [pay2_chunk]; unfold addend; rw [dif_pos h])
    (t.val % 8) hm h' j]
  exact zero_add _

/-! ## The windows' blocks in their arrays -/

/-- The printed index maps over the grid: point `t` is chunk `t % 8` of the four images `4·(t / 8) …`. -/
theorem idx_facts : ∀ t : Fin cfg0.N, win0_0.index t (0 : Fin 3) = t.val / 8 ∧ win0_0.index t (1 : Fin 3) = t.val % 8
    ∧ win0_0.index t (2 : Fin 3) = 0 ∧ win0_1.index t (0 : Fin 3) = t.val / 8 ∧ win0_1.index t (1 : Fin 3) = 0
    ∧ win0_1.index t (2 : Fin 3) = 0 :=
  (by decide +kernel : ∀ t : Fin grid0.N, _)

/-- The points block at point `t`, read at (image, point, coordinate), is the points array at image
    `4·(t / 8) + r` and point `512·(t % 8) + p`. -/
theorem iblk0_apply (t : Fin cfg0.N) (r : Fin 4) (p : Fin 512) (a : Fin 2) (b : Fin 32) (n : Fin 4096)
    (hb : b.val = 4 * (t.val / 8) + r.val) (hn : n.val = 512 * (t.val % 8) + p.val) :
    (iblk0 V c 0 t : Vec Ideal S4x512x2 .i32) (ix3 r p a) = V c main_arg1 (ix3 b n a) := by
  obtain ⟨e0, e1, e2, -, -, -⟩ := idx_facts t
  unfold iblk0
  rw [View.read_apply]
  show V c main_arg1 (((cfg0.win 0).blk t).view.emb (ix3 r p a)) = V c main_arg1 (ix3 b n a)
  congr 1
  funext a'
  apply Fin.ext
  match a' with
  | ⟨0, _⟩ => show win0_0.index t (0 : Fin 3) * 4 + 1 * r.val = b.val; rw [e0, hb]; omega
  | ⟨1, _⟩ => show win0_0.index t (1 : Fin 3) * 512 + 1 * p.val = n.val; rw [e1, hn]; omega
  | ⟨2, _⟩ => show win0_0.index t (2 : Fin 3) * 2 + 1 * a.val = a.val; rw [e2]; omega

/-! ## The last chunk of an image group: the count map -/

/-- 4096 points are 8 chunks of 512. -/
theorem sum_chunks (f : Fin 4096 → EReal) :
    ∑ n : Fin 4096, f n
      = ∑ s : Fin 8, ∑ p : Fin 512, f ⟨512 * s.val + p.val, by have := s.isLt; have := p.isLt; omega⟩ := by
  rw [← Equiv.sum_comp (finProdFinEquiv : Fin 8 × Fin 512 ≃ Fin (8 * 512)) f, Fintype.sum_prod_type]
  refine Finset.sum_congr rfl fun s _ => Finset.sum_congr rfl fun p _ => congrArg f (Fin.ext ?_)
  show p.val + 512 * s.val = 512 * s.val + p.val
  omega

/-- The chunk at a cell given by its coordinates. -/
theorem chunk_apply (v3 : Vec Ideal S4x512x2 .i32) (r : Fin 4) (h w : Fin 512) :
    chunk v3 (ix3 r h w) = ∑ p : Fin 512, (if Cert.Spec.clampW (v3 (ix3 r p (1 : Fin 2))) = BitVec.ofNat 32 h.val then (1 : EReal) else 0)
      * (if Cert.Spec.clampW (v3 (ix3 r p (0 : Fin 2))) = BitVec.ofNat 32 w.val then (1 : EReal) else 0) := rfl

/-- After the last chunk of an image group the accumulator holds the count maps of the group's four images. -/
theorem acc0_last (t : Fin cfg0.N) (h7 : t.val % 8 = 7) (r : Fin 4) (h w : Fin 512) (b : Fin 32)
    (hb : b.val = 4 * (t.val / 8) + r.val) :
    acc0 V c t.val t.isLt (ix3 r h w) = Cert.Spec.cnt (V c main_arg1) (ix3 b h w) := by
  have hN : cfg0.N = 64 := N_0
  have ht : t.val < cfg0.N := t.isLt
  rw [acc0_eq, h7]
  show ∑ s ∈ Finset.range 8, addend V c (8 * (t.val / 8) + s) (ix3 r h w) = ∑ n : Fin 4096, Cert.Spec.hit (V c main_arg1) b n h w
  rw [Finset.sum_range (fun s => addend V c (8 * (t.val / 8) + s) (ix3 r h w)), sum_chunks]
  refine Finset.sum_congr rfl fun s _ => ?_
  have hs8 : s.val < 8 := s.isLt
  have hs : 8 * (t.val / 8) + s.val < cfg0.N := by omega
  have hd : (8 * (t.val / 8) + s.val) / 8 = t.val / 8 := by omega
  have hm : (8 * (t.val / 8) + s.val) % 8 = s.val := by omega
  unfold addend
  rw [dif_pos hs, chunk_apply]
  refine Finset.sum_congr rfl fun p _ => ?_
  have hp : p.val < 512 := p.isLt
  rw [iblk0_apply V c ⟨8 * (t.val / 8) + s.val, hs⟩ r p 1 b ⟨512 * s.val + p.val, by omega⟩
      (by show b.val = 4 * ((8 * (t.val / 8) + s.val) / 8) + r.val; rw [hd]; exact hb)
      (by show 512 * s.val + p.val = 512 * ((8 * (t.val / 8) + s.val) % 8) + p.val; rw [hm]),
    iblk0_apply V c ⟨8 * (t.val / 8) + s.val, hs⟩ r p 0 b ⟨512 * s.val + p.val, by omega⟩
      (by show b.val = 4 * ((8 * (t.val / 8) + s.val) / 8) + r.val; rw [hd]; exact hb)
      (by show 512 * s.val + p.val = 512 * ((8 * (t.val / 8) + s.val) % 8) + p.val; rw [hm])]
  rfl

/-! ## The array after the region -/

/-- What a point that writes its block back writes is its block of the count map. -/
theorem flushed_eq (t : Fin cfg0.N) (hf : (cfg0.win 1).flush t = true) :
    (dat0 V c).flushed 1 t = ((cfg0.win 1).blk t).view.read (Elt Ideal) (Cert.Spec.cnt (V c main_arg1)) := by
  have h7 : t.val % 8 = 7 := (flush0_1 t).mp hf
  have hN : cfg0.N = 64 := N_0
  have ht : t.val < cfg0.N := t.isLt
  obtain ⟨-, -, -, e0, e1, e2⟩ := idx_facts t
  have key : ∀ y : S4x512x512.Idx, acc0 V c t.val t.isLt y
      = Cert.Spec.cnt (V c main_arg1) (((cfg0.win 1).blk t).view.emb y) := by
    intro y
    obtain ⟨r, h, w, rfl⟩ : ∃ (r : Fin 4) (h w : Fin 512), y = ix3 r h w := ⟨y 0, y 1, y 2, eq_ix3 y⟩
    have hr : r.val < 4 := r.isLt
    rw [acc0_last V c t h7 r h w ⟨4 * (t.val / 8) + r.val, by omega⟩ rfl]
    congr 1
    funext a
    apply Fin.ext
    match a with
    | ⟨0, _⟩ => show 4 * (t.val / 8) + r.val = win0_1.index t (0 : Fin 3) * 4 + 1 * r.val; rw [e0]; omega
    | ⟨1, _⟩ => show h.val = win0_1.index t (1 : Fin 3) * 512 + 1 * h.val; rw [e1]; omega
    | ⟨2, _⟩ => show w.val = win0_1.index t (2 : Fin 3) * 512 + 1 * w.val; rw [e2]; omega
  funext y
  rw [View.read_apply]
  exact key y

/-- The count-map array after the region holds the count map of the points array. -/
theorem arr0_val : (dat0 (F := Ideal) V c).arrAt 1 cfg0.N = Cert.Spec.cnt (V c main_arg1) :=
  (dat0 V c).arrAt_eq_of_cover 1 (Cert.Spec.cnt (V c main_arg1)) (flushed_eq V c) fun i => by
    have hN : cfg0.N = 64 := N_0
    have hi0 : (i 0).val < 32 := (i 0).isLt
    have hi1 : (i 1).val < 512 := (i 1).isLt
    have hi2 : (i 2).val < 512 := (i 2).isLt
    have hlt : 8 * ((i 0).val / 4) + 7 < cfg0.N := by omega
    obtain ⟨-, -, -, e0, e1, e2⟩ := idx_facts ⟨8 * ((i 0).val / 4) + 7, hlt⟩
    refine ⟨⟨8 * ((i 0).val / 4) + 7, hlt⟩, (flush0_1 _).mpr (by show (8 * ((i 0).val / 4) + 7) % 8 = 7; omega), ?_⟩
    show i ∈ ((View.whole main_v1).slice (win0_1.rect ⟨8 * ((i 0).val / 4) + 7, hlt⟩)).set
    rw [View.set_slice_whole, Rect.mem_set_unit]
    intro a
    match a with
    | ⟨0, _⟩ =>
      show win0_1.index ⟨8 * ((i 0).val / 4) + 7, hlt⟩ (0 : Fin 3) * 4 ≤ (i 0).val
        ∧ (i 0).val < win0_1.index ⟨8 * ((i 0).val / 4) + 7, hlt⟩ (0 : Fin 3) * 4 + 4
      rw [e0]; show (8 * ((i 0).val / 4) + 7) / 8 * 4 ≤ (i 0).val ∧ (i 0).val < (8 * ((i 0).val / 4) + 7) / 8 * 4 + 4; omega
    | ⟨1, _⟩ =>
      show win0_1.index ⟨8 * ((i 0).val / 4) + 7, hlt⟩ (1 : Fin 3) * 512 ≤ (i 1).val
        ∧ (i 1).val < win0_1.index ⟨8 * ((i 0).val / 4) + 7, hlt⟩ (1 : Fin 3) * 512 + 512
      rw [e1]; omega
    | ⟨2, _⟩ =>
      show win0_1.index ⟨8 * ((i 0).val / 4) + 7, hlt⟩ (2 : Fin 3) * 512 ≤ (i 2).val
        ∧ (i 2).val < win0_1.index ⟨8 * ((i 0).val / 4) + 7, hlt⟩ (2 : Fin 3) * 512 + 512
      rw [e2]; omega

end Cert.KernelIdeal.HandValue

end
-- ==== Proof.K.Value1a.lean ====
/-
  Region 1, the whole-image sums: a block of eight images summed over its columns and then over its rows is, image by
  image, the double sum over the image's cells; the keepdims column broadcast over 128 lanes reads its row's entry; and
  the second output block is the expanded mean squared difference written out from the five sums.
-/
import proofs.«429451_j33646773797363_4_alg».proof.Proof.K.Frame1
import proofs.«429451_j33646773797363_4_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.HandValue

open Idealize.ShloMosaic Idealize.ShloMosaic.ValueIdx Idealize.ShloMosaic.TcCoe
open Cert.KernelIdeal Cert.KernelIdeal.Gen Cert.KernelIdeal.Hand

theorem sum_axis2 (src : FVec Ideal S8x512x512 .f32) (h : S8x512x512.Reduces [2] S8x512) (hφ : FKind.Formats .f32)
    (hacc : (0x00000000#32 : BitVec 32) = 0x00000000#32) (r : Fin 8) (y : Fin 512) :
    multiReduction .add [2] S8x512 src 0x00000000#32 h hφ hacc (ix2 r y) = ∑ w : Fin 512, src (ix3 r y w) := by
  refine (Ideal.multiReduction_add_single src 0x00000000#32 h hφ hacc (ix2 r y)).trans ?_
  refine Finset.sum_congr rfl fun w _ => congrArg src (funext fun a => Fin.ext ?_)
  match a with
  | ⟨0, _⟩ => rfl
  | ⟨1, _⟩ => rfl
  | ⟨2, _⟩ => rfl

/-- The row sums summed over the rows, at image r. -/
theorem sum_axis1 (src : FVec Ideal S8x512 .f32) (h : S8x512.Reduces [1] S8) (hφ : FKind.Formats .f32)
    (hacc : (0x00000000#32 : BitVec 32) = 0x00000000#32) (r : Fin 8) :
    multiReduction .add [1] S8 src 0x00000000#32 h hφ hacc (ix1 r) = ∑ y : Fin 512, src (ix2 r y) := by
  refine (Ideal.multiReduction_add_single src 0x00000000#32 h hφ hacc (ix1 r)).trans ?_
  refine Finset.sum_congr rfl fun y _ => congrArg src (funext fun a => Fin.ext ?_)
  match a with
  | ⟨0, _⟩ => rfl
  | ⟨1, _⟩ => rfl

/-- The two sums composed: the sum of image r of the block. -/
theorem sum_img (src : FVec Ideal S8x512x512 .f32) (h2 : S8x512x512.Reduces [2] S8x512) (h1 : S8x512.Reduces [1] S8) (hφ hφ' : FKind.Formats .f32)
    (hacc hacc' : (0x00000000#32 : BitVec 32) = 0x00000000#32) (r : Fin 8) :
    multiReduction .add [1] S8 (multiReduction .add [2] S8x512 src 0x00000000#32 h2 hφ hacc) 0x00000000#32 h1 hφ' hacc' (ix1 r)
      = ∑ y : Fin 512, ∑ w : Fin 512, src (ix3 r y w) :=
  (sum_axis1 _ h1 hφ' hacc' r).trans (Finset.sum_congr rfl fun y _ => sum_axis2 src h2 hφ hacc r y)

/-- The sum of each image of a block. -/
theorem pay9_apply (v1 : FVec Ideal S8x512x512 .f32) (r : Fin 8) :
    k1_pay9 v1 (ix1 r) = ∑ y : Fin 512, ∑ w : Fin 512, v1 (ix3 r y w) := by
  unfold k1_pay9
  exact sum_img v1 _ _ _ _ _ _ r

/-- The sum of the squares of each image of a block. -/
theorem pay10_apply (v1 : FVec Ideal S8x512x512 .f32) (r : Fin 8) :
    k1_pay10 v1 (ix1 r) = ∑ y : Fin 512, ∑ w : Fin 512, v1 (ix3 r y w) * v1 (ix3 r y w) := by
  unfold k1_pay10
  exact sum_img (mulf v1 v1) _ _ _ _ _ _ r

/-- A vector of eight entries made a column and laid over 128 lanes reads, at (r, l), its entry r. -/
theorem column_lanes_apply (v : FVec Ideal S8 .f32) (h1 : S8.ShapeCasts S8x1) (h2 : S8x1.ShapeCasts S8x1) (hb : S8x1.Broadcasts S8x128)
    (r : Fin 8) (l : Fin 128) :
    broadcastTo S8x128 (shapeCast S8x1 (shapeCast S8x1 v h1) h2) hb (ix2 r l) = v (ix1 r) := by
  refine (broadcastTo_apply _ hb (ix2 r l) (ix2 r (0 : Fin 1)) fun a => ?_).trans ?_
  · match a with
    | ⟨0, _⟩ => rfl
    | ⟨1, _⟩ => rfl
  · rw [shapeCast_self]
    exact shapeCast_apply v h1 (ix2 r (0 : Fin 1)) (ix1 r) (by
      rw [Shape.rowMajor_val_two, Shape.rowMajor_val_one]
      show r.val = r.val * 1 + 0
      omega)

/-- The first output block: each image's sum over its 128 lanes. -/
theorem pay1_apply (v : FVec Ideal S8 .f32) (r : Fin 8) (l : Fin 128) : k1_pay1 v (ix2 r l) = v (ix1 r) := by
  unfold k1_pay1
  exact column_lanes_apply v _ _ _ r l

/-- The input blocks pass through shape casts to their own shape. -/
theorem pay3_eq (x0 : Vec Ideal S8x512x512 .f32) : k1_pay3 x0 = x0 := by
  unfold k1_pay3
  exact shapeCast_self _ _

/-- The sum of each image of the stencilled block. -/
theorem pay11_apply (v23 v26 : FVec Ideal S8x512x512 .f32) (v28 v32 v36 v40 v44 : Vec Ideal S8x512x512 .f32) (r : Fin 8) :
    k1_pay11 v23 v26 v28 v32 v36 v40 v44 (ix1 r)
      = ∑ y : Fin 512, ∑ w : Fin 512, k1_pay8 v23 v26 v28 v32 v36 v40 v44 (ix3 r y w) := by
  unfold k1_pay11
  exact sum_img _ _ _ _ _ _ _ r

/-- The sum of the squares of each image of the stencilled block. -/
theorem pay12_apply (v23 v26 : FVec Ideal S8x512x512 .f32) (v28 v32 v36 v40 v44 : Vec Ideal S8x512x512 .f32) (r : Fin 8) :
    k1_pay12 v23 v26 v28 v32 v36 v40 v44 (ix1 r)
      = ∑ y : Fin 512, ∑ w : Fin 512, k1_pay8 v23 v26 v28 v32 v36 v40 v44 (ix3 r y w) * k1_pay8 v23 v26 v28 v32 v36 v40 v44 (ix3 r y w) := by
  unfold k1_pay12
  exact sum_img (mulf (k1_pay8 v23 v26 v28 v32 v36 v40 v44) (k1_pay8 v23 v26 v28 v32 v36 v40 v44)) _ _ _ _ _ _ r

/-- The product of the prediction block and the stencilled block, cell by cell. -/
theorem pay13_apply (v1 v23 v26 : FVec Ideal S8x512x512 .f32) (v28 v32 v36 v40 v44 : Vec Ideal S8x512x512 .f32) (j : S8x512x512.Idx) :
    k1_pay13 v1 v23 v26 v28 v32 v36 v40 v44 j = v1 j * k1_pay8 v23 v26 v28 v32 v36 v40 v44 j := rfl

/-- The second output block: the expanded mean squared difference of each image, from its five sums, on every lane. -/
theorem pay2_apply (v49 v52 v54 v57 : FVec Ideal S8 .f32) (v58 : FVec Ideal S8x512x512 .f32) (r : Fin 8) (l : Fin 128) :
    k1_pay2 v49 v52 v54 v57 v58 (ix2 r l)
      = Ideal.div
          ((Ideal.div (v52 (ix1 r)) ((v49 (ix1 r) + Cert.Spec.eps) * (v49 (ix1 r) + Cert.Spec.eps))
              - Ideal.div (Cert.Spec.cTwo * ∑ y : Fin 512, ∑ w : Fin 512, v58 (ix3 r y w)) ((v49 (ix1 r) + Cert.Spec.eps) * v54 (ix1 r)))
            + Ideal.div (v57 (ix1 r)) (v54 (ix1 r) * v54 (ix1 r)))
          Cert.Spec.nCells := by
  unfold k1_pay2
  refine (column_lanes_apply _ _ _ _ r l).trans ?_
  exact congrArg (fun z => Ideal.div
          ((Ideal.div (v52 (ix1 r)) ((v49 (ix1 r) + Cert.Spec.eps) * (v49 (ix1 r) + Cert.Spec.eps))
              - Ideal.div (Cert.Spec.cTwo * z) ((v49 (ix1 r) + Cert.Spec.eps) * v54 (ix1 r)))
            + Ideal.div (v57 (ix1 r)) (v54 (ix1 r) * v54 (ix1 r)))
          Cert.Spec.nCells) (sum_img v58 _ _ _ _ _ _ r)

end Cert.KernelIdeal.HandValue

end
-- ==== Proof.K.Value1b.lean ====
/-
  The padded scratch of the second stage and the stencil read off it, at the extended reals.

  The scratch holds eight images of 514 × 514 cells: first filled with zeros, then the 512 × 512 count block stored one
  cell in from the border. So padded cell (a, b) holds the block's cell (a − 1, b − 1) when 1 ≤ a, b ≤ 512 and zero on the
  border. A read of 512 × 512 cells at offsets (a, b) ∈ {0, 1, 2}² takes, at cell (h, w), padded cell (h + a, w + b).
  The nine reads, weighted by the stencil's weights and added starting from zero, are the stencil's sum over its nine taps.
-/
import proofs.«429451_j33646773797363_4_alg».proof.Proof.K.Frame1
import proofs.«429451_j33646773797363_4_alg».proof.Proof.Spec
import Idealize.ShloMosaic.Lib.ValueIdx
import Idealize.ShloMosaic.Lib.Pipeline.Value
import Idealize.ShloMosaic.Lib.Pipeline.FrameBody
import Idealize.ShloMosaic.Lib.Ring
import Idealize.ShloMosaic.PureOps.Ideal.Laws

noncomputable section

open scoped BigOperators

namespace Cert.KernelIdeal.HandValue

open Idealize.ShloMosaic Idealize.ShloMosaic.ValueIdx
open Cert.KernelIdeal Cert.KernelIdeal.Gen Cert.KernelIdeal.Hand

/-- A block of eight images padded with one zero cell all round, read at padded coordinates (a, b) ∈ [0, 514)². -/
def padBlk (x : S8x512x512.Idx → EReal) (r : Fin 8) (a b : ℕ) : EReal :=
  if h : (1 ≤ a ∧ a ≤ 512) ∧ (1 ≤ b ∧ b ≤ 512) then x (ix3 r ⟨a - 1, by omega⟩ ⟨b - 1, by omega⟩) else 0

/-- Two identity reshapes leave the block as it is. -/
theorem pay5_eq (x1 : Vec Ideal S8x512x512 .f32) : k1_pay5 (F := Ideal) x1 = x1 := by
  simp only [k1_pay5, shapeCast_self]

/-- The zero fill is zero at every cell. -/
theorem pay4_apply (j : S8x514x514.Idx) : k1_pay4 (F := Ideal) j = (0 : EReal) := by
  simp only [k1_pay4, shapeCast_self]
  exact Ideal.ofBits_zero_f32

/-- The padded scratch: the block one cell in from the border, zero on the border. -/
theorem padv_apply (x1 : Vec Ideal S8x512x512 .f32) (r : Fin 8) (a b : Fin 514) :
    padv (F := Ideal) x1 (ix3 r a b) = padBlk x1 r a.val b.val := by
  unfold padv padBlk
  split_ifs with h
  · have e : ix3 r a b = (Rect.unit (s := S8x514x514) ![0, 1, 1] S8x512x512.size inb_S8x514x514_S8x512x512_0_1_1).emb
        (ix3 r ⟨a.val - 1, by omega⟩ ⟨b.val - 1, by omega⟩) := by
      funext i
      match i with
      | ⟨0, _⟩ => exact Fin.ext (by show r.val = 0 + 1 * r.val; omega)
      | ⟨1, _⟩ => exact Fin.ext (by show a.val = 1 + 1 * (a.val - 1); omega)
      | ⟨2, _⟩ => exact Fin.ext (by show b.val = 1 + 1 * (b.val - 1); omega)
    rw [e, View.canon_cons_emb, pay5_eq]
  · rw [View.canon_cons_of_not_mem]
    · rw [View.canon_unit_zero (by funext i; fin_cases i <;> rfl)]; exact pay4_apply _
    · rw [Rect.mem_set_unit]
      intro hm
      apply h
      have h1 : 1 ≤ a.val ∧ a.val < 1 + 512 := hm 1
      have h2 : 1 ≤ b.val ∧ b.val < 1 + 512 := hm 2
      omega

/-- A read of the padded scratch through a unit-stride rectangle at offsets (0, a, b): cell (h, w) of the read is
    padded cell (h + a, w + b). -/
theorem ld_padv (x1 : Vec Ideal S8x512x512 .f32) (a b : ℕ)
    (inb : ∀ i, (![0, a, b] : Fin 3 → ℕ) i + S8x512x512.size i ≤ S8x514x514.size i) (r : Fin 8) (h w : Fin 512) :
    View.ld (padv (F := Ideal) x1) (Rect.unit (s := S8x514x514) ![0, a, b] S8x512x512.size inb) (ix3 r h w)
      = padBlk x1 r (h.val + a) (w.val + b) := by
  have ha : a + 512 ≤ 514 := inb 1
  have hb : b + 512 ≤ 514 := inb 2
  have e : (Rect.unit (s := S8x514x514) ![0, a, b] S8x512x512.size inb).idx (ix3 r h w)
      = ix3 r (⟨h.val + a, by omega⟩ : Fin 514) (⟨w.val + b, by omega⟩ : Fin 514) := by
    funext i
    match i with
    | ⟨0, _⟩ => exact Fin.ext (by show 0 + 1 * r.val = r.val; omega)
    | ⟨1, _⟩ => exact Fin.ext (by show a + 1 * h.val = h.val + a; omega)
    | ⟨2, _⟩ => exact Fin.ext (by show b + 1 * w.val = w.val + b; omega)
  show padv (F := Ideal) x1 ((Rect.unit (s := S8x514x514) ![0, a, b] S8x512x512.size inb).idx (ix3 r h w)) = _
  rw [e, padv_apply]

/-! The nine shifted reads. -/
theorem tap22_apply (x1 : Vec Ideal S8x512x512 .f32) (r : Fin 8) (h w : Fin 512) :
    tap22 (F := Ideal) x1 (ix3 r h w) = padBlk x1 r (h.val + 2) (w.val + 2) := ld_padv x1 2 2 _ r h w
theorem tap21_apply (x1 : Vec Ideal S8x512x512 .f32) (r : Fin 8) (h w : Fin 512) :
    tap21 (F := Ideal) x1 (ix3 r h w) = padBlk x1 r (h.val + 2) (w.val + 1) := ld_padv x1 2 1 _ r h w
theorem tap20_apply (x1 : Vec Ideal S8x512x512 .f32) (r : Fin 8) (h w : Fin 512) :
    tap20 (F := Ideal) x1 (ix3 r h w) = padBlk x1 r (h.val + 2) (w.val + 0) := ld_padv x1 2 0 _ r h w
theorem tap12_apply (x1 : Vec Ideal S8x512x512 .f32) (r : Fin 8) (h w : Fin 512) :
    tap12 (F := Ideal) x1 (ix3 r h w) = padBlk x1 r (h.val + 1) (w.val + 2) := ld_padv x1 1 2 _ r h w
theorem tap11_apply (x1 : Vec Ideal S8x512x512 .f32) (r : Fin 8) (h w : Fin 512) :
    tap11 (F := Ideal) x1 (ix3 r h w) = padBlk x1 r (h.val + 1) (w.val + 1) := ld_padv x1 1 1 _ r h w
theorem tap10_apply (x1 : Vec Ideal S8x512x512 .f32) (r : Fin 8) (h w : Fin 512) :
    tap10 (F := Ideal) x1 (ix3 r h w) = padBlk x1 r (h.val + 1) (w.val + 0) := ld_padv x1 1 0 _ r h w
theorem tap02_apply (x1 : Vec Ideal S8x512x512 .f32) (r : Fin 8) (h w : Fin 512) :
    tap02 (F := Ideal) x1 (ix3 r h w) = padBlk x1 r (h.val + 0) (w.val + 2) := ld_padv x1 0 2 _ r h w
theorem tap01_apply (x1 : Vec Ideal S8x512x512 .f32) (r : Fin 8) (h w : Fin 512) :
    tap01 (F := Ideal) x1 (ix3 r h w) = padBlk x1 r (h.val + 0) (w.val + 1) := ld_padv x1 0 1 _ r h w
theorem tap00_apply (x1 : Vec Ideal S8x512x512 .f32) (r : Fin 8) (h w : Fin 512) :
    tap00 (F := Ideal) x1 (ix3 r h w) = padBlk x1 r (h.val + 0) (w.val + 0) := ld_padv x1 0 0 _ r h w

/-- The nine taps weighted and added, in the order the stencil's table lists them. -/
theorem stencil_block (x1 : Vec Ideal S8x512x512 .f32) (r : Fin 8) (h w : Fin 512) :
    k1_pay8 (F := Ideal) (k1_pay6 (tap22 x1) (tap21 x1) (tap20 x1)) (k1_pay7 (tap12 x1)) (tap11 x1) (tap10 x1)
        (tap02 x1) (tap01 x1) (tap00 x1) (ix3 r h w)
      = ∑ k : Fin 9, Cert.Spec.wgt k * padBlk x1 r (h.val + Cert.Spec.oy k) (w.val + Cert.Spec.ox k) := by
  have hL : k1_pay8 (F := Ideal) (k1_pay6 (tap22 x1) (tap21 x1) (tap20 x1)) (k1_pay7 (tap12 x1)) (tap11 x1) (tap10 x1)
        (tap02 x1) (tap01 x1) (tap00 x1) (ix3 r h w)
      = ((((((((Ideal.ofBits .f32 0x00000000#32 + Cert.Spec.wCorner * tap22 (F := Ideal) x1 (ix3 r h w))
          + Cert.Spec.wEdge * tap21 (F := Ideal) x1 (ix3 r h w)) + Cert.Spec.wCorner * tap20 (F := Ideal) x1 (ix3 r h w))
          + Cert.Spec.wEdge * tap12 (F := Ideal) x1 (ix3 r h w)) + Cert.Spec.wCentre * tap11 (F := Ideal) x1 (ix3 r h w))
          + Cert.Spec.wEdge * tap10 (F := Ideal) x1 (ix3 r h w)) + Cert.Spec.wCorner * tap02 (F := Ideal) x1 (ix3 r h w))
          + Cert.Spec.wEdge * tap01 (F := Ideal) x1 (ix3 r h w)) + Cert.Spec.wCorner * tap00 (F := Ideal) x1 (ix3 r h w) := rfl
  rw [hL, Ideal.ofBits_zero_f32, zero_add, tap22_apply, tap21_apply, tap20_apply, tap12_apply, tap11_apply, tap10_apply,
    tap02_apply, tap01_apply, tap00_apply]
  simp only [Fin.sum_univ_succ, Fin.sum_univ_zero, Cert.Spec.wgt, Cert.Spec.oy, Cert.Spec.ox, Matrix.cons_val_zero,
    Matrix.cons_val_succ, add_zero, add_assoc]

end Cert.KernelIdeal.HandValue

end
-- ==== Proof.K.Value1c.lean ====
/-
  Region 1, from blocks to arrays: at every point the two input blocks are eight consecutive images of the prediction
  and of the count map, so the block's padded stencil is the target's and the block's sums are the images' sums; each
  point writes back its eight rows of the two output arrays, and the four points cover the 32 images.
-/
import proofs.«429451_j33646773797363_4_alg».proof.Proof.K.Frame1
import proofs.«429451_j33646773797363_4_alg».proof.Proof.K.Value1a
import proofs.«429451_j33646773797363_4_alg».proof.Proof.K.Value1b
import proofs.«429451_j33646773797363_4_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.HandValue

open Idealize.ShloMosaic Idealize.ShloMosaic.ValueIdx Idealize.ShloMosaic.TcCoe
open Cert.KernelIdeal Cert.KernelIdeal.Gen Cert.KernelIdeal.Hand

/-- The stencil of a count block, as the body computes it from the nine shifted reads of the padded scratch. -/
abbrev targBlk (x1 : Vec Ideal S8x512x512 .f32) : FVec Ideal S8x512x512 .f32 :=
  k1_pay8 (F := Ideal) (k1_pay6 (tap22 x1) (tap21 x1) (tap20 x1)) (k1_pay7 (tap12 x1)) (tap11 x1) (tap10 x1) (tap02 x1) (tap01 x1) (tap00 x1)

/-- The first output block, at image r of the block: the sum of the prediction's image. -/
theorem out1_2_apply (x0 x1 : Vec Ideal S8x512x512 .f32) (r : Fin 8) (l : Fin 128) :
    out1_2 x0 x1 (ix2 r l) = ∑ y : Fin 512, ∑ w : Fin 512, x0 (ix3 r y w) := by
  unfold out1_2
  rw [pay1_apply, pay9_apply, pay3_eq]

/-- The second output block, at image r of the block, when that image of the prediction block is image b of p and
    that image of the stencilled block is image b of t: the expanded mean squared difference of image b. -/
theorem out1_3_eq (x0 x1 : Vec Ideal S8x512x512 .f32) (r : Fin 8) (l : Fin 128) (p t : Cert.Spec.SImg.Idx → EReal) (b : Fin 32)
    (hp : ∀ y w : Fin 512, x0 (ix3 r y w) = p (ix3 b y w))
    (ht : ∀ y w : Fin 512, targBlk x1 (ix3 r y w) = t (ix3 b y w)) :
    out1_3 x0 x1 (ix2 r l) = Cert.Spec.mseK p t b := by
  unfold out1_3
  rw [pay2_apply, pay9_apply, pay10_apply, pay11_apply, pay12_apply, pay3_eq]
  simp only [pay13_apply]
  unfold Cert.Spec.mseK Cert.Spec.sumImg
  have ht' : ∀ y w : Fin 512, k1_pay8 (F := Ideal) (k1_pay6 (tap22 x1) (tap21 x1) (tap20 x1)) (k1_pay7 (tap12 x1)) (tap11 x1) (tap10 x1) (tap02 x1) (tap01 x1) (tap00 x1) (ix3 r y w) = t (ix3 b y w) := ht
  simp only [hp, ht']

variable (V : (c : Dev nD) → (b : Ref sig .tc) → Buf (Elt Ideal) ((c : Thread nD τ).loc b))

/-- The printed index maps over the four points: point t holds images 8t … 8t + 7 of every window. -/
theorem idx_facts1 : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The prediction block at point t is images 8t … 8t + 7 of the prediction. -/
theorem iblk1_0_apply (c : Dev nD) (t : Fin cfg1.N) (r : Fin 8) (y w : Fin 512) (b : Fin 32) (hb : b.val = 8 * t.val + r.val) :
    (iblk1 (F := Ideal) V c 0 t : Vec Ideal S8x512x512 .f32) (ix3 r y w) = (V c main_v0 : S32x512x512.Idx → EReal) (ix3 b y w) := by
  obtain ⟨e0, e1, e2, -⟩ := idx_facts1 t
  unfold iblk1
  rw [View.read_apply]
  show V c main_v0 _ = V c main_v0 _
  congr 1
  funext a
  apply Fin.ext
  match a with
  | ⟨0, _⟩ => show win1_0.index t 0 * 8 + 1 * r.val = b.val; rw [e0, hb]; omega
  | ⟨1, _⟩ => show win1_0.index t 1 * 512 + 1 * y.val = y.val; rw [e1]; omega
  | ⟨2, _⟩ => show win1_0.index t 2 * 512 + 1 * w.val = w.val; rw [e2]; omega

/-- The count block at point t is images 8t … 8t + 7 of the count map. -/
theorem iblk1_1_apply (c : Dev nD) (t : Fin cfg1.N) (r : Fin 8) (y w : Fin 512) (b : Fin 32) (hb : b.val = 8 * t.val + r.val) :
    (iblk1 (F := Ideal) V c 1 t : Vec Ideal S8x512x512 .f32) (ix3 r y w) = (V c main_v1 : S32x512x512.Idx → EReal) (ix3 b y w) := by
  obtain ⟨-, -, -, e0, e1, e2, -⟩ := idx_facts1 t
  unfold iblk1
  rw [View.read_apply]
  show V c main_v1 _ = V c main_v1 _
  congr 1
  funext a
  apply Fin.ext
  match a with
  | ⟨0, _⟩ => show win1_1.index t 0 * 8 + 1 * r.val = b.val; rw [e0, hb]; omega
  | ⟨1, _⟩ => show win1_1.index t 1 * 512 + 1 * y.val = y.val; rw [e1]; omega
  | ⟨2, _⟩ => show win1_1.index t 2 * 512 + 1 * w.val = w.val; rw [e2]; omega

/-- The count block padded, at image r, is the count map padded, at image 8t + r. -/
theorem padBlk_iblk1 (c : Dev nD) (t : Fin cfg1.N) (r : Fin 8) (b : Fin 32) (hb : b.val = 8 * t.val + r.val) (m n : ℕ) :
    padBlk (iblk1 (F := Ideal) V c 1 t : Vec Ideal S8x512x512 .f32) r m n = Cert.Spec.pad (V c main_v1 : S32x512x512.Idx → EReal) b m n := by
  unfold padBlk Cert.Spec.pad
  by_cases h : (1 ≤ m ∧ m ≤ 512) ∧ (1 ≤ n ∧ n ≤ 512)
  · rw [dif_pos h, dif_pos h]
    exact iblk1_1_apply V c t r _ _ b hb
  · rw [dif_neg h, dif_neg h]

/-- The stencilled count block at point t, at image r, is the target at image 8t + r. -/
theorem targBlk_iblk1 (c : Dev nD) (t : Fin cfg1.N) (r : Fin 8) (b : Fin 32) (hb : b.val = 8 * t.val + r.val) (y w : Fin 512) :
    targBlk (iblk1 (F := Ideal) V c 1 t) (ix3 r y w) = Cert.Spec.targ (V c main_v1 : S32x512x512.Idx → EReal) (ix3 b y w) := by
  refine (stencil_block _ r y w).trans ?_
  unfold Cert.Spec.targ
  exact Finset.sum_congr rfl fun k _ => congrArg (Cert.Spec.wgt k * ·) (padBlk_iblk1 V c t r b hb _ _)

/-- What the first output array ends holding: each image's sum, on every lane. -/
def sumLanes (c : Dev nD) : Buf (Elt Ideal) ((cfg1.win 2).arr.view.loc (c.tc : Thread nD τ)) :=
  fun i : S32x128.Idx => Cert.Spec.sumImg (V c main_v0 : S32x512x512.Idx → EReal) (i 0)

/-- What the second output array ends holding: each image's expanded mean squared difference, on every lane. -/
def mseLanes (c : Dev nD) : Buf (Elt Ideal) ((cfg1.win 3).arr.view.loc (c.tc : Thread nD τ)) :=
  fun i : S32x128.Idx => Cert.Spec.mseK (V c main_v0 : S32x512x512.Idx → EReal) (Cert.Spec.targ (V c main_v1 : S32x512x512.Idx → EReal)) (i 0)

/-- The grid has four points. -/
theorem point1_lt_four (t : Fin cfg1.N) : t.val < 4 := lt_of_lt_of_eq t.isLt N_1

/-- Point t writes back block t of the image sums. -/
theorem flushed1_2_eq (c : Dev nD) (t : Fin cfg1.N) :
    (dat1 (F := Ideal) V c).flushed 2 t = ((cfg1.win 2).blk t).view.read (Elt Ideal) (sumLanes V c) := by
  obtain ⟨-, -, -, -, -, -, e0, e1, -⟩ := idx_facts1 t
  have ht := point1_lt_four t
  funext j
  obtain ⟨r, l, rfl⟩ : ∃ (r : Fin 8) (l : Fin 128), j = ix2 r l := ⟨j 0, j 1, eq_ix2 j⟩
  have hb : 8 * t.val + r.val < 32 := by omega
  show out1_2 (iblk1 V c 0 t) (iblk1 V c 1 t) (ix2 r l)
    = Cert.Spec.sumImg (V c main_v0 : S32x512x512.Idx → EReal) ((((cfg1.win 2).blk t).view.emb (ix2 r l)) 0)
  have hi : (((cfg1.win 2).blk t).view.emb (ix2 r l)) 0 = (⟨8 * t.val + r.val, hb⟩ : Fin 32) := Fin.ext (by
    show win1_2.index t 0 * 8 + 1 * r.val = 8 * t.val + r.val
    rw [e0]; omega)
  rw [hi, out1_2_apply]
  unfold Cert.Spec.sumImg
  exact Finset.sum_congr rfl fun y _ => Finset.sum_congr rfl fun w _ => iblk1_0_apply V c t r y w _ rfl

/-- Point t writes back block t of the image errors. -/
theorem flushed1_3_eq (c : Dev nD) (t : Fin cfg1.N) :
    (dat1 (F := Ideal) V c).flushed 3 t = ((cfg1.win 3).blk t).view.read (Elt Ideal) (mseLanes V c) := by
  obtain ⟨-, -, -, -, -, -, -, -, e0, e1⟩ := idx_facts1 t
  have ht := point1_lt_four t
  funext j
  obtain ⟨r, l, rfl⟩ : ∃ (r : Fin 8) (l : Fin 128), j = ix2 r l := ⟨j 0, j 1, eq_ix2 j⟩
  have hb : 8 * t.val + r.val < 32 := by omega
  show out1_3 (iblk1 V c 0 t) (iblk1 V c 1 t) (ix2 r l)
    = Cert.Spec.mseK (V c main_v0 : S32x512x512.Idx → EReal) (Cert.Spec.targ (V c main_v1 : S32x512x512.Idx → EReal)) ((((cfg1.win 3).blk t).view.emb (ix2 r l)) 0)
  have hi : (((cfg1.win 3).blk t).view.emb (ix2 r l)) 0 = (⟨8 * t.val + r.val, hb⟩ : Fin 32) := Fin.ext (by
    show win1_3.index t 0 * 8 + 1 * r.val = 8 * t.val + r.val
    rw [e0]; omega)
  rw [hi]
  exact out1_3_eq _ _ r l _ _ _ (fun y w => iblk1_0_apply V c t r y w _ rfl) (fun y w => targBlk_iblk1 V c t r _ rfl y w)

/-- An index of the first output array is in point t's block iff each coordinate is in the block's range on its axis. -/
theorem mem_blk1_2 (t : Fin cfg1.N) (i : S32x128.Idx) :
    i ∈ ((cfg1.win 2).blk t).view.set ↔ ∀ a : Fin 2, win1_2.index t a * S8x128.size a ≤ (i a).val ∧ (i a).val < win1_2.index t a * S8x128.size a + S8x128.size a := by
  show i ∈ ((View.whole main_v2_0).slice (win1_2.rect t)).set ↔ _
  rw [View.set_slice_whole, Rect.mem_set_unit]
  exact Iff.rfl

/-- The same for the second output array. -/
theorem mem_blk1_3 (t : Fin cfg1.N) (i : S32x128.Idx) :
    i ∈ ((cfg1.win 3).blk t).view.set ↔ ∀ a : Fin 2, win1_3.index t a * S8x128.size a ≤ (i a).val ∧ (i a).val < win1_3.index t a * S8x128.size a + S8x128.size a := by
  show i ∈ ((View.whole main_v2_1).slice (win1_3.rect t)).set ↔ _
  rw [View.set_slice_whole, Rect.mem_set_unit]
  exact Iff.rfl

/-- Image b of the first output array is written back by point b / 8. -/
theorem cover1_2 (i : S32x128.Idx) : ∃ t : Fin cfg1.N, (cfg1.win 2).flush t = true ∧ i ∈ ((cfg1.win 2).blk t).view.set := by
  have h0 : (i 0).val < 32 := (i 0).isLt
  have h1 : (i 1).val < 128 := (i 1).isLt
  have hN : cfg1.N = 4 := N_1
  obtain ⟨t, ht⟩ : ∃ t : Fin cfg1.N, t.val = (i 0).val / 8 := ⟨⟨(i 0).val / 8, by rw [hN]; omega⟩, rfl⟩
  obtain ⟨-, -, -, -, -, -, e0, e1, -⟩ := idx_facts1 t
  refine ⟨t, flush1_2 t, ?_⟩
  rw [mem_blk1_2]
  intro a
  match a with
  | ⟨0, _⟩ => show win1_2.index t 0 * 8 ≤ (i 0).val ∧ (i 0).val < win1_2.index t 0 * 8 + 8; rw [e0, ht]; omega
  | ⟨1, _⟩ => show win1_2.index t 1 * 128 ≤ (i 1).val ∧ (i 1).val < win1_2.index t 1 * 128 + 128; rw [e1]; omega

/-- Image b of the second output array is written back by point b / 8. -/
theorem cover1_3 (i : S32x128.Idx) : ∃ t : Fin cfg1.N, (cfg1.win 3).flush t = true ∧ i ∈ ((cfg1.win 3).blk t).view.set := by
  have h0 : (i 0).val < 32 := (i 0).isLt
  have h1 : (i 1).val < 128 := (i 1).isLt
  have hN : cfg1.N = 4 := N_1
  obtain ⟨t, ht⟩ : ∃ t : Fin cfg1.N, t.val = (i 0).val / 8 := ⟨⟨(i 0).val / 8, by rw [hN]; omega⟩, rfl⟩
  obtain ⟨-, -, -, -, -, -, -, -, e0, e1⟩ := idx_facts1 t
  refine ⟨t, flush1_3 t, ?_⟩
  rw [mem_blk1_3]
  intro a
  match a with
  | ⟨0, _⟩ => show win1_3.index t 0 * 8 ≤ (i 0).val ∧ (i 0).val < win1_3.index t 0 * 8 + 8; rw [e0, ht]; omega
  | ⟨1, _⟩ => show win1_3.index t 1 * 128 ≤ (i 1).val ∧ (i 1).val < win1_3.index t 1 * 128 + 128; rw [e1]; omega

/-- THE FIRST OUTPUT ARRAY after the region: each image's sum of the prediction, on every lane. -/
theorem arr1_2_val (c : Dev nD) (b : Fin 32) (l : Fin 128) :
    (Cert.KernelIdeal.Hand.dat1 (F := Ideal) V c).arrAt 2 cfg1.N (ValueIdx.ix2 b l) = Cert.Spec.sumImg (V c main_v0) b :=
  congrFun ((dat1 (F := Ideal) V c).arrAt_eq_of_cover 2 (sumLanes V c) (fun t _ => flushed1_2_eq V c t) cover1_2) (ix2 b l)

/-- THE SECOND OUTPUT ARRAY after the region: each image's expanded mean squared difference between the prediction
    and the stencilled count map, on every lane. -/
theorem arr1_3_val (c : Dev nD) (b : Fin 32) (l : Fin 128) :
    (Cert.KernelIdeal.Hand.dat1 (F := Ideal) V c).arrAt 3 cfg1.N (ValueIdx.ix2 b l) = Cert.Spec.mseK (V c main_v0) (Cert.Spec.targ (V c main_v1)) b :=
  congrFun ((dat1 (F := Ideal) V c).arrAt_eq_of_cover 3 (mseLanes V c) (fun t _ => flushed1_3_eq V c t) cover1_3) (ix2 b l)

end Cert.KernelIdeal.HandValue

end
-- ==== Proof.K.KernelVal.lean ====
/-
  The program's result as one formula. The last host stretch combines column 0 of the second region's two result
  arrays with the area scalar into the loss; the second region's result arrays hold, per image, the sum of the prediction
  and the expanded mean squared difference between the prediction and the stencilled count map; the second region reads
  the prediction with its channel axis dropped (what the first host stretch leaves) and the count map (what the first
  region leaves, computed from the points as launched); no step writes the area scalar.
-/
import proofs.«429451_j33646773797363_4_alg».proof.Proof.K.Run
import proofs.«429451_j33646773797363_4_alg».proof.Proof.K.Tail
import proofs.«429451_j33646773797363_4_alg».proof.Proof.K.Value0
import proofs.«429451_j33646773797363_4_alg».proof.Proof.K.Value1c
import proofs.«429451_j33646773797363_4_alg».proof.Proof.Spec
import Idealize.ShloMosaic.Lib.ValueIdx

set_option maxRecDepth 16384

noncomputable section

namespace Cert.KernelIdeal.HandValue

open Idealize.ShloMosaic Idealize.ShloMosaic.TcCoe Idealize.ShloMosaic.ValueIdx
open Idealize.ShloMosaic.Pipeline (Dat Cfg Window cellOf)
open Cert.KernelIdeal Cert.KernelIdeal.Gen Cert.KernelIdeal.Hand Cert.KernelIdeal.HandTail

theorem kernel_val (m : (ℓ : Loc nD τ sig) → Buf (Elt Ideal) ℓ) (ρ : Dev nD → PrngReg) (c : Dev nD) :
    Cert.KernelIdeal.Hand.W4 (F := Ideal) m ρ c (Proc.devRef .tc main_v18)
      = fun _ => Cert.Spec.final (Cert.Spec.sumImg (Cert.Spec.img (m ((c.tc : Thread nD τ).loc main_arg0))))
          (Cert.Spec.mseK (Cert.Spec.img (m ((c.tc : Thread nD τ).loc main_arg0)))
            (Cert.Spec.targ (Cert.Spec.cnt (m ((c.tc : Thread nD τ).loc main_arg1)))))
          (m ((c.tc : Thread nD τ).loc main_arg2) ValueIdx.ix0) := by
  -- the prediction with its channel dropped, as the second region finds it
  have hv0 : V2 (F := Ideal) m ρ c main_v0 = Cert.Spec.img (m ((c.tc : Thread nD τ).loc main_arg0)) :=
    calc V2 (F := Ideal) m ρ c main_v0
      _ = W1 (F := Ideal) m ρ c (Proc.devRef .tc main_v0) := W2_of_ne m ρ c main_v0 (by decide)
      _ = Cert.Spec.img (W0 (F := Ideal) m ρ c (Proc.devRef .tc main_arg0)) := head_v0 _
      _ = Cert.Spec.img (m ((c.tc : Thread nD τ).loc main_arg0)) := rfl
  -- the points, as the first region finds them
  have ha1 : V1 (F := Ideal) m ρ c main_arg1 = m ((c.tc : Thread nD τ).loc main_arg1) :=
    (head_keep _ main_arg1 (by decide)).trans rfl
  -- the count map, as the second region finds it
  have hv1 : V2 (F := Ideal) m ρ c main_v1 = Cert.Spec.cnt (m ((c.tc : Thread nD τ).loc main_arg1)) :=
    calc V2 (F := Ideal) m ρ c main_v1
      _ = (dat0 (V1 (F := Ideal) m ρ) c).arrAt 1 cfg0.N := W2_arr m ρ c 1
      _ = Cert.Spec.cnt (V1 (F := Ideal) m ρ c main_arg1) := arr0_val _ c
      _ = Cert.Spec.cnt (m ((c.tc : Thread nD τ).loc main_arg1)) := congrArg Cert.Spec.cnt ha1
  -- the area scalar is never written
  have ha2 : W3 (F := Ideal) m ρ c (Proc.devRef .tc main_arg2) = m ((c.tc : Thread nD τ).loc main_arg2) :=
    calc W3 (F := Ideal) m ρ c (Proc.devRef .tc main_arg2)
      _ = W2 (F := Ideal) m ρ c (Proc.devRef .tc main_arg2) := W3_of_ne m ρ c main_arg2 (by decide)
      _ = W1 (F := Ideal) m ρ c (Proc.devRef .tc main_arg2) := W2_of_ne m ρ c main_arg2 (by decide)
      _ = W0 (F := Ideal) m ρ c (Proc.devRef .tc main_arg2) := head_keep _ main_arg2 (by decide)
      _ = m ((c.tc : Thread nD τ).loc main_arg2) := rfl
  -- the second region's two outputs
  have h20 : ∀ b : Fin 32, W3 (F := Ideal) m ρ c (Proc.devRef .tc main_v2_0) (ix2 b (0 : Fin 128))
      = Cert.Spec.sumImg (Cert.Spec.img (m ((c.tc : Thread nD τ).loc main_arg0))) b := fun b =>
    calc W3 (F := Ideal) m ρ c (Proc.devRef .tc main_v2_0) (ix2 b (0 : Fin 128))
      _ = (dat1 (V2 (F := Ideal) m ρ) c).arrAt 2 cfg1.N (ix2 b (0 : Fin 128)) := congrFun (W3_arr m ρ c 2) _
      _ = Cert.Spec.sumImg (V2 (F := Ideal) m ρ c main_v0) b := arr1_2_val _ c b 0
      _ = Cert.Spec.sumImg (Cert.Spec.img (m ((c.tc : Thread nD τ).loc main_arg0))) b :=
          congrArg (fun a => Cert.Spec.sumImg a b) hv0
  have h21 : ∀ b : Fin 32, W3 (F := Ideal) m ρ c (Proc.devRef .tc main_v2_1) (ix2 b (0 : Fin 128))
      = Cert.Spec.mseK (Cert.Spec.img (m ((c.tc : Thread nD τ).loc main_arg0)))
          (Cert.Spec.targ (Cert.Spec.cnt (m ((c.tc : Thread nD τ).loc main_arg1)))) b := fun b =>
    calc W3 (F := Ideal) m ρ c (Proc.devRef .tc main_v2_1) (ix2 b (0 : Fin 128))
      _ = (dat1 (V2 (F := Ideal) m ρ) c).arrAt 3 cfg1.N (ix2 b (0 : Fin 128)) := congrFun (W3_arr m ρ c 3) _
      _ = Cert.Spec.mseK (V2 (F := Ideal) m ρ c main_v0) (Cert.Spec.targ (V2 (F := Ideal) m ρ c main_v1)) b :=
          arr1_3_val _ c b 0
      _ = Cert.Spec.mseK (Cert.Spec.img (m ((c.tc : Thread nD τ).loc main_arg0)))
            (Cert.Spec.targ (Cert.Spec.cnt (m ((c.tc : Thread nD τ).loc main_arg1)))) b :=
          congrArg₂ (fun p t => Cert.Spec.mseK p (Cert.Spec.targ t) b) hv0 hv1
  refine (tail_val (W3 (F := Ideal) m ρ c)).trans ?_
  funext _
  rw [funext h20, funext h21, ha2]

end Cert.KernelIdeal.HandValue

end
-- ==== Proof.KB.Frame0.lean ====
/-
  Region 0 (the count map): the proof data of its pipeline at the contents `V` the region is entered with, and what the
  launch needs of it.

  The grid has 8 × 8 points, point t = 8·i + n. At each point the body loads a chunk of 512 points of four images, adds
  the chunk's one-hot product to an accumulator it carries from point to point in a scratch buffer, and stores the
  accumulator into the output block; at the first chunk of a row (n = 0) it first stores zeros into the accumulator.
  Two cases therefore: the accumulator is reset (what it held before does not matter), or it continues from what the
  point before left.
-/
import proofs.«429451_j33646773797363_4_alg».proof.Proof.Gen.Kernel.Launch
import proofs.«429451_j33646773797363_4_alg».proof.Proof.Gen.Kernel.Skeleton
import proofs.«429451_j33646773797363_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch condition -/

/-- The condition of the body's one conditional: the second grid coordinate is zero. -/
abbrev cond0_0 (i : grid0.Coords) : Prop := (Scalar.cmpi .ne (Scalar.extui (Scalar.cmpi .eq (BitVec.ofNat 32 (i 1).val) 0#32)) 0#32) = 1#1
/-- It holds at the points ≡ 0 (mod 8): decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-- Neither window is ever idle. -/
theorem liveAt0_0 : ∀ t : Fin cfg0.N, cfg0.idle 0 (grid0.coords t) = false := by decide +kernel
theorem liveAt0_1 : ∀ t : Fin cfg0.N, cfg0.idle 1 (grid0.coords t) = false := by decide +kernel

/-! ## The memrefs the body is called on -/

/-- Each window's current staging memref at point `t`, and its wholeness. -/
abbrev ms0_0 (t : Fin cfg0.N) : Memref sig .tc .vmem S4x512x2 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x512x512 .f32 := win0_1.stage (cfg0.slots t 1)
abbrev hs0_1 (t : Fin cfg0.N) : (ms0_1 t).IsWhole := hstage0_1 ((cfg0.slots t 1).cast nbuf0_1)
/-- The accumulator: a whole scoped buffer of the kernel's own, passed beside the windows. -/
abbrev scM0_0 : Memref sig .tc .vmem S4x512x512 .f32 := Memref.whole cc0_scratch0
/-- The accumulator as a view: what it holds is stated through it. -/
abbrev VS0_0 : View sig .tc .vmem S4x512x512 .f32 := scM0_0.view
/-- One staging buffer of the output window, through which its contents are stated (the choice does not matter). -/
abbrev VO0_1 : View sig .tc .vmem S4x512x512 .f32 := (Memref.whole cc0_stg1_0 : Memref sig .tc .vmem S4x512x512 .f32).view

/-- The scoped buffers of the core other than this call's staging buffers and the accumulator, each whole at some
    contents: never opened. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- What the launch hands the region, with the accumulator as a memref owned at some contents. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA rest0; rw [scopedRest0_eq]; simp only [scM0_0, owns_whole]; try rfl

/-! ## The body on any staging memrefs, case by case -/

set_option maxHeartbeats 1000000 in
/-- What the body's stores leave in the output's staging memref and in the accumulator, as pieces (last first), when the
    accumulator is RESET (the condition holds), with the proof that on whole memrefs — the input's at its contents, the
    output's and the accumulator's at anything — the body runs to the continuation holding the input's as it was and the
    two others with their pieces written. -/
noncomputable def kernelRun0_A (c : Dev nD) (i : grid0.Coords) (arg2 : Memref sig .tc .vmem S4x512x2 .i32) (harg2 : arg2.IsWhole) (arg3 : Memref sig .tc .vmem S4x512x512 .f32) (harg3 : arg3.IsWhole) (arg4 : Memref sig .tc .vmem S4x512x512 .f32) (harg4 : arg4.IsWhole) (hc0 : cond0_0 i)
    (x0 : Vec F S4x512x2 .i32) :
    Σ' (L1 : List (View.Piece (Elt F) S4x512x512 .f32)), { LS0 : List (View.Piece (Elt F) S4x512x512 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__hist_kernel i arg2 harg2 arg3 harg3 arg4 harg4) K } := by
  refine ⟨?_, ?_, fun E K => ?run⟩
  case run =>
    simp only [cc0__hist_kernel_eq_skeleton]; unfold cc0__hist_kernel_skel
    simp only [k0_part1_eq_skeleton]
    unfold owns
    iintro ⟨⟨%f0, %hf0, H0⟩, ⟨%d1, %f1, -, H1⟩, ⟨%ds0, %fs0, -, HS0⟩, Hk⟩
    obtain rfl := harg2.eq_unread hf0
    sl_exec (disch := first | exact hc0)
    sl_step
    iapply Hk
    isplitl [H0]
    · iexists _; isplitr; · ipureintro; exact harg2.read_unread _
      iexact H0
    isplitl [H1]; · iexists _; iexact H1
    iexists _; iexact HS0

set_option maxHeartbeats 1000000 in
/-- The same when the accumulator CONTINUES (the condition fails): the accumulator is taken at the contents `xs0` the
    point before left. -/
noncomputable def kernelRun0_B (c : Dev nD) (i : grid0.Coords) (arg2 : Memref sig .tc .vmem S4x512x2 .i32) (harg2 : arg2.IsWhole) (arg3 : Memref sig .tc .vmem S4x512x512 .f32) (harg3 : arg3.IsWhole) (arg4 : Memref sig .tc .vmem S4x512x512 .f32) (harg4 : arg4.IsWhole) (hc0 : ¬cond0_0 i)
    (x0 : Vec F S4x512x2 .i32) (xs0 : Vec F S4x512x512 .f32) :
    Σ' (L1 : List (View.Piece (Elt F) S4x512x512 .f32)), { LS0 : List (View.Piece (Elt F) S4x512x512 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__hist_kernel i arg2 harg2 arg3 harg3 arg4 harg4) K } := by
  refine ⟨?_, ?_, fun E K => ?run⟩
  case run =>
    simp only [cc0__hist_kernel_eq_skeleton]; unfold cc0__hist_kernel_skel
    simp only [k0_part1_eq_skeleton]
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0)
    sl_step
    iapply Hk
    isplitl [H0]
    · iexists _; isplitr; · ipureintro; exact harg2.read_unread _
      iexact H0
    isplitl [H1]; · iexists _; iexact H1
    iexists _; iexact HS0

/-! ## What each case leaves -/

/-- The reset case's pieces for the output tile its block, so they cover it. -/
theorem cover0_A_1 (c : Dev nD) (i : grid0.Coords) (arg2 : Memref sig .tc .vmem S4x512x2 .i32) (harg2 : arg2.IsWhole) (arg3 : Memref sig .tc .vmem S4x512x512 .f32) (harg3 : arg3.IsWhole) (arg4 : Memref sig .tc .vmem S4x512x512 .f32) (harg4 : arg4.IsWhole) (hc0 : cond0_0 i)
    (x0 : Vec F S4x512x2 .i32) (y : S4x512x512.Idx) :
    ∃ pc ∈ (kernelRun0_A c i arg2 harg2 arg3 harg3 arg4 harg4 hc0 x0).1, y ∈ pc.1.set :=
  View.cover_of_tiledL (kernelRun0_A c i arg2 harg2 arg3 harg3 arg4 harg4 hc0 x0).1 S4x512x512.size (by sl_kernel_rfl) y

/-- What the reset case leaves in the output's staging buffer: its pieces read back over junk. -/
def out0_A_1 (c : Dev nD) (i : grid0.Coords) (arg2 : Memref sig .tc .vmem S4x512x2 .i32) (harg2 : arg2.IsWhole) (arg3 : Memref sig .tc .vmem S4x512x512 .f32) (harg3 : arg3.IsWhole) (arg4 : Memref sig .tc .vmem S4x512x512 .f32) (harg4 : arg4.IsWhole) (hc0 : cond0_0 i)
    (x0 : Vec F S4x512x2 .i32) : Vec F S4x512x512 .f32 :=
  VO0_1.read (Elt F) (VO0_1.writes (Elt F) VO0_1.junk (kernelRun0_A c i arg2 harg2 arg3 harg3 arg4 harg4 hc0 x0).1)

/-- The reset case's pieces for the accumulator cover it. -/
theorem scover0_A_0 (c : Dev nD) (i : grid0.Coords) (arg2 : Memref sig .tc .vmem S4x512x2 .i32) (harg2 : arg2.IsWhole) (arg3 : Memref sig .tc .vmem S4x512x512 .f32) (harg3 : arg3.IsWhole) (arg4 : Memref sig .tc .vmem S4x512x512 .f32) (harg4 : arg4.IsWhole) (hc0 : cond0_0 i)
    (x0 : Vec F S4x512x2 .i32) (y : S4x512x512.Idx) :
    ∃ pc ∈ (kernelRun0_A c i arg2 harg2 arg3 harg3 arg4 harg4 hc0 x0).2.1, y ∈ pc.1.set :=
  View.cover_of_tiledL (kernelRun0_A c i arg2 harg2 arg3 harg3 arg4 harg4 hc0 x0).2.1 S4x512x512.size (by sl_kernel_rfl) y

/-- What the reset case leaves in the accumulator: its pieces read back over junk. -/
def sout0_A_0 (c : Dev nD) (i : grid0.Coords) (arg2 : Memref sig .tc .vmem S4x512x2 .i32) (harg2 : arg2.IsWhole) (arg3 : Memref sig .tc .vmem S4x512x512 .f32) (harg3 : arg3.IsWhole) (arg4 : Memref sig .tc .vmem S4x512x512 .f32) (harg4 : arg4.IsWhole) (hc0 : cond0_0 i)
    (x0 : Vec F S4x512x2 .i32) : Vec F S4x512x512 .f32 :=
  VS0_0.read (Elt F) (VS0_0.writes (Elt F) VS0_0.junk (kernelRun0_A c i arg2 harg2 arg3 harg3 arg4 harg4 hc0 x0).2.1)

/-- The continuing case's pieces for the output cover its block. -/
theorem cover0_B_1 (c : Dev nD) (i : grid0.Coords) (arg2 : Memref sig .tc .vmem S4x512x2 .i32) (harg2 : arg2.IsWhole) (arg3 : Memref sig .tc .vmem S4x512x512 .f32) (harg3 : arg3.IsWhole) (arg4 : Memref sig .tc .vmem S4x512x512 .f32) (harg4 : arg4.IsWhole) (hc0 : ¬cond0_0 i)
    (x0 : Vec F S4x512x2 .i32) (xs0 : Vec F S4x512x512 .f32) (y : S4x512x512.Idx) :
    ∃ pc ∈ (kernelRun0_B c i arg2 harg2 arg3 harg3 arg4 harg4 hc0 x0 xs0).1, y ∈ pc.1.set :=
  View.cover_of_tiledL (kernelRun0_B c i arg2 harg2 arg3 harg3 arg4 harg4 hc0 x0 xs0).1 S4x512x512.size (by sl_kernel_rfl) y

/-- What the continuing case leaves in the output's staging buffer. -/
def out0_B_1 (c : Dev nD) (i : grid0.Coords) (arg2 : Memref sig .tc .vmem S4x512x2 .i32) (harg2 : arg2.IsWhole) (arg3 : Memref sig .tc .vmem S4x512x512 .f32) (harg3 : arg3.IsWhole) (arg4 : Memref sig .tc .vmem S4x512x512 .f32) (harg4 : arg4.IsWhole) (hc0 : ¬cond0_0 i)
    (x0 : Vec F S4x512x2 .i32) (xs0 : Vec F S4x512x512 .f32) : Vec F S4x512x512 .f32 :=
  VO0_1.read (Elt F) (VO0_1.writes (Elt F) VO0_1.junk (kernelRun0_B c i arg2 harg2 arg3 harg3 arg4 harg4 hc0 x0 xs0).1)

/-- The continuing case's pieces for the accumulator cover it. -/
theorem scover0_B_0 (c : Dev nD) (i : grid0.Coords) (arg2 : Memref sig .tc .vmem S4x512x2 .i32) (harg2 : arg2.IsWhole) (arg3 : Memref sig .tc .vmem S4x512x512 .f32) (harg3 : arg3.IsWhole) (arg4 : Memref sig .tc .vmem S4x512x512 .f32) (harg4 : arg4.IsWhole) (hc0 : ¬cond0_0 i)
    (x0 : Vec F S4x512x2 .i32) (xs0 : Vec F S4x512x512 .f32) (y : S4x512x512.Idx) :
    ∃ pc ∈ (kernelRun0_B c i arg2 harg2 arg3 harg3 arg4 harg4 hc0 x0 xs0).2.1, y ∈ pc.1.set :=
  View.cover_of_tiledL (kernelRun0_B c i arg2 harg2 arg3 harg3 arg4 harg4 hc0 x0 xs0).2.1 S4x512x512.size (by sl_kernel_rfl) y

/-- What the continuing case leaves in the accumulator. -/
def sout0_B_0 (c : Dev nD) (i : grid0.Coords) (arg2 : Memref sig .tc .vmem S4x512x2 .i32) (harg2 : arg2.IsWhole) (arg3 : Memref sig .tc .vmem S4x512x512 .f32) (harg3 : arg3.IsWhole) (arg4 : Memref sig .tc .vmem S4x512x512 .f32) (harg4 : arg4.IsWhole) (hc0 : ¬cond0_0 i)
    (x0 : Vec F S4x512x2 .i32) (xs0 : Vec F S4x512x512 .f32) : Vec F S4x512x512 .f32 :=
  VS0_0.read (Elt F) (VS0_0.writes (Elt F) VS0_0.junk (kernelRun0_B c i arg2 harg2 arg3 harg3 arg4 harg4 hc0 x0 xs0).2.1)

/-! ## The pieces read back -/

theorem hz3 : (![0, 0, 0] : Fin 3 → Nat) = fun _ => 0 := funext fun a => by fin_cases a <;> rfl

/-- A load through the whole-shape rectangle at zero offsets, after stores the LAST of which went through that
    rectangle, reads the last store's payload. -/
theorem readCov_cons_unit_zero {Val : EltTy → Type} [∀ e, Nonempty (Val e)] {S : Shape} {e : EltTy} {sg : RefSig} {κ : Kind} {sp : Space}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- Reset: the accumulator ends at the chunk's product added to zeros. -/
theorem sout0_A_0_eq (c : Dev nD) (i : grid0.Coords) (arg2 : Memref sig .tc .vmem S4x512x2 .i32) (harg2 : arg2.IsWhole) (arg3 : Memref sig .tc .vmem S4x512x512 .f32) (harg3 : arg3.IsWhole) (arg4 : Memref sig .tc .vmem S4x512x512 .f32) (harg4 : arg4.IsWhole) (hc0 : cond0_0 i)
    (x0 : Vec F S4x512x2 .i32) : sout0_A_0 c i arg2 harg2 arg3 harg3 arg4 harg4 hc0 x0 = k0_pay2 x0 k0_pay1 := by
  unfold sout0_A_0
  rw [View.read_writes_eq_canon _ _ _ (scover0_A_0 c i arg2 harg2 arg3 harg3 arg4 harg4 hc0 x0)]
  unfold kernelRun0_A
  dsimp only
  sl_unfold_words
  rw [View.canon_cons_unit_zero (S := S4x512x512) hz3, View.readCov_unit_zero (S := S4x512x512) _ hz3]
  simp only [View.readAt_eq_ld, harg2.read_unread, View.ld_unit_zero (S := S4x512x2) hz3]

/-- Reset: the output's buffer ends at the same array. -/
theorem out0_A_1_eq (c : Dev nD) (i : grid0.Coords) (arg2 : Memref sig .tc .vmem S4x512x2 .i32) (harg2 : arg2.IsWhole) (arg3 : Memref sig .tc .vmem S4x512x512 .f32) (harg3 : arg3.IsWhole) (arg4 : Memref sig .tc .vmem S4x512x512 .f32) (harg4 : arg4.IsWhole) (hc0 : cond0_0 i)
    (x0 : Vec F S4x512x2 .i32) : out0_A_1 c i arg2 harg2 arg3 harg3 arg4 harg4 hc0 x0 = k0_pay2 x0 k0_pay1 := by
  unfold out0_A_1
  rw [View.read_writes_eq_canon _ _ _ (cover0_A_1 c i arg2 harg2 arg3 harg3 arg4 harg4 hc0 x0)]
  unfold kernelRun0_A
  dsimp only
  sl_unfold_words
  rw [View.canon_unit_zero (S := S4x512x512) hz3, readCov_cons_unit_zero (S := S4x512x512) _ hz3, View.readCov_unit_zero (S := S4x512x512) _ hz3]
  simp only [View.readAt_eq_ld, harg2.read_unread, View.ld_unit_zero (S := S4x512x2) hz3]

/-- Continuing: the accumulator ends at the chunk's product added to what it held. -/
theorem sout0_B_0_eq (c : Dev nD) (i : grid0.Coords) (arg2 : Memref sig .tc .vmem S4x512x2 .i32) (harg2 : arg2.IsWhole) (arg3 : Memref sig .tc .vmem S4x512x512 .f32) (harg3 : arg3.IsWhole) (arg4 : Memref sig .tc .vmem S4x512x512 .f32) (harg4 : arg4.IsWhole) (hc0 : ¬cond0_0 i)
    (x0 : Vec F S4x512x2 .i32) (xs0 : Vec F S4x512x512 .f32) : sout0_B_0 c i arg2 harg2 arg3 harg3 arg4 harg4 hc0 x0 xs0 = k0_pay2 x0 xs0 := by
  unfold sout0_B_0
  rw [View.read_writes_eq_canon _ _ _ (scover0_B_0 c i arg2 harg2 arg3 harg3 arg4 harg4 hc0 x0 xs0)]
  unfold kernelRun0_B
  dsimp only
  sl_unfold_words
  rw [View.canon_unit_zero (S := S4x512x512) hz3]
  simp only [View.readAt_eq_ld, harg2.read_unread, harg4.read_unread, View.ld_unit_zero (S := S4x512x2) hz3, View.ld_unit_zero (S := S4x512x512) hz3]

/-- Continuing: the output's buffer ends at the same array. -/
theorem out0_B_1_eq (c : Dev nD) (i : grid0.Coords) (arg2 : Memref sig .tc .vmem S4x512x2 .i32) (harg2 : arg2.IsWhole) (arg3 : Memref sig .tc .vmem S4x512x512 .f32) (harg3 : arg3.IsWhole) (arg4 : Memref sig .tc .vmem S4x512x512 .f32) (harg4 : arg4.IsWhole) (hc0 : ¬cond0_0 i)
    (x0 : Vec F S4x512x2 .i32) (xs0 : Vec F S4x512x512 .f32) : out0_B_1 c i arg2 harg2 arg3 harg3 arg4 harg4 hc0 x0 xs0 = k0_pay2 x0 xs0 := by
  unfold out0_B_1
  rw [View.read_writes_eq_canon _ _ _ (cover0_B_1 c i arg2 harg2 arg3 harg3 arg4 harg4 hc0 x0 xs0)]
  unfold kernelRun0_B
  dsimp only
  sl_unfold_words
  rw [View.canon_unit_zero (S := S4x512x512) hz3, View.readCov_unit_zero (S := S4x512x512) _ hz3]
  simp only [View.readAt_eq_ld, harg2.read_unread, harg4.read_unread, View.ld_unit_zero (S := S4x512x2) hz3, View.ld_unit_zero (S := S4x512x512) hz3]

/-! ## The blocks and the accumulator -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after position `n`: reset at the first point of each row of the grid, then one chunk of points added. -/
def acc0 (c : Dev nD) : (n : ℕ) → n < cfg0.N → Vec F S4x512x512 .f32
  | 0, hn => k0_pay2 (iblk0 V c 0 ⟨0, hn⟩) k0_pay1
  | n + 1, hn =>
    if (n + 1) % 8 = 0 then k0_pay2 (iblk0 V c 0 ⟨n + 1, hn⟩) k0_pay1
    else k0_pay2 (iblk0 V c 0 ⟨n + 1, hn⟩) (acc0 c n (Nat.lt_of_succ_lt hn))

/-- The accumulator at a point where it is reset. -/
theorem acc0_A (c : Dev nD) (t : Fin cfg0.N) (h0 : t.val % 8 = 0) :
    acc0 V c t.val t.isLt = k0_pay2 (iblk0 V c 0 t) k0_pay1 := by
  obtain ⟨n, hn⟩ := t
  cases n with
  | zero => rfl
  | succ n => exact if_pos h0

/-- The accumulator at a point where it continues: over what the point before left. -/
theorem acc0_B (c : Dev nD) (t : Fin cfg0.N) (h0 : ¬t.val % 8 = 0) :
    acc0 V c t.val t.isLt = k0_pay2 (iblk0 V c 0 t) (acc0 V c (t.val - 1) (Nat.lt_of_le_of_lt (Nat.sub_le _ _) t.isLt)) := by
  obtain ⟨n, hn⟩ := t
  cases n with
  | zero => exact absurd (Nat.zero_mod _) h0
  | succ n => exact if_neg h0

/-- The input's current staging buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The region invariant -/

/-- The invariant before position `n`: before the first point what the launch hands over (every scoped buffer at
    anything); afterwards the accumulator at what the point before left, the other scoped buffers at anything, and the
    generator register at some state. -/
def PhiS (c : Dev nD) : (n : ℕ) → n ≤ cfg0.N → sProp 𝕄
  | 0, _ => Pipeline.ΦA spec0 c
  | n + 1, hn => iprop(iprop(owns (c : Thread nD τ) scM0_0 fullShare (acc0 V c n hn) ∗ rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (acc0 V c n hn) ∗ rest0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare (acc0 V c (n - 1) (by omega)) ∗ rest0 (F := F) c) ∗ (∃ r, prngReg c r)) := by
  cases n with
  | zero => exact absurd rfl hz
  | succ n => rfl

/-! ## The pipeline's proof data -/

/-- The proof data of pipeline 0 on core `c`: the arrays as the region finds them; after the body at point `t` the
    input's buffer at its block and the output's at the accumulator; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => acc0 V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

/-- The invariant at a point's start, restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = acc0 V c t.val t.isLt := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the input's memref holds its block; the closed form says which case the point is in; the
    invariant hands the body the accumulator (at anything when it is reset, at what the point before left when it
    continues) and takes it back at this point's contents; the output's buffer ends at the same contents; the other
    scoped buffers and the generator register pass through; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 8 = 0
  · rw [acc0_A V c t h0]
    by_cases hz : t.val = 0
    · rw [PhiS_castSucc V c t, PhiS_zero V c _ _ hz, PhiA0_eq]
      iintro ⟨⟨⟨HS0, Hr⟩, Hg⟩, Ho, ⟨%d0, H0⟩, ⟨%d1, H1⟩⟩
      iapply ((kernelRun0_A c (grid0.coords t) _ _ _ _ _ _ ((hcond0_0 t).mpr h0) (iblk0 V c 0 t)).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hr Hg]
      · isplitl [HS0 Hr]
        · isplitl [HS0]
          · unfold owns; iexists _; isplitr
            swap; · iexact HS0
            ipureintro; exact (View.read_writes_of_cover _ _ _ _ _ (scover0_A_0 c _ _ _ _ _ _ _ _ _)).trans (sout0_A_0_eq c (grid0.coords t) (ms0_0 t) (hs0_0 t) (ms0_1 t) (hs0_1 t) scM0_0 (Memref.isWhole_whole _) ((hcond0_0 t).mpr h0) (iblk0 V c 0 t))
          iexact Hr
        iexact Hg
      isplitl [Ho]; · iexact Ho
      isplitl [H0]; · iexact H0
      unfold owns; iexists _; isplitr
      swap; · iexact H1
      ipureintro; exact (View.read_writes_of_cover _ _ _ _ _ (cover0_A_1 c _ _ _ _ _ _ _ _ _)).trans (out0_A_1_eq c (grid0.coords t) (ms0_0 t) (hs0_0 t) (ms0_1 t) (hs0_1 t) scM0_0 (Memref.isWhole_whole _) ((hcond0_0 t).mpr h0) (iblk0 V c 0 t))
    · rw [PhiS_castSucc V c t, PhiS_pos V c _ _ hz]
      iintro ⟨⟨⟨HS0, Hr⟩, Hg⟩, Ho, ⟨%d0, H0⟩, ⟨%d1, H1⟩⟩
      iapply ((kernelRun0_A c (grid0.coords t) _ _ _ _ _ _ ((hcond0_0 t).mpr h0) (iblk0 V c 0 t)).2.2 Set.univ _)
      isplitl [H0]; · iexact H0
      isplitl [H1]; · iexists _; iexact H1
      isplitl [HS0]; · iexists _; iexact HS0
      iintro ⟨H0, ⟨%e1, H1⟩, ⟨%es0, HS0⟩⟩
      isplitl [HS0 Hr Hg]
      · isplitl [HS0 Hr]
        · isplitl [HS0]
          · unfold owns; iexists _; isplitr
            swap; · iexact HS0
            ipureintro; exact (View.read_writes_of_cover _ _ _ _ _ (scover0_A_0 c _ _ _ _ _ _ _ _ _)).trans (sout0_A_0_eq c (grid0.coords t) (ms0_0 t) (hs0_0 t) (ms0_1 t) (hs0_1 t) scM0_0 (Memref.isWhole_whole _) ((hcond0_0 t).mpr h0) (iblk0 V c 0 t))
          iexact Hr
        iexact Hg
      isplitl [Ho]; · iexact Ho
      isplitl [H0]; · iexact H0
      unfold owns; iexists _; isplitr
      swap; · iexact H1
      ipureintro; exact (View.read_writes_of_cover _ _ _ _ _ (cover0_A_1 c _ _ _ _ _ _ _ _ _)).trans (out0_A_1_eq c (grid0.coords t) (ms0_0 t) (hs0_0 t) (ms0_1 t) (hs0_1 t) scM0_0 (Memref.isWhole_whole _) ((hcond0_0 t).mpr h0) (iblk0 V c 0 t))
  · rw [acc0_B V c t h0]
    have hz : t.val ≠ 0 := fun e => h0 (by rw [e])
    rw [PhiS_castSucc V c t, PhiS_pos V c _ _ hz]
    iintro ⟨⟨⟨HS0, Hr⟩, Hg⟩, Ho, ⟨%d0, H0⟩, ⟨%d1, H1⟩⟩
    iapply ((kernelRun0_B c (grid0.coords t) _ _ _ _ _ _ (fun h => h0 ((hcond0_0 t).mp h)) (iblk0 V c 0 t) _).2.2 Set.univ _)
    isplitl [H0]; · iexact H0
    isplitl [H1]; · iexists _; iexact H1
    isplitl [HS0]; · iexact HS0
    iintro ⟨H0, ⟨%e1, H1⟩, ⟨%es0, HS0⟩⟩
    isplitl [HS0 Hr Hg]
    · isplitl [HS0 Hr]
      · isplitl [HS0]
        · unfold owns; iexists _; isplitr
          swap; · iexact HS0
          ipureintro; exact (View.read_writes_of_cover _ _ _ _ _ (scover0_B_0 c _ _ _ _ _ _ _ _ _ _)).trans (sout0_B_0_eq c (grid0.coords t) (ms0_0 t) (hs0_0 t) (ms0_1 t) (hs0_1 t) scM0_0 (Memref.isWhole_whole _) (fun h => h0 ((hcond0_0 t).mp h)) (iblk0 V c 0 t) _)
        iexact Hr
      iexact Hg
    isplitl [Ho]; · iexact Ho
    isplitl [H0]; · iexact H0
    unfold owns; iexists _; isplitr
    swap; · iexact H1
    ipureintro; exact (View.read_writes_of_cover _ _ _ _ _ (cover0_B_1 c _ _ _ _ _ _ _ _ _ _)).trans (out0_B_1_eq c (grid0.coords t) (ms0_0 t) (hs0_0 t) (ms0_1 t) (hs0_1 t) scM0_0 (Memref.isWhole_whole _) (fun h => h0 ((hcond0_0 t).mp h)) (iblk0 V c 0 t) _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After any point but the first the invariant gives it back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.Kernel.Hand

end
-- ==== Proof.KB.Frame1.lean ====
/-
  Region 1 (the five sums and the per-image error): the proof data of its pipeline at the contents `V` the region is
  entered with, and what the launch needs of it.

  The grid has 4 points; at each the body loads a block of 8 predicted images and the block of their count maps, stores
  zeros over a scratch buffer of 8 × 514 × 514 cells, stores the count block one cell in from its border, reads the
  nine shifted windows of the padded scratch, and stores two blocks of per-image results. The scratch is written whole
  before it is read, so nothing is carried from point to point.
-/
import proofs.«429451_j33646773797363_4_alg».proof.Proof.Gen.Kernel.Launch
import proofs.«429451_j33646773797363_4_alg».proof.Proof.Gen.Kernel.Skeleton
import proofs.«429451_j33646773797363_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch after the body's two stores: zeros everywhere, then the count block one cell in from the border (pieces LAST FIRST). -/
def padv (x1 : Vec F S8x512x512 .f32) : Vec F S8x514x514 .f32 :=
  View.canon [⟨Rect.unit (s := S8x514x514) ![0, 1, 1] S8x512x512.size inb_S8x514x514_S8x512x512_0_1_1, k1_pay5 x1⟩,
    ⟨Rect.unit (s := S8x514x514) ![0, 0, 0] S8x514x514.size inb_S8x514x514_S8x514x514_0_0_0, k1_pay4 (F := F)⟩]

/-- The nine shifted reads of the padded scratch, by their offsets. -/
def tap22 (x1 : Vec F S8x512x512 .f32) : Vec F S8x512x512 .f32 := View.ld (padv x1) (Rect.unit (s := S8x514x514) ![0, 2, 2] S8x512x512.size inb_S8x514x514_S8x512x512_0_2_2)
def tap21 (x1 : Vec F S8x512x512 .f32) : Vec F S8x512x512 .f32 := View.ld (padv x1) (Rect.unit (s := S8x514x514) ![0, 2, 1] S8x512x512.size inb_S8x514x514_S8x512x512_0_2_1)
def tap20 (x1 : Vec F S8x512x512 .f32) : Vec F S8x512x512 .f32 := View.ld (padv x1) (Rect.unit (s := S8x514x514) ![0, 2, 0] S8x512x512.size inb_S8x514x514_S8x512x512_0_2_0)
def tap12 (x1 : Vec F S8x512x512 .f32) : Vec F S8x512x512 .f32 := View.ld (padv x1) (Rect.unit (s := S8x514x514) ![0, 1, 2] S8x512x512.size inb_S8x514x514_S8x512x512_0_1_2)
def tap11 (x1 : Vec F S8x512x512 .f32) : Vec F S8x512x512 .f32 := View.ld (padv x1) (Rect.unit (s := S8x514x514) ![0, 1, 1] S8x512x512.size inb_S8x514x514_S8x512x512_0_1_1)
def tap10 (x1 : Vec F S8x512x512 .f32) : Vec F S8x512x512 .f32 := View.ld (padv x1) (Rect.unit (s := S8x514x514) ![0, 1, 0] S8x512x512.size inb_S8x514x514_S8x512x512_0_1_0)
def tap02 (x1 : Vec F S8x512x512 .f32) : Vec F S8x512x512 .f32 := View.ld (padv x1) (Rect.unit (s := S8x514x514) ![0, 0, 2] S8x512x512.size inb_S8x514x514_S8x512x512_0_0_2)
def tap01 (x1 : Vec F S8x512x512 .f32) : Vec F S8x512x512 .f32 := View.ld (padv x1) (Rect.unit (s := S8x514x514) ![0, 0, 1] S8x512x512.size inb_S8x514x514_S8x512x512_0_0_1)
def tap00 (x1 : Vec F S8x512x512 .f32) : Vec F S8x512x512 .f32 := View.ld (padv x1) (Rect.unit (s := S8x514x514) ![0, 0, 0] S8x512x512.size inb_S8x514x514_S8x512x512_0_0_0)

/-- What the body leaves in output window 2's buffer (the sums of the prediction's images), from the two input blocks. -/
def out1_2 (x0 x1 : Vec F S8x512x512 .f32) : Vec F S8x128 .f32 := k1_pay1 (k1_pay9 (k1_pay3 x0))
/-- What the body leaves in output window 3's buffer (the per-image errors), from the two input blocks. -/
def out1_3 (x0 x1 : Vec F S8x512x512 .f32) : Vec F S8x128 .f32 :=
  k1_pay2 (k1_pay9 (k1_pay3 x0)) (k1_pay10 (k1_pay3 x0))
    (k1_pay11 (k1_pay6 (tap22 x1) (tap21 x1) (tap20 x1)) (k1_pay7 (tap12 x1)) (tap11 x1) (tap10 x1) (tap02 x1) (tap01 x1) (tap00 x1))
    (k1_pay12 (k1_pay6 (tap22 x1) (tap21 x1) (tap20 x1)) (k1_pay7 (tap12 x1)) (tap11 x1) (tap10 x1) (tap02 x1) (tap01 x1) (tap00 x1))
    (k1_pay13 (k1_pay3 x0) (k1_pay6 (tap22 x1) (tap21 x1) (tap20 x1)) (k1_pay7 (tap12 x1)) (tap11 x1) (tap10 x1) (tap02 x1) (tap01 x1) (tap00 x1))

/-! ## The memrefs the body is called on -/

/-- No window is ever idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

/-- Each window's current staging memref at point `t`, and its wholeness. -/
abbrev ms1_0 (t : Fin cfg1.N) : Memref sig .tc .vmem S8x512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x128 .f32 := win1_3.stage (cfg1.slots t 3)
abbrev hs1_3 (t : Fin cfg1.N) : (ms1_3 t).IsWhole := hstage1_3 ((cfg1.slots t 3).cast nbuf1_3)
/-- The padded scratch: a whole scoped buffer of the kernel's own, passed beside the windows. -/
abbrev scM1_0 : Memref sig .tc .vmem S8x514x514 .f32 := Memref.whole cc1_scratch0
/-- One staging buffer of each output window, through which its contents are stated (the choice does not matter). -/
abbrev VO1_2 : View sig .tc .vmem S8x128 .f32 := (Memref.whole cc1_stg2_0 : Memref sig .tc .vmem S8x128 .f32).view
abbrev VO1_3 : View sig .tc .vmem S8x128 .f32 := (Memref.whole cc1_stg3_0 : Memref sig .tc .vmem S8x128 .f32).view

/-- What the launch hands the region, with the padded scratch as a memref owned at some contents; the other scoped
    buffers, each whole at some contents, are never opened. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

/-! ## The body on any staging memrefs -/

theorem hz3_1 : (![0, 0, 0] : Fin 3 → Nat) = fun _ => 0 := funext fun a => by fin_cases a <;> rfl
theorem hz2_1 : (![0, 0] : Fin 2 → Nat) = fun _ => 0 := funext fun a => by fin_cases a <;> rfl

/-- A load of the scratch after its two stores reads the padded array through the load's rectangle. -/
theorem readCov_padv (arg5 : Memref sig .tc .vmem S8x514x514 .f32) (x1 : Vec F S8x512x512 .f32) (r : Rect S8x514x514) :
    arg5.view.readCov [⟨Rect.unit (s := S8x514x514) ![0, 1, 1] S8x512x512.size inb_S8x514x514_S8x512x512_0_1_1, k1_pay5 x1⟩,
      ⟨Rect.unit (s := S8x514x514) ![0, 0, 0] S8x514x514.size inb_S8x514x514_S8x514x514_0_0_0, k1_pay4 (F := F)⟩] r.toLoadRect
      = View.ld (padv x1) r := by
  unfold padv
  exact View.readCov_eq_canon_ld _ _ _ (fun y => ⟨_, List.mem_cons_of_mem _ (List.mem_singleton_self _), View.mem_set_unit_zero (S := S8x514x514) hz3_1 inb_S8x514x514_S8x514x514_0_0_0 y⟩)

set_option maxHeartbeats 1000000 in
noncomputable def kernelRun1 (c : Dev nD) (i : grid1.Coords) (arg1 : Memref sig .tc .vmem S8x512x512 .f32) (harg1 : arg1.IsWhole) (arg2 : Memref sig .tc .vmem S8x512x512 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x514x514 .f32) (harg5 : arg5.IsWhole)
    (x0 x1 : Vec F S8x512x512 .f32) :
    Σ' (L2 : List (View.Piece (Elt F) S8x128 .f32)) (L3 : List (View.Piece (Elt F) S8x128 .f32)), { LS0 : List (View.Piece (Elt F) S8x514x514 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc1__loss_kernel i arg1 harg1 arg2 harg2 arg3 harg3 arg4 harg4 arg5 harg5) K } := by
  refine ⟨?_, ?_, ?_, fun E K => ?run⟩
  case run =>
    simp only [cc1__loss_kernel_eq_skeleton]; unfold cc1__loss_kernel_skel
    simp only [k1_part1_eq_skeleton, k1_part2_eq_skeleton]
    unfold owns
    iintro ⟨⟨%f0, %hf0, H0⟩, ⟨%f1, %hf1, H1⟩, ⟨%d2, %f2, -, H2⟩, ⟨%d3, %f3, -, H3⟩, ⟨%ds0, %fs0, -, HS0⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

theorem cover1_2 (c : Dev nD) (i : grid1.Coords) (arg1 : Memref sig .tc .vmem S8x512x512 .f32) (harg1 : arg1.IsWhole) (arg2 : Memref sig .tc .vmem S8x512x512 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x514x514 .f32) (harg5 : arg5.IsWhole)
    (x0 x1 : Vec F S8x512x512 .f32) (y : S8x128.Idx) :
    ∃ pc ∈ (kernelRun1 c i arg1 harg1 arg2 harg2 arg3 harg3 arg4 harg4 arg5 harg5 x0 x1).1, y ∈ pc.1.set :=
  View.cover_of_tiledL (kernelRun1 c i arg1 harg1 arg2 harg2 arg3 harg3 arg4 harg4 arg5 harg5 x0 x1).1 S8x128.size (by sl_kernel_rfl) y

theorem cover1_3 (c : Dev nD) (i : grid1.Coords) (arg1 : Memref sig .tc .vmem S8x512x512 .f32) (harg1 : arg1.IsWhole) (arg2 : Memref sig .tc .vmem S8x512x512 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x514x514 .f32) (harg5 : arg5.IsWhole)
    (x0 x1 : Vec F S8x512x512 .f32) (y : S8x128.Idx) :
    ∃ pc ∈ (kernelRun1 c i arg1 harg1 arg2 harg2 arg3 harg3 arg4 harg4 arg5 harg5 x0 x1).2.1, y ∈ pc.1.set :=
  View.cover_of_tiledL (kernelRun1 c i arg1 harg1 arg2 harg2 arg3 harg3 arg4 harg4 arg5 harg5 x0 x1).2.1 S8x128.size (by sl_kernel_rfl) y

set_option maxHeartbeats 400000 in
theorem found1_2_eq (c : Dev nD) (i : grid1.Coords) (arg1 : Memref sig .tc .vmem S8x512x512 .f32) (harg1 : arg1.IsWhole) (arg2 : Memref sig .tc .vmem S8x512x512 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x514x514 .f32) (harg5 : arg5.IsWhole)
    (x0 x1 : Vec F S8x512x512 .f32) :
    VO1_2.read (Elt F) (VO1_2.writes (Elt F) VO1_2.junk (kernelRun1 c i arg1 harg1 arg2 harg2 arg3 harg3 arg4 harg4 arg5 harg5 x0 x1).1) = out1_2 x0 x1 := by
  rw [View.read_writes_eq_canon _ _ _ (cover1_2 c i arg1 harg1 arg2 harg2 arg3 harg3 arg4 harg4 arg5 harg5 x0 x1)]
  unfold kernelRun1
  dsimp only
  sl_unfold_words
  rw [View.canon_unit_zero (S := S8x128) hz2_1]
  simp only [View.readAt_eq_ld, harg1.read_unread, View.ld_unit_zero (S := S8x512x512) hz3_1]
  rfl

set_option maxHeartbeats 400000 in
theorem found1_3_eq (c : Dev nD) (i : grid1.Coords) (arg1 : Memref sig .tc .vmem S8x512x512 .f32) (harg1 : arg1.IsWhole) (arg2 : Memref sig .tc .vmem S8x512x512 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x514x514 .f32) (harg5 : arg5.IsWhole)
    (x0 x1 : Vec F S8x512x512 .f32) :
    VO1_3.read (Elt F) (VO1_3.writes (Elt F) VO1_3.junk (kernelRun1 c i arg1 harg1 arg2 harg2 arg3 harg3 arg4 harg4 arg5 harg5 x0 x1).2.1) = out1_3 x0 x1 := by
  rw [View.read_writes_eq_canon _ _ _ (cover1_3 c i arg1 harg1 arg2 harg2 arg3 harg3 arg4 harg4 arg5 harg5 x0 x1)]
  unfold kernelRun1
  dsimp only
  sl_unfold_words
  rw [View.canon_unit_zero (S := S8x128) hz2_1]
  simp only [View.readAt_eq_ld, harg1.read_unread, harg2.read_unread, View.ld_unit_zero (S := S8x512x512) hz3_1]
  iterate 9 rw [readCov_padv]
  rfl

/-! ## The inputs' blocks -/

/-- Input window 0's current staging buffer holds its block at every point, for any proof data whose array is `V`'s
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the invariant hands the body the padded scratch at
    anything and takes it back at anything; each output's buffer ends at the named function of the two input blocks;
    the other scoped buffers and the generator register pass through; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Pipeline.ΦA spec1 c from rfl, show (dat1 V c).Φ t.castSucc = Pipeline.ΦA spec1 c from rfl, PhiA1_eq]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  iintro ⟨⟨⟨Hr1, Hr2, Hr3, Hr4, Hr5, HS0⟩, Hg⟩, Ho, ⟨%d0, H0⟩, ⟨%d1, H1⟩, ⟨%d2, H2⟩, ⟨%d3, H3⟩⟩
  iapply ((kernelRun1 c (grid1.coords t) _ _ _ _ _ _ _ _ _ _ (iblk1 V c 0 t) (iblk1 V c 1 t)).2.2.2 Set.univ _)
  isplitl [H0]; · iexact H0
  isplitl [H1]; · iexact H1
  isplitl [H2]; · iexists _; iexact H2
  isplitl [H3]; · iexists _; iexact H3
  isplitl [HS0]; · iexact HS0
  iintro ⟨H0, H1, ⟨%e2, H2⟩, ⟨%e3, H3⟩, ⟨%es0, HS0⟩⟩
  isplitl [Hr1 Hr2 Hr3 Hr4 Hr5 HS0 Hg]
  · isplitl [Hr1 Hr2 Hr3 Hr4 Hr5 HS0]
    · isplitl [Hr1]; · iexact Hr1
      isplitl [Hr2]; · iexact Hr2
      isplitl [Hr3]; · iexact Hr3
      isplitl [Hr4]; · iexact Hr4
      isplitl [Hr5]; · iexact Hr5
      iexists _; unfold owns; iexists _; isplitr
      swap; · iexact HS0
      ipureintro; rfl
    iexact Hg
  isplitl [Ho]; · iexact Ho
  isplitl [H0]; · iexact H0
  isplitl [H1]; · iexact H1
  isplitl [H2]
  · unfold owns; iexists _; isplitr
    swap; · iexact H2
    ipureintro; exact (View.read_writes_of_cover _ _ _ _ _ (cover1_2 c _ _ _ _ _ _ _ _ _ _ _ _ _)).trans (found1_2_eq c (grid1.coords t) (ms1_0 t) (hs1_0 t) (ms1_1 t) (hs1_1 t) (ms1_2 t) (hs1_2 t) (ms1_3 t) (hs1_3 t) scM1_0 (Memref.isWhole_whole _) (iblk1 V c 0 t) (iblk1 V c 1 t))
  unfold owns; iexists _; isplitr
  swap; · iexact H3
  ipureintro; exact (View.read_writes_of_cover _ _ _ _ _ (cover1_3 c _ _ _ _ _ _ _ _ _ _ _ _ _)).trans (found1_3_eq c (grid1.coords t) (ms1_0 t) (hs1_0 t) (ms1_1 t) (hs1_1 t) (ms1_2 t) (hs1_2 t) (ms1_3 t) (hs1_3 t) scM1_0 (Memref.isWhole_whole _) (iblk1 V c 0 t) (iblk1 V c 1 t))

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant, at every point. -/
theorem hin1 (c : Dev nD) : Pipeline.ΦA spec1 c ⊢ (dat1 V c).Φ 0 :=
  Idealize.SL.BI.Entails.refl _

theorem hout1 (c : Dev nD) : (dat1 V c).Φ (Fin.last cfg1.N) ⊢ Pipeline.ΦA spec1 c :=
  Idealize.SL.BI.Entails.refl _

end Cert.Kernel.Hand

end
-- ==== Proof.KB.Run.lean ====
/-
  The launch of the two-region program: @main's four items (a stretch of host operations, the count-map region, the
  sums-and-error region, a last stretch of host operations) run in order over the several-regions launch, from the two
  regions' proof data. What it gives: every weakly fair execution terminates, and at the end every unscoped buffer of a
  core holds the fold `W4` of the launch memory through the four items; in particular the three arguments end as launched.
-/
import proofs.«429451_j33646773797363_4_alg».proof.Proof.KB.Frame0
import proofs.«429451_j33646773797363_4_alg».proof.Proof.KB.Frame1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between two items: a fold through @main -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the input as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents, which region 1 is entered from). -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last host stretch: what the program returns with. -/
abbrev W4 : Dev nD → Valuation τ sig (Elt F) := fun c => StableHlo.after hostOps2 (W3 m ρ c)

/-! ### What the host stretches write -/

/-- No operation of the first stretch allocates a buffer. -/
theorem hostOps0_fresh : (hostOps0 : List (HloOp τ sig (Elt F))).Forall fun op => op.fresh = ∅ := by
  simp only [List.Forall]; repeat' constructor
/-- No operation of the last stretch allocates a buffer. -/
theorem hostOps2_fresh : (hostOps2 : List (HloOp τ sig (Elt F))).Forall fun op => op.fresh = ∅ := by
  simp only [List.Forall]; repeat' constructor

/-- The one reference the first stretch writes. -/
abbrev hostOps0_W : List (Ref sig .tc) := [main_v0]
theorem hostOps0_writes : (hostOps0 : List (HloOp τ sig (Elt F))).Forall fun op => op.writes ⊆ (hostOps0_W.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  exact List.mem_map_of_mem (by decide)
/-- The references the last stretch writes. -/
abbrev hostOps2_W : List (Ref sig .tc) := [main_v3, main_v4, main_v5, main_v6, main_v7, main_v8, main_cst, main_v9, main_v10, main_v11, main_cst_0, main_v12, main_cst_1, main_v13, main_cst_2, main_v14, main_cst_3, main_v15, main_cst_4, main_v16, main_cst_5, main_v17, main_v18]
theorem hostOps2_writes : (hostOps2 : List (HloOp τ sig (Elt F))).Forall fun op => op.writes ⊆ (hostOps2_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-! ### The arguments end as launched: no host operation and no region writes one (region 0 reads the points through an
    input window; the other two arguments are no window's array) -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at
    some state. -/
abbrev Tₙ (c : Dev nD) : sProp 𝕄 := iprop(StableHlo.held (c : Thread nD τ) (Pipeline.ucRefs τ sig) (W4 m ρ c) ∗ ∃ r, prngReg c r)

/-- The last host stretch's thread state, regrouped: the dues apart from the rest. -/
theorem last_assoc (c : Dev nD) :
    iprop(StableHlo.held (c : Thread nD τ) (Pipeline.ucRefs τ sig) (W4 m ρ c) ∗ R c)
      ⊢ iprop(Tₙ m ρ c ∗ ∃ W, owes (c : Thread nD τ) (0 : CellTallies nD τ sig Unit) W) := by
  iintro ⟨Hh, Hp, HO⟩
  isplitl [Hh Hp]
  · isplitl [Hh] <;> iassumption
  iexact HO

/-! ## The regions as segments -/

set_option backward.isDefEq.respectTransparency.types false in
/-- Region 0 over the thread state: entered from every unscoped buffer at `W1`, left at `W2`. Its arrays split out of the
    unscoped buffers and put back at the exit contents; the generator register and the scoped rest into the region's invariant
    and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2` (what region 0 leaves: no host operation
    stands between the two), left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun w => A_eq1 (V2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: the chain of its items, then the segments' run against that chain. -/
theorem main_run (c : Dev nD) : main (F := F) c = Pipeline.Seg.run (segs m ρ) := (main_chain c).trans (by chain_rfl)

set_option backward.isDefEq.respectTransparency.types false in
/-- THE RUN. From any memory with zero counters, every weakly fair execution of @main on the TensorCores terminates, nothing
    faulting, and in every final state each unscoped buffer of each core holds the fold `W4` of the launch memory through the
    four items. -/
theorem run_all : θ_run defs (onTc (τ := τ) (main (F := F))) ⟨m, fun _ => 0, ρ⟩
    (fun r => ∀ c : Dev nD, ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => last_assoc m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

/-- THE FRAME at any `F`: every weakly fair execution of @main terminates, nothing faulting, and every final state has the three
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  OrdCont.mono (θ_run defs (onTc (τ := τ) (main (F := F))) ⟨m, fun _ => 0, ρ⟩) (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.Kernel.Hand

end
-- ==== Proof.R.Term.lean ====
/-
  The reference program's result as a function of its three arguments: one binding per operation
  of the printed program, each the operation's own pure function; a called function's operations stand
  at the place of its call. The chain is cut into stages at the values that carry the mathematics,
  each stage the printed operations between two cuts, in their order.

  * the clamped coordinates of the points (xArr, yArr), the rows and columns of their nine neighbours
    (nyArr, nxArr), the mask of the neighbours inside the grid (validArr), the flat cell index of each
    neighbour (flatArr, cellArr), the neighbours' weights, zero outside the grid (updArr), the image
    number of each update (imgArr), the scatter coordinates (idxArr);
  * refTarget: the weights added into a zero image at their cells: the target, 32 x 512 x 512;
  * refLoss: from the prediction, a target and the area, the mean absolute error of the normalised
    sums against the number of points (cntErr), the mean over images of the mean squared difference
    of the normalised images (mseErr), and their weighted sum;
  * resTerm: the loss at the target of the points.
-/
import proofs.«429451_j33646773797363_4_alg».proof.ReferenceIdeal
import proofs.«429451_j33646773797363_4_alg».proof.Proof.Gen.ReferenceIdeal

noncomputable section

namespace Cert.ReferenceIdeal.Hand

open Cert.ReferenceIdeal Cert.ReferenceIdeal.Gen Idealize.ShloMosaic Idealize.SL.Sem

variable {F : FTy → Type} [FloatOps F]

/-- The x coordinates of the points, clamped into [0, 511]. -/
def xArr (a1 : IVec S32x4096x2 32) : IVec S32x4096 32 :=
  let v8 : IVec S32x4096x1 32 := extractStridedSlice S32x4096x1 ![0, 0, 0] a1 slices_S32x4096x2_S32x4096x1_0_0_0
  let v9 : IVec S32x4096 32 := shapeCast S32x4096 v8 shapeCasts_S32x4096x1_S32x4096
  let c_4 : IVec S_ 32 := constantI S_ 32 0#32
  let c_5 : IVec S_ 32 := constantI S_ 32 511#32
  let call0_v0 : IVec S_ 32 := id c_4
  let call0_v1 : IVec S32x4096 32 := broadcastInDim S32x4096 ![] bcast_S_S32x4096 call0_v0
  let call0_v2 : IVec S32x4096 32 := maxsi call0_v1 v9
  let call0_v3 : IVec S_ 32 := id c_5
  let call0_v4 : IVec S32x4096 32 := broadcastInDim S32x4096 ![] bcast_S_S32x4096 call0_v3
  minsi call0_v4 call0_v2

/-- The y coordinates of the points, clamped into [0, 511]. -/
def yArr (a1 : IVec S32x4096x2 32) : IVec S32x4096 32 :=
  let v11 : IVec S32x4096x1 32 := extractStridedSlice S32x4096x1 ![0, 0, 1] a1 slices_S32x4096x2_S32x4096x1_0_0_1
  let v12 : IVec S32x4096 32 := shapeCast S32x4096 v11 shapeCasts_S32x4096x1_S32x4096
  let c_6 : IVec S_ 32 := constantI S_ 32 0#32
  let c_7 : IVec S_ 32 := constantI S_ 32 511#32
  let call1_v0 : IVec S_ 32 := id c_6
  let call1_v1 : IVec S32x4096 32 := broadcastInDim S32x4096 ![] bcast_S_S32x4096 call1_v0
  let call1_v2 : IVec S32x4096 32 := maxsi call1_v1 v12
  let call1_v3 : IVec S_ 32 := id c_7
  let call1_v4 : IVec S32x4096 32 := broadcastInDim S32x4096 ![] bcast_S_S32x4096 call1_v3
  minsi call1_v4 call1_v2

/-- The rows y + dy of the nine neighbours of each point. -/
def nyArr (v13 : IVec S32x4096 32) : IVec S32x4096x9 32 :=
  let c : IVec S9 32 := fun i => lit0 (S9.rowMajor i)
  let v14 : IVec S32x4096x1 32 := broadcastInDim S32x4096x1 ![0, 1] bcast_S32x4096_S32x4096x1_0_1 v13
  let v15 : IVec S1x1x9 32 := broadcastInDim S1x1x9 ![2] bcast_S9_S1x1x9_2 c
  let v16 : IVec S32x4096x9 32 := broadcastInDim S32x4096x9 ![0, 1, 2] bcast_S32x4096x1_S32x4096x9_0_1_2 v14
  let v17 : IVec S32x4096x9 32 := broadcastInDim S32x4096x9 ![0, 1, 2] bcast_S1x1x9_S32x4096x9_0_1_2 v15
  addi v16 v17

/-- The columns x + dx of the nine neighbours of each point. -/
def nxArr (v10 : IVec S32x4096 32) : IVec S32x4096x9 32 :=
  let c_0 : IVec S9 32 := fun i => lit1 (S9.rowMajor i)
  let v19 : IVec S32x4096x1 32 := broadcastInDim S32x4096x1 ![0, 1] bcast_S32x4096_S32x4096x1_0_1 v10
  let v20 : IVec S1x1x9 32 := broadcastInDim S1x1x9 ![2] bcast_S9_S1x1x9_2 c_0
  let v21 : IVec S32x4096x9 32 := broadcastInDim S32x4096x9 ![0, 1, 2] bcast_S32x4096x1_S32x4096x9_0_1_2 v19
  let v22 : IVec S32x4096x9 32 := broadcastInDim S32x4096x9 ![0, 1, 2] bcast_S1x1x9_S32x4096x9_0_1_2 v20
  addi v21 v22

/-- The neighbours inside the grid: 0 ≤ row < 512 and 0 ≤ column < 512. -/
def validArr (v18 v23 : IVec S32x4096x9 32) : IVec S32x4096x9 1 :=
  let c_8 : IVec S_ 32 := constantI S_ 32 0#32
  let v24 : IVec S32x4096x9 32 := broadcastInDim S32x4096x9 ![] bcast_S_S32x4096x9 c_8
  let v25 : IVec S32x4096x9 1 := cmpi .sge v18 v24
  let c_9 : IVec S_ 32 := constantI S_ 32 512#32
  let v26 : IVec S32x4096x9 32 := broadcastInDim S32x4096x9 ![] bcast_S_S32x4096x9 c_9
  let v27 : IVec S32x4096x9 1 := cmpi .slt v18 v26
  let v28 : IVec S32x4096x9 1 := andi v25 v27
  let c_10 : IVec S_ 32 := constantI S_ 32 0#32
  let v29 : IVec S32x4096x9 32 := broadcastInDim S32x4096x9 ![] bcast_S_S32x4096x9 c_10
  let v30 : IVec S32x4096x9 1 := cmpi .sge v23 v29
  let v31 : IVec S32x4096x9 1 := andi v28 v30
  let c_11 : IVec S_ 32 := constantI S_ 32 512#32
  let v32 : IVec S32x4096x9 32 := broadcastInDim S32x4096x9 ![] bcast_S_S32x4096x9 c_11
  let v33 : IVec S32x4096x9 1 := cmpi .slt v23 v32
  andi v31 v33

/-- The flat cell index 512 · clamp(row) + clamp(column) of each neighbour. -/
def flatArr (v18 v23 : IVec S32x4096x9 32) : IVec S32x4096x9 32 :=
  let c_12 : IVec S_ 32 := constantI S_ 32 0#32
  let c_13 : IVec S_ 32 := constantI S_ 32 511#32
  let call2_v0 : IVec S_ 32 := id c_12
  let call2_v1 : IVec S32x4096x9 32 := broadcastInDim S32x4096x9 ![] bcast_S_S32x4096x9 call2_v0
  let call2_v2 : IVec S32x4096x9 32 := maxsi call2_v1 v18
  let call2_v3 : IVec S_ 32 := id c_13
  let call2_v4 : IVec S32x4096x9 32 := broadcastInDim S32x4096x9 ![] bcast_S_S32x4096x9 call2_v3
  let v35 : IVec S32x4096x9 32 := minsi call2_v4 call2_v2
  let c_14 : IVec S_ 32 := constantI S_ 32 512#32
  let v36 : IVec S32x4096x9 32 := broadcastInDim S32x4096x9 ![] bcast_S_S32x4096x9 c_14
  let v37 : IVec S32x4096x9 32 := muli v35 v36
  let c_15 : IVec S_ 32 := constantI S_ 32 0#32
  let c_16 : IVec S_ 32 := constantI S_ 32 511#32
  let call3_v0 : IVec S_ 32 := id c_15
  let call3_v1 : IVec S32x4096x9 32 := broadcastInDim S32x4096x9 ![] bcast_S_S32x4096x9 call3_v0
  let call3_v2 : IVec S32x4096x9 32 := maxsi call3_v1 v23
  let call3_v3 : IVec S_ 32 := id c_16
  let call3_v4 : IVec S32x4096x9 32 := broadcastInDim S32x4096x9 ![] bcast_S_S32x4096x9 call3_v3
  let v38 : IVec S32x4096x9 32 := minsi call3_v4 call3_v2
  addi v37 v38

/-- The weights: the stencil's at the neighbours inside the grid, zero outside. -/
def updArr (v34 : IVec S32x4096x9 1) : FVec F S32x4096x9 .f32 :=
  let cst : FVec F S9 .f32 := fun i => FloatOps.ofBits .f32 (lit2 (S9.rowMajor i))
  let cst_17 : FVec F S_ .f32 := constant S_ .f32 0x00000000#32
  let call4_v0 : FVec F S32x4096x9 .f32 := broadcastInDim S32x4096x9 ![2] bcast_S9_S32x4096x9_2 cst
  let call4_v1 : FVec F S32x4096x9 .f32 := broadcastInDim S32x4096x9 ![] bcast_S_S32x4096x9 cst_17
  select v34 call4_v0 call4_v1

/-- The image number of each update, brought into range. -/
def imgArr : IVec S32x4096x9 32 :=
  let v41 : IVec S32 32 := iotaInDim S32 32 0
  let v42 : IVec S32x1x1 32 := broadcastInDim S32x1x1 ![0] bcast_S32_S32x1x1_0 v41
  let v43 : IVec S32x4096x9 32 := broadcastInDim S32x4096x9 ![0, 1, 2] bcast_S32x1x1_S32x4096x9_0_1_2 v42
  let c_19 : IVec S_ 32 := constantI S_ 32 0#32
  let v45 : IVec S32x4096x9 32 := broadcastInDim S32x4096x9 ![] bcast_S_S32x4096x9 c_19
  let v46 : IVec S32x4096x9 1 := cmpi .slt v43 v45
  let c_20 : IVec S_ 32 := constantI S_ 32 32#32
  let v47 : IVec S32x4096x9 32 := broadcastInDim S32x4096x9 ![] bcast_S_S32x4096x9 c_20
  let v48 : IVec S32x4096x9 32 := addi v43 v47
  select v46 v48 v43

/-- The flat cell index of each update, brought into range. -/
def cellArr (v39 : IVec S32x4096x9 32) : IVec S32x4096x9 32 :=
  let c_21 : IVec S_ 32 := constantI S_ 32 0#32
  let v50 : IVec S32x4096x9 32 := broadcastInDim S32x4096x9 ![] bcast_S_S32x4096x9 c_21
  let v51 : IVec S32x4096x9 1 := cmpi .slt v39 v50
  let c_22 : IVec S_ 32 := constantI S_ 32 262144#32
  let v52 : IVec S32x4096x9 32 := broadcastInDim S32x4096x9 ![] bcast_S_S32x4096x9 c_22
  let v53 : IVec S32x4096x9 32 := addi v39 v52
  select v51 v53 v39

/-- The scatter coordinates (image, cell) of each update. -/
def idxArr (v49 v54 : IVec S32x4096x9 32) : IVec S32x4096x9x2 32 :=
  let v55 : IVec S32x4096x9x1 32 := broadcastInDim S32x4096x9x1 ![0, 1, 2] bcast_S32x4096x9_S32x4096x9x1_0_1_2 v49
  let v56 : IVec S32x4096x9x1 32 := broadcastInDim S32x4096x9x1 ![0, 1, 2] bcast_S32x4096x9_S32x4096x9x1_0_1_2 v54
  concatenate S32x4096x9x2 3 [⟨S32x4096x9x1, v55⟩, ⟨S32x4096x9x1, v56⟩] concatenates_S32x4096x9x1_S32x4096x9x1_S32x4096x9x2_d3

/-- The target image batch of the points: the weights of the nine neighbours of every clamped point,
    added into the cells they name. -/
def refTarget (a1 : IVec S32x4096x2 32) : FVec F S32x512x512 .f32 :=
  let v10 : IVec S32x4096 32 := xArr a1
  let v13 : IVec S32x4096 32 := yArr a1
  let v18 : IVec S32x4096x9 32 := nyArr v13
  let v23 : IVec S32x4096x9 32 := nxArr v10
  let v34 : IVec S32x4096x9 1 := validArr v18 v23
  let v39 : IVec S32x4096x9 32 := flatArr v18 v23
  let v40 : FVec F S32x4096x9 .f32 := updArr v34
  let v49 : IVec S32x4096x9 32 := imgArr
  let v54 : IVec S32x4096x9 32 := cellArr v39
  let v57 : IVec S32x4096x9x2 32 := idxArr v49 v54
  let cst_18 : FVec F S_ .f32 := constant S_ .f32 0x00000000#32
  let v44 : FVec F S32x262144 .f32 := broadcastInDim S32x262144 ![] bcast_S_S32x262144 cst_18
  let v58 : FVec F S32x262144 .f32 := Host.scatterAdd scatter_S32x262144_S32x4096x9x2_S32x4096x9_n_01_01_3 v44 v57 v40
  shapeCast S32x512x512 v58 shapeCasts_S32x262144_S32x512x512

/-- The prediction with its channel axis dropped. -/
def predArr (a0 : FVec F S32x1x512x512 .f32) : FVec F S32x512x512 .f32 :=
  shapeCast S32x512x512 a0 shapeCasts_S32x1x512x512_S32x512x512

/-- The count error: the sum over images of |sum / area − 4096|. -/
def cntErr (v0 : FVec F S32x512x512 .f32) (a2 : FVec F S_ .f32) : FVec F S_ .f32 :=
  let cst_1 : FVec F S_ .f32 := constant S_ .f32 0x00000000#32
  let v1 : FVec F S32 .f32 := Host.reduceAdd v0 cst_1 reducesTo_S32x512x512_S32_d1_2 h_S_
  let v2 : FVec F S32 .f32 := broadcastInDim S32 ![] bcast_S_S32 a2
  let v3 : FVec F S32 .f32 := Host.divf v1 v2
  let cst_2 : FVec F S_ .f32 := constant S_ .f32 0x45800000#32
  let v4 : FVec F S32 .f32 := broadcastInDim S32 ![] bcast_S_S32 cst_2
  let v5 : FVec F S32 .f32 := subf v3 v4
  let v6 : FVec F S32 .f32 := Host.absf v5
  let cst_3 : FVec F S_ .f32 := constant S_ .f32 0x00000000#32
  Host.reduceAdd v6 cst_3 reducesTo_S32_S_d0 h_S_

/-- The target normalised by its sum. -/
def tnormArr (t : FVec F S32x512x512 .f32) : FVec F S32x512x512 .f32 :=
  let cst_23 : FVec F S_ .f32 := constant S_ .f32 0x00000000#32
  let v60 : FVec F S32 .f32 := Host.reduceAdd t cst_23 reducesTo_S32x512x512_S32_d1_2 h_S_
  let v61 : FVec F S32x1x1 .f32 := broadcastInDim S32x1x1 ![0] bcast_S32_S32x1x1_0 v60
  let v62 : FVec F S32x512x512 .f32 := broadcastInDim S32x512x512 ![0, 1, 2] bcast_S32x1x1_S32x512x512_0_1_2 v61
  Host.divf t v62

/-- The prediction normalised by its sum plus a small constant. -/
def pnormArr (v0 : FVec F S32x512x512 .f32) : FVec F S32x512x512 .f32 :=
  let cst_24 : FVec F S_ .f32 := constant S_ .f32 0x00000000#32
  let v64 : FVec F S32 .f32 := Host.reduceAdd v0 cst_24 reducesTo_S32x512x512_S32_d1_2 h_S_
  let v65 : FVec F S32x1x1 .f32 := broadcastInDim S32x1x1 ![0] bcast_S32_S32x1x1_0 v64
  let cst_25 : FVec F S_ .f32 := constant S_ .f32 0x322BCC77#32
  let v66 : FVec F S32x1x1 .f32 := broadcastInDim S32x1x1 ![] bcast_S_S32x1x1 cst_25
  let v67 : FVec F S32x1x1 .f32 := addf v65 v66
  let v68 : FVec F S32x512x512 .f32 := broadcastInDim S32x512x512 ![0, 1, 2] bcast_S32x1x1_S32x512x512_0_1_2 v67
  Host.divf v0 v68

/-- The sum over images of the mean squared difference of the two normalised images. -/
def mseErr (v69 v63 : FVec F S32x512x512 .f32) : FVec F S_ .f32 :=
  let v70 : FVec F S32x512x512 .f32 := subf v69 v63
  let v71 : FVec F S32x512x512 .f32 := mulf v70 v70
  let cst_26 : FVec F S_ .f32 := constant S_ .f32 0x00000000#32
  let v72 : FVec F S32 .f32 := Host.reduceAdd v71 cst_26 reducesTo_S32x512x512_S32_d1_2 h_S_
  let cst_27 : FVec F S_ .f32 := constant S_ .f32 0x48800000#32
  let v73 : FVec F S32 .f32 := broadcastInDim S32 ![] bcast_S_S32 cst_27
  let v74 : FVec F S32 .f32 := Host.divf v72 v73
  let cst_28 : FVec F S_ .f32 := constant S_ .f32 0x00000000#32
  Host.reduceAdd v74 cst_28 reducesTo_S32_S_d0 h_S_

/-- The loss of a prediction against a target at an area. -/
def refLoss (a0 : FVec F S32x1x512x512 .f32) (t : FVec F S32x512x512 .f32) (a2 : FVec F S_ .f32) : FVec F S_ .f32 :=
  let v0 : FVec F S32x512x512 .f32 := predArr a0
  let v7 : FVec F S_ .f32 := cntErr v0 a2
  let v63 : FVec F S32x512x512 .f32 := tnormArr t
  let v69 : FVec F S32x512x512 .f32 := pnormArr v0
  let v75 : FVec F S_ .f32 := mseErr v69 v63
  let cst_29 : FVec F S_ .f32 := constant S_ .f32 0x42000000#32
  let v76 : FVec F S_ .f32 := Host.divf v7 cst_29
  let cst_30 : FVec F S_ .f32 := constant S_ .f32 0x40000000#32
  let v77 : FVec F S_ .f32 := mulf cst_30 v76
  let cst_31 : FVec F S_ .f32 := constant S_ .f32 0x42000000#32
  let v78 : FVec F S_ .f32 := Host.divf v75 cst_31
  let cst_32 : FVec F S_ .f32 := constant S_ .f32 0x3E19999A#32
  let v79 : FVec F S_ .f32 := mulf cst_32 v78
  addf v77 v79

/-- The reference's result: the loss of the prediction against the target of the points. -/
def resTerm (a0 : FVec F S32x1x512x512 .f32) (a1 : IVec S32x4096x2 32) (a2 : FVec F S_ .f32) : FVec F S_ .f32 :=
  refLoss a0 (refTarget a1) a2

end Cert.ReferenceIdeal.Hand

end
-- ==== Proof.R.Run1.lean ====
/-
  The reference program as the list of its operations. The program is a straight line of host
  operations; a called function's operations stand at the place of its call, each over the buffers the
  call names. The list is cut into consecutive pieces — at every call, and at the values where the
  computation changes subject — and the program is proved equal to the sequence of the pieces; every
  weakly fair execution then terminates with each buffer at the fold of the operations' results over
  its launch contents.
-/
import proofs.«429451_j33646773797363_4_alg».proof.ReferenceIdeal
import proofs.«429451_j33646773797363_4_alg».proof.Proof.Gen.ReferenceIdeal
import Idealize.ShloMosaic.Lib.StableHlo.Run
import Idealize.ShloMosaic.Lib.Pipeline.Frame
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The operations, piece by piece -/

/-- The stencil's offset and weight tables, the prediction without its channel axis, and the count error %1 … %7. -/
abbrev opsA : List (HloOp τ sig (Elt F)) :=
  [ nullary main_c (fun i => lit0 (S9.rowMajor i)),
    nullary main_c_0 (fun i => lit1 (S9.rowMajor i)),
    nullary main_cst (fun i => FloatOps.ofBits .f32 (lit2 (S9.rowMajor i))),
    reshape main_arg0 main_v0 rfl shapeCasts_S32x1x512x512_S32x512x512,
    nullary main_cst_1 (constant S_ .f32 0x00000000#32),
    binary main_v0 main_cst_1 main_v1 ((fun x v => Host.reduceAdd x v reducesTo_S32x512x512_S32_d1_2 h_S_) : (⟨S32x512x512, .f32⟩ : BufTy).Contents (Elt F) → (⟨S_, .f32⟩ : BufTy).Contents (Elt F) → (⟨S32, .f32⟩ : BufTy).Contents (Elt F)),
    unary main_arg2 main_v2 (broadcastInDim S32 ![] bcast_S_S32 : (⟨S_, .f32⟩ : BufTy).Contents (Elt F) → (⟨S32, .f32⟩ : BufTy).Contents (Elt F)),
    binary main_v1 main_v2 main_v3 (Host.divf : (⟨S32, .f32⟩ : BufTy).Contents (Elt F) → (⟨S32, .f32⟩ : BufTy).Contents (Elt F) → (⟨S32, .f32⟩ : BufTy).Contents (Elt F)),
    nullary main_cst_2 (constant S_ .f32 0x45800000#32),
    unary main_cst_2 main_v4 (broadcastInDim S32 ![] bcast_S_S32 : (⟨S_, .f32⟩ : BufTy).Contents (Elt F) → (⟨S32, .f32⟩ : BufTy).Contents (Elt F)),
    binary main_v3 main_v4 main_v5 (subf : (⟨S32, .f32⟩ : BufTy).Contents (Elt F) → (⟨S32, .f32⟩ : BufTy).Contents (Elt F) → (⟨S32, .f32⟩ : BufTy).Contents (Elt F)),
    unary main_v5 main_v6 (Host.absf : (⟨S32, .f32⟩ : BufTy).Contents (Elt F) → (⟨S32, .f32⟩ : BufTy).Contents (Elt F)),
    nullary main_cst_3 (constant S_ .f32 0x00000000#32),
    binary main_v6 main_cst_3 main_v7 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)) ]

/-- The x coordinates %8, %9 and the clamp bounds. -/
abbrev opsB : List (HloOp τ sig (Elt F)) :=
  [ unary main_arg1 main_v8 ((extractStridedSlice S32x4096x1 ![0, 0, 0] · slices_S32x4096x2_S32x4096x1_0_0_0) : (⟨S32x4096x2, .i32⟩ : BufTy).Contents (Elt F) → (⟨S32x4096x1, .i32⟩ : BufTy).Contents (Elt F)),
    reshape main_v8 main_v9 rfl shapeCasts_S32x4096x1_S32x4096,
    nullary main_c_4 (constantI S_ 32 0#32),
    nullary main_c_5 (constantI S_ 32 511#32) ]

/-- The clamp of the x coordinates into [0, 511], operation by operation: %10. -/
abbrev opsC0 : List (HloOp τ sig (Elt F)) :=
  [ unary main_c_4 main_call0_v0 (id : (⟨S_, .i32⟩ : BufTy).Contents (Elt F) → (⟨S_, .i32⟩ : BufTy).Contents (Elt F)),
    unary main_call0_v0 main_call0_v1 (broadcastInDim S32x4096 ![] bcast_S_S32x4096 : (⟨S_, .i32⟩ : BufTy).Contents (Elt F) → (⟨S32x4096, .i32⟩ : BufTy).Contents (Elt F)),
    binary main_call0_v1 main_v9 main_call0_v2 (maxsi : (⟨S32x4096, .i32⟩ : BufTy).Contents (Elt F) → (⟨S32x4096, .i32⟩ : BufTy).Contents (Elt F) → (⟨S32x4096, .i32⟩ : BufTy).Contents (Elt F)),
    unary main_c_5 main_call0_v3 (id : (⟨S_, .i32⟩ : BufTy).Contents (Elt F) → (⟨S_, .i32⟩ : BufTy).Contents (Elt F)),
    unary main_call0_v3 main_call0_v4 (broadcastInDim S32x4096 ![] bcast_S_S32x4096 : (⟨S_, .i32⟩ : BufTy).Contents (Elt F) → (⟨S32x4096, .i32⟩ : BufTy).Contents (Elt F)),
    binary main_call0_v4 main_call0_v2 main_v10 (minsi : (⟨S32x4096, .i32⟩ : BufTy).Contents (Elt F) → (⟨S32x4096, .i32⟩ : BufTy).Contents (Elt F) → (⟨S32x4096, .i32⟩ : BufTy).Contents (Elt F)) ]

/-- The y coordinates %11, %12 and the clamp bounds. -/
abbrev opsD : List (HloOp τ sig (Elt F)) :=
  [ unary main_arg1 main_v11 ((extractStridedSlice S32x4096x1 ![0, 0, 1] · slices_S32x4096x2_S32x4096x1_0_0_1) : (⟨S32x4096x2, .i32⟩ : BufTy).Contents (Elt F) → (⟨S32x4096x1, .i32⟩ : BufTy).Contents (Elt F)),
    reshape main_v11 main_v12 rfl shapeCasts_S32x4096x1_S32x4096,
    nullary main_c_6 (constantI S_ 32 0#32),
    nullary main_c_7 (constantI S_ 32 511#32) ]

/-- The clamp of the y coordinates: %13. -/
abbrev opsC1 : List (HloOp τ sig (Elt F)) :=
  [ unary main_c_6 main_call1_v0 (id : (⟨S_, .i32⟩ : BufTy).Contents (Elt F) → (⟨S_, .i32⟩ : BufTy).Contents (Elt F)),
    unary main_call1_v0 main_call1_v1 (broadcastInDim S32x4096 ![] bcast_S_S32x4096 : (⟨S_, .i32⟩ : BufTy).Contents (Elt F) → (⟨S32x4096, .i32⟩ : BufTy).Contents (Elt F)),
    binary main_call1_v1 main_v12 main_call1_v2 (maxsi : (⟨S32x4096, .i32⟩ : BufTy).Contents (Elt F) → (⟨S32x4096, .i32⟩ : BufTy).Contents (Elt F) → (⟨S32x4096, .i32⟩ : BufTy).Contents (Elt F)),
    unary main_c_7 main_call1_v3 (id : (⟨S_, .i32⟩ : BufTy).Contents (Elt F) → (⟨S_, .i32⟩ : BufTy).Contents (Elt F)),
    unary main_call1_v3 main_call1_v4 (broadcastInDim S32x4096 ![] bcast_S_S32x4096 : (⟨S_, .i32⟩ : BufTy).Contents (Elt F) → (⟨S32x4096, .i32⟩ : BufTy).Contents (Elt F)),
    binary main_call1_v4 main_call1_v2 main_v13 (minsi : (⟨S32x4096, .i32⟩ : BufTy).Contents (Elt F) → (⟨S32x4096, .i32⟩ : BufTy).Contents (Elt F) → (⟨S32x4096, .i32⟩ : BufTy).Contents (Elt F)) ]

/-- The nine neighbours' rows %18 and columns %23. -/
abbrev opsE : List (HloOp τ sig (Elt F)) :=
  [ unary main_v13 main_v14 (broadcastInDim S32x4096x1 ![0, 1] bcast_S32x4096_S32x4096x1_0_1 : (⟨S32x4096, .i32⟩ : BufTy).Contents (Elt F) → (⟨S32x4096x1, .i32⟩ : BufTy).Contents (Elt F)),
    unary main_c main_v15 (broadcastInDim S1x1x9 ![2] bcast_S9_S1x1x9_2 : (⟨S9, .i32⟩ : BufTy).Contents (Elt F) → (⟨S1x1x9, .i32⟩ : BufTy).Contents (Elt F)),
    unary main_v14 main_v16 (broadcastInDim S32x4096x9 ![0, 1, 2] bcast_S32x4096x1_S32x4096x9_0_1_2 : (⟨S32x4096x1, .i32⟩ : BufTy).Contents (Elt F) → (⟨S32x4096x9, .i32⟩ : BufTy).Contents (Elt F)),
    unary main_v15 main_v17 (broadcastInDim S32x4096x9 ![0, 1, 2] bcast_S1x1x9_S32x4096x9_0_1_2 : (⟨S1x1x9, .i32⟩ : BufTy).Contents (Elt F) → (⟨S32x4096x9, .i32⟩ : BufTy).Contents (Elt F)),
    binary main_v16 main_v17 main_v18 (addi : (⟨S32x4096x9, .i32⟩ : BufTy).Contents (Elt F) → (⟨S32x4096x9, .i32⟩ : BufTy).Contents (Elt F) → (⟨S32x4096x9, .i32⟩ : BufTy).Contents (Elt F)),
    unary main_v10 main_v19 (broadcastInDim S32x4096x1 ![0, 1] bcast_S32x4096_S32x4096x1_0_1 : (⟨S32x4096, .i32⟩ : BufTy).Contents (Elt F) → (⟨S32x4096x1, .i32⟩ : BufTy).Contents (Elt F)),
    unary main_c_0 main_v20 (broadcastInDim S1x1x9 ![2] bcast_S9_S1x1x9_2 : (⟨S9, .i32⟩ : BufTy).Contents (Elt F) → (⟨S1x1x9, .i32⟩ : BufTy).Contents (Elt F)),
    unary main_v19 main_v21 (broadcastInDim S32x4096x9 ![0, 1, 2] bcast_S32x4096x1_S32x4096x9_0_1_2 : (⟨S32x4096x1, .i32⟩ : BufTy).Contents (Elt F) → (⟨S32x4096x9, .i32⟩ : BufTy).Contents (Elt F)),
    unary main_v20 main_v22 (broadcastInDim S32x4096x9 ![0, 1, 2] bcast_S1x1x9_S32x4096x9_0_1_2 : (⟨S1x1x9, .i32⟩ : BufTy).Contents (Elt F) → (⟨S32x4096x9, .i32⟩ : BufTy).Contents (Elt F)),
    binary main_v21 main_v22 main_v23 (addi : (⟨S32x4096x9, .i32⟩ : BufTy).Contents (Elt F) → (⟨S32x4096x9, .i32⟩ : BufTy).Contents (Elt F) → (⟨S32x4096x9, .i32⟩ : BufTy).Contents (Elt F)) ]

/-- The mask of the neighbours inside the grid %24 … %34, and the clamp bounds of the rows. -/
abbrev opsF : List (HloOp τ sig (Elt F)) :=
  [ nullary main_c_8 (constantI S_ 32 0#32),
    unary main_c_8 main_v24 (broadcastInDim S32x4096x9 ![] bcast_S_S32x4096x9 : (⟨S_, .i32⟩ : BufTy).Contents (Elt F) → (⟨S32x4096x9, .i32⟩ : BufTy).Contents (Elt F)),
    binary main_v18 main_v24 main_v25 (cmpi .sge : (⟨S32x4096x9, .i32⟩ : BufTy).Contents (Elt F) → (⟨S32x4096x9, .i32⟩ : BufTy).Contents (Elt F) → (⟨S32x4096x9, .i1⟩ : BufTy).Contents (Elt F)),
    nullary main_c_9 (constantI S_ 32 512#32),
    unary main_c_9 main_v26 (broadcastInDim S32x4096x9 ![] bcast_S_S32x4096x9 : (⟨S_, .i32⟩ : BufTy).Contents (Elt F) → (⟨S32x4096x9, .i32⟩ : BufTy).Contents (Elt F)),
    binary main_v18 main_v26 main_v27 (cmpi .slt : (⟨S32x4096x9, .i32⟩ : BufTy).Contents (Elt F) → (⟨S32x4096x9, .i32⟩ : BufTy).Contents (Elt F) → (⟨S32x4096x9, .i1⟩ : BufTy).Contents (Elt F)),
    binary main_v25 main_v27 main_v28 (andi : (⟨S32x4096x9, .i1⟩ : BufTy).Contents (Elt F) → (⟨S32x4096x9, .i1⟩ : BufTy).Contents (Elt F) → (⟨S32x4096x9, .i1⟩ : BufTy).Contents (Elt F)),
    nullary main_c_10 (constantI S_ 32 0#32),
    unary main_c_10 main_v29 (broadcastInDim S32x4096x9 ![] bcast_S_S32x4096x9 : (⟨S_, .i32⟩ : BufTy).Contents (Elt F) → (⟨S32x4096x9, .i32⟩ : BufTy).Contents (Elt F)),
    binary main_v23 main_v29 main_v30 (cmpi .sge : (⟨S32x4096x9, .i32⟩ : BufTy).Contents (Elt F) → (⟨S32x4096x9, .i32⟩ : BufTy).Contents (Elt F) → (⟨S32x4096x9, .i1⟩ : BufTy).Contents (Elt F)),
    binary main_v28 main_v30 main_v31 (andi : (⟨S32x4096x9, .i1⟩ : BufTy).Contents (Elt F) → (⟨S32x4096x9, .i1⟩ : BufTy).Contents (Elt F) → (⟨S32x4096x9, .i1⟩ : BufTy).Contents (Elt F)),
    nullary main_c_11 (constantI S_ 32 512#32),
    unary main_c_11 main_v32 (broadcastInDim S32x4096x9 ![] bcast_S_S32x4096x9 : (⟨S_, .i32⟩ : BufTy).Contents (Elt F) → (⟨S32x4096x9, .i32⟩ : BufTy).Contents (Elt F)),
    binary main_v23 main_v32 main_v33 (cmpi .slt : (⟨S32x4096x9, .i32⟩ : BufTy).Contents (Elt F) → (⟨S32x4096x9, .i32⟩ : BufTy).Contents (Elt F) → (⟨S32x4096x9, .i1⟩ : BufTy).Contents (Elt F)),
    binary main_v31 main_v33 main_v34 (andi : (⟨S32x4096x9, .i1⟩ : BufTy).Contents (Elt F) → (⟨S32x4096x9, .i1⟩ : BufTy).Contents (Elt F) → (⟨S32x4096x9, .i1⟩ : BufTy).Contents (Elt F)),
    nullary main_c_12 (constantI S_ 32 0#32),
    nullary main_c_13 (constantI S_ 32 511#32) ]

/-- The clamp of the neighbours' rows: %35. -/
abbrev opsC2 : List (HloOp τ sig (Elt F)) :=
  [ unary main_c_12 main_call2_v0 (id : (⟨S_, .i32⟩ : BufTy).Contents (Elt F) → (⟨S_, .i32⟩ : BufTy).Contents (Elt F)),
    unary main_call2_v0 main_call2_v1 (broadcastInDim S32x4096x9 ![] bcast_S_S32x4096x9 : (⟨S_, .i32⟩ : BufTy).Contents (Elt F) → (⟨S32x4096x9, .i32⟩ : BufTy).Contents (Elt F)),
    binary main_call2_v1 main_v18 main_call2_v2 (maxsi : (⟨S32x4096x9, .i32⟩ : BufTy).Contents (Elt F) → (⟨S32x4096x9, .i32⟩ : BufTy).Contents (Elt F) → (⟨S32x4096x9, .i32⟩ : BufTy).Contents (Elt F)),
    unary main_c_13 main_call2_v3 (id : (⟨S_, .i32⟩ : BufTy).Contents (Elt F) → (⟨S_, .i32⟩ : BufTy).Contents (Elt F)),
    unary main_call2_v3 main_call2_v4 (broadcastInDim S32x4096x9 ![] bcast_S_S32x4096x9 : (⟨S_, .i32⟩ : BufTy).Contents (Elt F) → (⟨S32x4096x9, .i32⟩ : BufTy).Contents (Elt F)),
    binary main_call2_v4 main_call2_v2 main_v35 (minsi : (⟨S32x4096x9, .i32⟩ : BufTy).Contents (Elt F) → (⟨S32x4096x9, .i32⟩ : BufTy).Contents (Elt F) → (⟨S32x4096x9, .i32⟩ : BufTy).Contents (Elt F)) ]

/-- The rows times 512, %37, and the clamp bounds of the columns. -/
abbrev opsG : List (HloOp τ sig (Elt F)) :=
  [ nullary main_c_14 (constantI S_ 32 512#32),
    unary main_c_14 main_v36 (broadcastInDim S32x4096x9 ![] bcast_S_S32x4096x9 : (⟨S_, .i32⟩ : BufTy).Contents (Elt F) → (⟨S32x4096x9, .i32⟩ : BufTy).Contents (Elt F)),
    binary main_v35 main_v36 main_v37 (muli : (⟨S32x4096x9, .i32⟩ : BufTy).Contents (Elt F) → (⟨S32x4096x9, .i32⟩ : BufTy).Contents (Elt F) → (⟨S32x4096x9, .i32⟩ : BufTy).Contents (Elt F)),
    nullary main_c_15 (constantI S_ 32 0#32),
    nullary main_c_16 (constantI S_ 32 511#32) ]

/-- The clamp of the neighbours' columns: %38. -/
abbrev opsC3 : List (HloOp τ sig (Elt F)) :=
  [ unary main_c_15 main_call3_v0 (id : (⟨S_, .i32⟩ : BufTy).Contents (Elt F) → (⟨S_, .i32⟩ : BufTy).Contents (Elt F)),
    unary main_call3_v0 main_call3_v1 (broadcastInDim S32x4096x9 ![] bcast_S_S32x4096x9 : (⟨S_, .i32⟩ : BufTy).Contents (Elt F) → (⟨S32x4096x9, .i32⟩ : BufTy).Contents (Elt F)),
    binary main_call3_v1 main_v23 main_call3_v2 (maxsi : (⟨S32x4096x9, .i32⟩ : BufTy).Contents (Elt F) → (⟨S32x4096x9, .i32⟩ : BufTy).Contents (Elt F) → (⟨S32x4096x9, .i32⟩ : BufTy).Contents (Elt F)),
    unary main_c_16 main_call3_v3 (id : (⟨S_, .i32⟩ : BufTy).Contents (Elt F) → (⟨S_, .i32⟩ : BufTy).Contents (Elt F)),
    unary main_call3_v3 main_call3_v4 (broadcastInDim S32x4096x9 ![] bcast_S_S32x4096x9 : (⟨S_, .i32⟩ : BufTy).Contents (Elt F) → (⟨S32x4096x9, .i32⟩ : BufTy).Contents (Elt F)),
    binary main_call3_v4 main_call3_v2 main_v38 (minsi : (⟨S32x4096x9, .i32⟩ : BufTy).Contents (Elt F) → (⟨S32x4096x9, .i32⟩ : BufTy).Contents (Elt F) → (⟨S32x4096x9, .i32⟩ : BufTy).Contents (Elt F)) ]

/-- The flat cell index %39 and the zero weight. -/
abbrev opsH : List (HloOp τ sig (Elt F)) :=
  [ binary main_v37 main_v38 main_v39 (addi : (⟨S32x4096x9, .i32⟩ : BufTy).Contents (Elt F) → (⟨S32x4096x9, .i32⟩ : BufTy).Contents (Elt F) → (⟨S32x4096x9, .i32⟩ : BufTy).Contents (Elt F)),
    nullary main_cst_17 (constant S_ .f32 0x00000000#32) ]

/-- The weights: the stencil's where the mask holds, zero elsewhere: %40. -/
abbrev opsC4 : List (HloOp τ sig (Elt F)) :=
  [ unary main_cst main_call4_v0 (broadcastInDim S32x4096x9 ![2] bcast_S9_S32x4096x9_2 : (⟨S9, .f32⟩ : BufTy).Contents (Elt F) → (⟨S32x4096x9, .f32⟩ : BufTy).Contents (Elt F)),
    unary main_cst_17 main_call4_v1 (broadcastInDim S32x4096x9 ![] bcast_S_S32x4096x9 : (⟨S_, .f32⟩ : BufTy).Contents (Elt F) → (⟨S32x4096x9, .f32⟩ : BufTy).Contents (Elt F)),
    ternary main_v34 main_call4_v0 main_call4_v1 main_v40 (select : (⟨S32x4096x9, .i1⟩ : BufTy).Contents (Elt F) → (⟨S32x4096x9, .f32⟩ : BufTy).Contents (Elt F) → (⟨S32x4096x9, .f32⟩ : BufTy).Contents (Elt F) → (⟨S32x4096x9, .f32⟩ : BufTy).Contents (Elt F)) ]

/-- The image number of each update, the zero image, and both scatter coordinates brought into range: %41 … %54. -/
abbrev opsI : List (HloOp τ sig (Elt F)) :=
  [ nullary main_v41 (iotaInDim S32 32 0),
    unary main_v41 main_v42 (broadcastInDim S32x1x1 ![0] bcast_S32_S32x1x1_0 : (⟨S32, .i32⟩ : BufTy).Contents (Elt F) → (⟨S32x1x1, .i32⟩ : BufTy).Contents (Elt F)),
    unary main_v42 main_v43 (broadcastInDim S32x4096x9 ![0, 1, 2] bcast_S32x1x1_S32x4096x9_0_1_2 : (⟨S32x1x1, .i32⟩ : BufTy).Contents (Elt F) → (⟨S32x4096x9, .i32⟩ : BufTy).Contents (Elt F)),
    nullary main_cst_18 (constant S_ .f32 0x00000000#32),
    unary main_cst_18 main_v44 (broadcastInDim S32x262144 ![] bcast_S_S32x262144 : (⟨S_, .f32⟩ : BufTy).Contents (Elt F) → (⟨S32x262144, .f32⟩ : BufTy).Contents (Elt F)),
    nullary main_c_19 (constantI S_ 32 0#32),
    unary main_c_19 main_v45 (broadcastInDim S32x4096x9 ![] bcast_S_S32x4096x9 : (⟨S_, .i32⟩ : BufTy).Contents (Elt F) → (⟨S32x4096x9, .i32⟩ : BufTy).Contents (Elt F)),
    binary main_v43 main_v45 main_v46 (cmpi .slt : (⟨S32x4096x9, .i32⟩ : BufTy).Contents (Elt F) → (⟨S32x4096x9, .i32⟩ : BufTy).Contents (Elt F) → (⟨S32x4096x9, .i1⟩ : BufTy).Contents (Elt F)),
    nullary main_c_20 (constantI S_ 32 32#32),
    unary main_c_20 main_v47 (broadcastInDim S32x4096x9 ![] bcast_S_S32x4096x9 : (⟨S_, .i32⟩ : BufTy).Contents (Elt F) → (⟨S32x4096x9, .i32⟩ : BufTy).Contents (Elt F)),
    binary main_v43 main_v47 main_v48 (addi : (⟨S32x4096x9, .i32⟩ : BufTy).Contents (Elt F) → (⟨S32x4096x9, .i32⟩ : BufTy).Contents (Elt F) → (⟨S32x4096x9, .i32⟩ : BufTy).Contents (Elt F)),
    ternary main_v46 main_v48 main_v43 main_v49 (select : (⟨S32x4096x9, .i1⟩ : BufTy).Contents (Elt F) → (⟨S32x4096x9, .i32⟩ : BufTy).Contents (Elt F) → (⟨S32x4096x9, .i32⟩ : BufTy).Contents (Elt F) → (⟨S32x4096x9, .i32⟩ : BufTy).Contents (Elt F)),
    nullary main_c_21 (constantI S_ 32 0#32),
    unary main_c_21 main_v50 (broadcastInDim S32x4096x9 ![] bcast_S_S32x4096x9 : (⟨S_, .i32⟩ : BufTy).Contents (Elt F) → (⟨S32x4096x9, .i32⟩ : BufTy).Contents (Elt F)),
    binary main_v39 main_v50 main_v51 (cmpi .slt : (⟨S32x4096x9, .i32⟩ : BufTy).Contents (Elt F) → (⟨S32x4096x9, .i32⟩ : BufTy).Contents (Elt F) → (⟨S32x4096x9, .i1⟩ : BufTy).Contents (Elt F)),
    nullary main_c_22 (constantI S_ 32 262144#32),
    unary main_c_22 main_v52 (broadcastInDim S32x4096x9 ![] bcast_S_S32x4096x9 : (⟨S_, .i32⟩ : BufTy).Contents (Elt F) → (⟨S32x4096x9, .i32⟩ : BufTy).Contents (Elt F)),
    binary main_v39 main_v52 main_v53 (addi : (⟨S32x4096x9, .i32⟩ : BufTy).Contents (Elt F) → (⟨S32x4096x9, .i32⟩ : BufTy).Contents (Elt F) → (⟨S32x4096x9, .i32⟩ : BufTy).Contents (Elt F)),
    ternary main_v51 main_v53 main_v39 main_v54 (select : (⟨S32x4096x9, .i1⟩ : BufTy).Contents (Elt F) → (⟨S32x4096x9, .i32⟩ : BufTy).Contents (Elt F) → (⟨S32x4096x9, .i32⟩ : BufTy).Contents (Elt F) → (⟨S32x4096x9, .i32⟩ : BufTy).Contents (Elt F)) ]

/-- The scatter coordinates %55 … %57, the scatter-add %58 and the target %59. -/
abbrev opsJ : List (HloOp τ sig (Elt F)) :=
  [ unary main_v49 main_v55 (broadcastInDim S32x4096x9x1 ![0, 1, 2] bcast_S32x4096x9_S32x4096x9x1_0_1_2 : (⟨S32x4096x9, .i32⟩ : BufTy).Contents (Elt F) → (⟨S32x4096x9x1, .i32⟩ : BufTy).Contents (Elt F)),
    unary main_v54 main_v56 (broadcastInDim S32x4096x9x1 ![0, 1, 2] bcast_S32x4096x9_S32x4096x9x1_0_1_2 : (⟨S32x4096x9, .i32⟩ : BufTy).Contents (Elt F) → (⟨S32x4096x9x1, .i32⟩ : BufTy).Contents (Elt F)),
    binary main_v55 main_v56 main_v57 ((fun a b => concatenate S32x4096x9x2 3 [⟨S32x4096x9x1, a⟩, ⟨S32x4096x9x1, b⟩] concatenates_S32x4096x9x1_S32x4096x9x1_S32x4096x9x2_d3) : (⟨S32x4096x9x1, .i32⟩ : BufTy).Contents (Elt F) → (⟨S32x4096x9x1, .i32⟩ : BufTy).Contents (Elt F) → (⟨S32x4096x9x2, .i32⟩ : BufTy).Contents (Elt F)),
    ternary main_v44 main_v57 main_v40 main_v58 ((fun x i u => Host.scatterAdd scatter_S32x262144_S32x4096x9x2_S32x4096x9_n_01_01_3 x i u) : (⟨S32x262144, .f32⟩ : BufTy).Contents (Elt F) → (⟨S32x4096x9x2, .i32⟩ : BufTy).Contents (Elt F) → (⟨S32x4096x9, .f32⟩ : BufTy).Contents (Elt F) → (⟨S32x262144, .f32⟩ : BufTy).Contents (Elt F)),
    reshape main_v58 main_v59 rfl shapeCasts_S32x262144_S32x512x512 ]

/-- The spatial error %60 … %75 and the final combination %76 … %80. -/
abbrev opsK : List (HloOp τ sig (Elt F)) :=
  [ nullary main_cst_23 (constant S_ .f32 0x00000000#32),
    binary main_v59 main_cst_23 main_v60 ((fun x v => Host.reduceAdd x v reducesTo_S32x512x512_S32_d1_2 h_S_) : (⟨S32x512x512, .f32⟩ : BufTy).Contents (Elt F) → (⟨S_, .f32⟩ : BufTy).Contents (Elt F) → (⟨S32, .f32⟩ : BufTy).Contents (Elt F)),
    unary main_v60 main_v61 (broadcastInDim S32x1x1 ![0] bcast_S32_S32x1x1_0 : (⟨S32, .f32⟩ : BufTy).Contents (Elt F) → (⟨S32x1x1, .f32⟩ : BufTy).Contents (Elt F)),
    unary main_v61 main_v62 (broadcastInDim S32x512x512 ![0, 1, 2] bcast_S32x1x1_S32x512x512_0_1_2 : (⟨S32x1x1, .f32⟩ : BufTy).Contents (Elt F) → (⟨S32x512x512, .f32⟩ : BufTy).Contents (Elt F)),
    binary main_v59 main_v62 main_v63 (Host.divf : (⟨S32x512x512, .f32⟩ : BufTy).Contents (Elt F) → (⟨S32x512x512, .f32⟩ : BufTy).Contents (Elt F) → (⟨S32x512x512, .f32⟩ : BufTy).Contents (Elt F)),
    nullary main_cst_24 (constant S_ .f32 0x00000000#32),
    binary main_v0 main_cst_24 main_v64 ((fun x v => Host.reduceAdd x v reducesTo_S32x512x512_S32_d1_2 h_S_) : (⟨S32x512x512, .f32⟩ : BufTy).Contents (Elt F) → (⟨S_, .f32⟩ : BufTy).Contents (Elt F) → (⟨S32, .f32⟩ : BufTy).Contents (Elt F)),
    unary main_v64 main_v65 (broadcastInDim S32x1x1 ![0] bcast_S32_S32x1x1_0 : (⟨S32, .f32⟩ : BufTy).Contents (Elt F) → (⟨S32x1x1, .f32⟩ : BufTy).Contents (Elt F)),
    nullary main_cst_25 (constant S_ .f32 0x322BCC77#32),
    unary main_cst_25 main_v66 (broadcastInDim S32x1x1 ![] bcast_S_S32x1x1 : (⟨S_, .f32⟩ : BufTy).Contents (Elt F) → (⟨S32x1x1, .f32⟩ : BufTy).Contents (Elt F)),
    binary main_v65 main_v66 main_v67 (addf : (⟨S32x1x1, .f32⟩ : BufTy).Contents (Elt F) → (⟨S32x1x1, .f32⟩ : BufTy).Contents (Elt F) → (⟨S32x1x1, .f32⟩ : BufTy).Contents (Elt F)),
    unary main_v67 main_v68 (broadcastInDim S32x512x512 ![0, 1, 2] bcast_S32x1x1_S32x512x512_0_1_2 : (⟨S32x1x1, .f32⟩ : BufTy).Contents (Elt F) → (⟨S32x512x512, .f32⟩ : BufTy).Contents (Elt F)),
    binary main_v0 main_v68 main_v69 (Host.divf : (⟨S32x512x512, .f32⟩ : BufTy).Contents (Elt F) → (⟨S32x512x512, .f32⟩ : BufTy).Contents (Elt F) → (⟨S32x512x512, .f32⟩ : BufTy).Contents (Elt F)),
    binary main_v69 main_v63 main_v70 (subf : (⟨S32x512x512, .f32⟩ : BufTy).Contents (Elt F) → (⟨S32x512x512, .f32⟩ : BufTy).Contents (Elt F) → (⟨S32x512x512, .f32⟩ : BufTy).Contents (Elt F)),
    binary main_v70 main_v70 main_v71 (mulf : (⟨S32x512x512, .f32⟩ : BufTy).Contents (Elt F) → (⟨S32x512x512, .f32⟩ : BufTy).Contents (Elt F) → (⟨S32x512x512, .f32⟩ : BufTy).Contents (Elt F)),
    nullary main_cst_26 (constant S_ .f32 0x00000000#32),
    binary main_v71 main_cst_26 main_v72 ((fun x v => Host.reduceAdd x v reducesTo_S32x512x512_S32_d1_2 h_S_) : (⟨S32x512x512, .f32⟩ : BufTy).Contents (Elt F) → (⟨S_, .f32⟩ : BufTy).Contents (Elt F) → (⟨S32, .f32⟩ : BufTy).Contents (Elt F)),
    nullary main_cst_27 (constant S_ .f32 0x48800000#32),
    unary main_cst_27 main_v73 (broadcastInDim S32 ![] bcast_S_S32 : (⟨S_, .f32⟩ : BufTy).Contents (Elt F) → (⟨S32, .f32⟩ : BufTy).Contents (Elt F)),
    binary main_v72 main_v73 main_v74 (Host.divf : (⟨S32, .f32⟩ : BufTy).Contents (Elt F) → (⟨S32, .f32⟩ : BufTy).Contents (Elt F) → (⟨S32, .f32⟩ : BufTy).Contents (Elt F)),
    nullary main_cst_28 (constant S_ .f32 0x00000000#32),
    binary main_v74 main_cst_28 main_v75 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    nullary main_cst_29 (constant S_ .f32 0x42000000#32),
    binary main_v7 main_cst_29 main_v76 (Host.divf : (⟨S_, .f32⟩ : BufTy).Contents (Elt F) → (⟨S_, .f32⟩ : BufTy).Contents (Elt F) → (⟨S_, .f32⟩ : BufTy).Contents (Elt F)),
    nullary main_cst_30 (constant S_ .f32 0x40000000#32),
    binary main_cst_30 main_v76 main_v77 (mulf : (⟨S_, .f32⟩ : BufTy).Contents (Elt F) → (⟨S_, .f32⟩ : BufTy).Contents (Elt F) → (⟨S_, .f32⟩ : BufTy).Contents (Elt F)),
    nullary main_cst_31 (constant S_ .f32 0x42000000#32),
    binary main_v75 main_cst_31 main_v78 (Host.divf : (⟨S_, .f32⟩ : BufTy).Contents (Elt F) → (⟨S_, .f32⟩ : BufTy).Contents (Elt F) → (⟨S_, .f32⟩ : BufTy).Contents (Elt F)),
    nullary main_cst_32 (constant S_ .f32 0x3E19999A#32),
    binary main_cst_32 main_v78 main_v79 (mulf : (⟨S_, .f32⟩ : BufTy).Contents (Elt F) → (⟨S_, .f32⟩ : BufTy).Contents (Elt F) → (⟨S_, .f32⟩ : BufTy).Contents (Elt F)),
    binary main_v77 main_v79 main_v80 (addf : (⟨S_, .f32⟩ : BufTy).Contents (Elt F) → (⟨S_, .f32⟩ : BufTy).Contents (Elt F) → (⟨S_, .f32⟩ : BufTy).Contents (Elt F)) ]

/-- Every operation of the program, in order. -/
abbrev ops : List (HloOp τ sig (Elt F)) :=
  opsA ++ (opsB ++ (opsC0 ++ (opsD ++ (opsC1 ++ (opsE ++ (opsF ++ (opsC2 ++ (opsG ++ (opsC3 ++ (opsH ++ (opsC4 ++ (opsI ++ (opsJ ++ (opsK))))))))))))))

/-! ## The program is the sequence of the pieces -/

theorem call0_eq : fn_clip.body (F := F) (.of main_v9) (.of main_c_4) (.of main_c_5) main_call0 = seq opsC0 := rfl
theorem call1_eq : fn_clip.body (F := F) (.of main_v12) (.of main_c_6) (.of main_c_7) main_call1 = seq opsC1 := rfl
theorem call2_eq : fn_clip_0.body (F := F) (.of main_v18) (.of main_c_12) (.of main_c_13) main_call2 = seq opsC2 := rfl
theorem call3_eq : fn_clip_0.body (F := F) (.of main_v23) (.of main_c_15) (.of main_c_16) main_call3 = seq opsC3 := rfl
theorem call4_eq : fn_where.body (F := F) (.of main_v34) (.of main_cst) (.of main_cst_17) main_call4 = seq opsC4 := rfl

/-- The first window: stretches of operations between the four calls it makes. -/
theorem main_part0_chain (c : Dev nD) : main_part0 (F := F) c =
    (seq (opsA ++ opsB) >>= fun _ => fn_clip.body (F := F) (.of main_v9) (.of main_c_4) (.of main_c_5) main_call0 >>= fun _ =>
     seq opsD >>= fun _ => fn_clip.body (F := F) (.of main_v12) (.of main_c_6) (.of main_c_7) main_call1 >>= fun _ =>
     seq (opsE ++ opsF) >>= fun _ => fn_clip_0.body (F := F) (.of main_v18) (.of main_c_12) (.of main_c_13) main_call2 >>= fun _ =>
     seq opsG >>= fun _ => fn_clip_0.body (F := F) (.of main_v23) (.of main_c_15) (.of main_c_16) main_call3 >>= fun _ =>
     seq opsH) := by
  chain_rfl

/-- The second window: the call it opens with, then one stretch of operations. -/
theorem main_part1_chain (c : Dev nD) : main_part1 (F := F) c =
    (fn_where.body (F := F) (.of main_v34) (.of main_cst) (.of main_cst_17) main_call4 >>= fun _ =>
     seq (opsI ++ (opsJ ++ opsK))) := by
  chain_rfl

theorem main_eq (c : Dev nD) : main (F := F) c = seq ops := by
  show (main_part0 (F := F) c >>= fun _ => main_part1 (F := F) c) = _
  rw [main_part0_chain, main_part1_chain, call0_eq, call1_eq, call2_eq, call3_eq, call4_eq]
  simp only [ops, seq_append, bind_assoc]

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., nullary_bufs_sub .., nullary_bufs_sub .., reshape_bufs_sub .., nullary_bufs_sub .., binary_bufs_sub .., unary_bufs_sub .., binary_bufs_sub .., nullary_bufs_sub .., unary_bufs_sub .., binary_bufs_sub .., unary_bufs_sub .., nullary_bufs_sub .., binary_bufs_sub ..⟩
theorem opsB_sub : (opsB : List (HloOp τ sig (Elt F))).Forall fun op => op.bufs ⊆ tcRefs τ sig :=
  ⟨unary_bufs_sub .., reshape_bufs_sub .., nullary_bufs_sub .., nullary_bufs_sub ..⟩
theorem opsC0_sub : (opsC0 : List (HloOp τ sig (Elt F))).Forall fun op => op.bufs ⊆ tcRefs τ sig :=
  ⟨unary_bufs_sub .., unary_bufs_sub .., binary_bufs_sub .., unary_bufs_sub .., unary_bufs_sub .., binary_bufs_sub ..⟩
theorem opsD_sub : (opsD : List (HloOp τ sig (Elt F))).Forall fun op => op.bufs ⊆ tcRefs τ sig :=
  ⟨unary_bufs_sub .., reshape_bufs_sub .., nullary_bufs_sub .., nullary_bufs_sub ..⟩
theorem opsC1_sub : (opsC1 : List (HloOp τ sig (Elt F))).Forall fun op => op.bufs ⊆ tcRefs τ sig :=
  ⟨unary_bufs_sub .., unary_bufs_sub .., binary_bufs_sub .., unary_bufs_sub .., unary_bufs_sub .., binary_bufs_sub ..⟩
theorem opsE_sub : (opsE : List (HloOp τ sig (Elt F))).Forall fun op => op.bufs ⊆ tcRefs τ sig :=
  ⟨unary_bufs_sub .., unary_bufs_sub .., unary_bufs_sub .., unary_bufs_sub .., binary_bufs_sub .., unary_bufs_sub .., unary_bufs_sub .., unary_bufs_sub .., unary_bufs_sub .., binary_bufs_sub ..⟩
theorem opsF_sub : (opsF : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub ..⟩
theorem opsC2_sub : (opsC2 : List (HloOp τ sig (Elt F))).Forall fun op => op.bufs ⊆ tcRefs τ sig :=
  ⟨unary_bufs_sub .., unary_bufs_sub .., binary_bufs_sub .., unary_bufs_sub .., unary_bufs_sub .., binary_bufs_sub ..⟩
theorem opsG_sub : (opsG : List (HloOp τ sig (Elt F))).Forall fun op => op.bufs ⊆ tcRefs τ sig :=
  ⟨nullary_bufs_sub .., unary_bufs_sub .., binary_bufs_sub .., nullary_bufs_sub .., nullary_bufs_sub ..⟩
theorem opsC3_sub : (opsC3 : List (HloOp τ sig (Elt F))).Forall fun op => op.bufs ⊆ tcRefs τ sig :=
  ⟨unary_bufs_sub .., unary_bufs_sub .., binary_bufs_sub .., unary_bufs_sub .., unary_bufs_sub .., binary_bufs_sub ..⟩
theorem opsH_sub : (opsH : List (HloOp τ sig (Elt F))).Forall fun op => op.bufs ⊆ tcRefs τ sig :=
  ⟨binary_bufs_sub .., nullary_bufs_sub ..⟩
theorem opsC4_sub : (opsC4 : List (HloOp τ sig (Elt F))).Forall fun op => op.bufs ⊆ tcRefs τ sig :=
  ⟨unary_bufs_sub .., unary_bufs_sub .., ternary_bufs_sub ..⟩
theorem opsI_sub : (opsI : List (HloOp τ sig (Elt F))).Forall fun op => op.bufs ⊆ tcRefs τ sig :=
  ⟨nullary_bufs_sub .., unary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub ..⟩
theorem opsJ_sub : (opsJ : List (HloOp τ sig (Elt F))).Forall fun op => op.bufs ⊆ tcRefs τ sig :=
  ⟨unary_bufs_sub .., unary_bufs_sub .., binary_bufs_sub .., ternary_bufs_sub .., reshape_bufs_sub ..⟩
theorem opsK_sub : (opsK : List (HloOp τ sig (Elt F))).Forall fun op => op.bufs ⊆ tcRefs τ sig :=
  ⟨nullary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., binary_bufs_sub .., nullary_bufs_sub .., binary_bufs_sub .., nullary_bufs_sub .., unary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., binary_bufs_sub ..⟩

theorem opsA_fresh : ∀ op ∈ (opsA : List (HloOp τ sig (Elt F))), op.fresh = ∅ := by
  intro _ h; (repeat (cases h with | head => rfl | tail _ h => ?_)); exact nomatch h
theorem opsB_fresh : ∀ op ∈ (opsB : List (HloOp τ sig (Elt F))), op.fresh = ∅ := by
  intro _ h; (repeat (cases h with | head => rfl | tail _ h => ?_)); exact nomatch h
theorem opsC0_fresh : ∀ op ∈ (opsC0 : List (HloOp τ sig (Elt F))), op.fresh = ∅ := by
  intro _ h; (repeat (cases h with | head => rfl | tail _ h => ?_)); exact nomatch h
theorem opsD_fresh : ∀ op ∈ (opsD : List (HloOp τ sig (Elt F))), op.fresh = ∅ := by
  intro _ h; (repeat (cases h with | head => rfl | tail _ h => ?_)); exact nomatch h
theorem opsC1_fresh : ∀ op ∈ (opsC1 : List (HloOp τ sig (Elt F))), op.fresh = ∅ := by
  intro _ h; (repeat (cases h with | head => rfl | tail _ h => ?_)); exact nomatch h
theorem opsE_fresh : ∀ op ∈ (opsE : List (HloOp τ sig (Elt F))), op.fresh = ∅ := by
  intro _ h; (repeat (cases h with | head => rfl | tail _ h => ?_)); exact nomatch h
theorem opsF_fresh : ∀ op ∈ (opsF : List (HloOp τ sig (Elt F))), op.fresh = ∅ := by
  intro _ h; (repeat (cases h with | head => rfl | tail _ h => ?_)); exact nomatch h
theorem opsC2_fresh : ∀ op ∈ (opsC2 : List (HloOp τ sig (Elt F))), op.fresh = ∅ := by
  intro _ h; (repeat (cases h with | head => rfl | tail _ h => ?_)); exact nomatch h
theorem opsG_fresh : ∀ op ∈ (opsG : List (HloOp τ sig (Elt F))), op.fresh = ∅ := by
  intro _ h; (repeat (cases h with | head => rfl | tail _ h => ?_)); exact nomatch h
theorem opsC3_fresh : ∀ op ∈ (opsC3 : List (HloOp τ sig (Elt F))), op.fresh = ∅ := by
  intro _ h; (repeat (cases h with | head => rfl | tail _ h => ?_)); exact nomatch h
theorem opsH_fresh : ∀ op ∈ (opsH : List (HloOp τ sig (Elt F))), op.fresh = ∅ := by
  intro _ h; (repeat (cases h with | head => rfl | tail _ h => ?_)); exact nomatch h
theorem opsC4_fresh : ∀ op ∈ (opsC4 : List (HloOp τ sig (Elt F))), op.fresh = ∅ := by
  intro _ h; (repeat (cases h with | head => rfl | tail _ h => ?_)); exact nomatch h
theorem opsI_fresh : ∀ op ∈ (opsI : List (HloOp τ sig (Elt F))), op.fresh = ∅ := by
  intro _ h; (repeat (cases h with | head => rfl | tail _ h => ?_)); exact nomatch h
theorem opsJ_fresh : ∀ op ∈ (opsJ : List (HloOp τ sig (Elt F))), op.fresh = ∅ := by
  intro _ h; (repeat (cases h with | head => rfl | tail _ h => ?_)); exact nomatch h
theorem opsK_fresh : ∀ op ∈ (opsK : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h | h | h
    exacts [List.forall_iff_forall_mem.mp opsA_sub op h, List.forall_iff_forall_mem.mp opsB_sub op h, List.forall_iff_forall_mem.mp opsC0_sub op h, List.forall_iff_forall_mem.mp opsD_sub op h, List.forall_iff_forall_mem.mp opsC1_sub op h, List.forall_iff_forall_mem.mp opsE_sub op h, List.forall_iff_forall_mem.mp opsF_sub op h, List.forall_iff_forall_mem.mp opsC2_sub op h, List.forall_iff_forall_mem.mp opsG_sub op h, List.forall_iff_forall_mem.mp opsC3_sub op h, List.forall_iff_forall_mem.mp opsH_sub op h, List.forall_iff_forall_mem.mp opsC4_sub op h, List.forall_iff_forall_mem.mp opsI_sub op h, List.forall_iff_forall_mem.mp opsJ_sub op h, List.forall_iff_forall_mem.mp opsK_sub op h]

theorem ops_fresh : ∀ op ∈ (ops : List (HloOp τ sig (Elt F))), op.fresh = ∅ := fun op h => by
  simp only [ops, List.mem_append] at h
  rcases h with h | h | h | h | h | h | h | h | h | h | h | h | h | h | h
  exacts [opsA_fresh op h, opsB_fresh op h, opsC0_fresh op h, opsD_fresh op h, opsC1_fresh op h, opsE_fresh op h, opsF_fresh op h, opsC2_fresh op h, opsG_fresh op h, opsC3_fresh op h, opsH_fresh op h, opsC4_fresh op h, opsI_fresh op h, opsJ_fresh op h, opsK_fresh op h]

/-- On every device, for any float values, from any memory with zero counters: every weakly fair execution of
    the program terminates, and every buffer ends at the fold of the operations' results over its launch
    contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Hand

end
-- ==== Proof.R.Run.lean ====
/-
  The reference program's run: every weakly fair execution terminates with the result buffer at the
  composed term of the arguments (the loss at the target of the points) and the arguments unchanged.

  The fold of the operations' results is read back piece by piece, from the last piece to the first: within a
  piece every operation's result at its own buffer is its function's value of its operands' contents, and
  at any other buffer what was there; what remains is the composed term, equal to the stated one by
  unfolding its stages.
-/
import proofs.«429451_j33646773797363_4_alg».proof.Proof.R.Term
import proofs.«429451_j33646773797363_4_alg».proof.Proof.R.Run1

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The tables, the prediction and the count error -/

/-- The prediction with its channel axis dropped. -/
theorem A_v0 (W : Valuation τ sig (Elt F)) :
    after opsA W (main_v0 : DevRef τ sig) = predArr (W (main_arg0 : DevRef τ sig)) := by
  after_results_simp
  rfl
/-- The count error. -/
theorem A_v7 (W : Valuation τ sig (Elt F)) :
    after opsA W (main_v7 : DevRef τ sig) = cntErr (predArr (W (main_arg0 : DevRef τ sig))) (W (main_arg2 : DevRef τ sig)) := by
  after_results_simp
  rfl
/-- The row offsets of the nine neighbours. -/
theorem A_c (W : Valuation τ sig (Elt F)) :
    after opsA W (main_c : DevRef τ sig) = (fun i => lit0 (S9.rowMajor i) : IVec S9 32) := by
  after_results_simp
  rfl
/-- The column offsets of the nine neighbours. -/
theorem A_c_0 (W : Valuation τ sig (Elt F)) :
    after opsA W (main_c_0 : DevRef τ sig) = (fun i => lit1 (S9.rowMajor i) : IVec S9 32) := by
  after_results_simp
  rfl
/-- The weights of the nine neighbours. -/
theorem A_cst (W : Valuation τ sig (Elt F)) :
    after opsA W (main_cst : DevRef τ sig) = (fun i => FloatOps.ofBits .f32 (lit2 (S9.rowMajor i)) : FVec F S9 .f32) := by
  after_results_simp
  rfl
/-- The points are not written. -/
theorem A_arg1 (W : Valuation τ sig (Elt F)) :
    after opsA W (main_arg1 : DevRef τ sig) = W (main_arg1 : DevRef τ sig) := by
  after_results_simp

/-! ## The clamped coordinates and the nine neighbours -/

/-- The neighbours' rows. -/
theorem G2_v18 (W : Valuation τ sig (Elt F)) (hc : W (main_c : DevRef τ sig) = (fun i => lit0 (S9.rowMajor i) : IVec S9 32)) :
    after opsE (after opsC1 (after opsD (after opsC0 (after opsB W)))) (main_v18 : DevRef τ sig) = nyArr (yArr (W (main_arg1 : DevRef τ sig))) := by
  after_results_simp
  rw [hc]
  rfl
/-- The neighbours' columns. -/
theorem G2_v23 (W : Valuation τ sig (Elt F)) (hc : W (main_c_0 : DevRef τ sig) = (fun i => lit1 (S9.rowMajor i) : IVec S9 32)) :
    after opsE (after opsC1 (after opsD (after opsC0 (after opsB W)))) (main_v23 : DevRef τ sig) = nxArr (xArr (W (main_arg1 : DevRef τ sig))) := by
  after_results_simp
  rw [hc]
  rfl
/-- What these pieces do not write. -/
theorem G2_keep (W : Valuation τ sig (Elt F)) :
    after opsE (after opsC1 (after opsD (after opsC0 (after opsB W)))) (main_v0 : DevRef τ sig) = W (main_v0 : DevRef τ sig)
    ∧ after opsE (after opsC1 (after opsD (after opsC0 (after opsB W)))) (main_v7 : DevRef τ sig) = W (main_v7 : DevRef τ sig)
    ∧ after opsE (after opsC1 (after opsD (after opsC0 (after opsB W)))) (main_cst : DevRef τ sig) = W (main_cst : DevRef τ sig) := by
  refine ⟨?_, ?_, ?_⟩ <;> after_results_simp

/-! ## The mask and the flat cell index -/

/-- The mask of the neighbours inside the grid. -/
theorem G3_v34 (W : Valuation τ sig (Elt F)) :
    after opsH (after opsC3 (after opsG (after opsC2 (after opsF W)))) (main_v34 : DevRef τ sig) = validArr (W (main_v18 : DevRef τ sig)) (W (main_v23 : DevRef τ sig)) := by
  after_results_simp
  rfl
/-- The flat cell index of each neighbour. -/
theorem G3_v39 (W : Valuation τ sig (Elt F)) :
    after opsH (after opsC3 (after opsG (after opsC2 (after opsF W)))) (main_v39 : DevRef τ sig) = flatArr (W (main_v18 : DevRef τ sig)) (W (main_v23 : DevRef τ sig)) := by
  after_results_simp
  rfl
/-- The zero weight. -/
theorem G3_cst_17 (W : Valuation τ sig (Elt F)) :
    after opsH (after opsC3 (after opsG (after opsC2 (after opsF W)))) (main_cst_17 : DevRef τ sig) = (constant S_ .f32 0x00000000#32 : FVec F S_ .f32) := by
  after_results_simp
/-- What these pieces do not write. -/
theorem G3_keep (W : Valuation τ sig (Elt F)) :
    after opsH (after opsC3 (after opsG (after opsC2 (after opsF W)))) (main_v0 : DevRef τ sig) = W (main_v0 : DevRef τ sig)
    ∧ after opsH (after opsC3 (after opsG (after opsC2 (after opsF W)))) (main_v7 : DevRef τ sig) = W (main_v7 : DevRef τ sig)
    ∧ after opsH (after opsC3 (after opsG (after opsC2 (after opsF W)))) (main_cst : DevRef τ sig) = W (main_cst : DevRef τ sig) := by
  refine ⟨?_, ?_, ?_⟩ <;> after_results_simp

/-! ## The weights, the image numbers and the cell indices brought into range -/

/-- The weights. -/
theorem G4_v40 (W : Valuation τ sig (Elt F)) (hcst : W (main_cst : DevRef τ sig) = (fun i => FloatOps.ofBits .f32 (lit2 (S9.rowMajor i)) : FVec F S9 .f32))
    (hz : W (main_cst_17 : DevRef τ sig) = (constant S_ .f32 0x00000000#32 : FVec F S_ .f32)) :
    after opsI (after opsC4 W) (main_v40 : DevRef τ sig) = updArr (W (main_v34 : DevRef τ sig)) := by
  after_results_simp
  rw [hcst, hz]
  rfl
/-- The zero image. -/
theorem G4_v44 (W : Valuation τ sig (Elt F)) :
    after opsI (after opsC4 W) (main_v44 : DevRef τ sig) = (broadcastInDim S32x262144 ![] bcast_S_S32x262144 (constant S_ .f32 0x00000000#32 : FVec F S_ .f32) : FVec F S32x262144 .f32) := by
  after_results_simp
/-- The image number of each update. -/
theorem G4_v49 (W : Valuation τ sig (Elt F)) :
    after opsI (after opsC4 W) (main_v49 : DevRef τ sig) = imgArr := by
  after_results_simp
  rfl
/-- The cell index of each update. -/
theorem G4_v54 (W : Valuation τ sig (Elt F)) :
    after opsI (after opsC4 W) (main_v54 : DevRef τ sig) = cellArr (W (main_v39 : DevRef τ sig)) := by
  after_results_simp
  rfl
/-- What these pieces do not write. -/
theorem G4_keep (W : Valuation τ sig (Elt F)) :
    after opsI (after opsC4 W) (main_v0 : DevRef τ sig) = W (main_v0 : DevRef τ sig)
    ∧ after opsI (after opsC4 W) (main_v7 : DevRef τ sig) = W (main_v7 : DevRef τ sig) := by
  refine ⟨?_, ?_⟩ <;> after_results_simp

/-! ## The scatter-add and the target -/

/-- The target: the weights added into the zero image at their cells. -/
theorem J_v59 (W : Valuation τ sig (Elt F)) :
    after opsJ W (main_v59 : DevRef τ sig)
      = shapeCast S32x512x512 (Host.scatterAdd scatter_S32x262144_S32x4096x9x2_S32x4096x9_n_01_01_3 (W (main_v44 : DevRef τ sig))
          (idxArr (W (main_v49 : DevRef τ sig)) (W (main_v54 : DevRef τ sig))) (W (main_v40 : DevRef τ sig))) shapeCasts_S32x262144_S32x512x512 := by
  after_results
  rfl
/-- What this piece does not write. -/
theorem J_keep (W : Valuation τ sig (Elt F)) :
    after opsJ W (main_v0 : DevRef τ sig) = W (main_v0 : DevRef τ sig)
    ∧ after opsJ W (main_v7 : DevRef τ sig) = W (main_v7 : DevRef τ sig) := by
  refine ⟨?_, ?_⟩ <;> after_results_simp

/-! ## The spatial error and the final combination -/

set_option maxHeartbeats 1000000 in
/-- The loss, over a prediction and a count error already computed and any target. -/
theorem K_v80 (W : Valuation τ sig (Elt F)) (a0 : FVec F S32x1x512x512 .f32) (a2 : FVec F S_ .f32)
    (h0 : W (main_v0 : DevRef τ sig) = predArr a0) (h7 : W (main_v7 : DevRef τ sig) = cntErr (predArr a0) a2) :
    after opsK W (main_v80 : DevRef τ sig) = refLoss a0 (W (main_v59 : DevRef τ sig)) a2 := by
  after_results_simp
  rw [h0, h7]
  rfl

/-! ## The result -/

set_option maxHeartbeats 1000000 in
/-- The result buffer after the operations: the loss at the target of the points. -/
theorem out_eq (V : Valuation τ sig (Elt F)) :
    after ops V (main_v80 : DevRef τ sig)
      = resTerm (V (main_arg0 : DevRef τ sig)) (V (main_arg1 : DevRef τ sig)) (V (main_arg2 : DevRef τ sig)) := by
  simp only [ops, after_append]
  -- the prediction and the count error, carried to the last piece
  have e0 : (after opsJ (after opsI (after opsC4 (after opsH (after opsC3 (after opsG (after opsC2 (after opsF (after opsE (after opsC1 (after opsD (after opsC0 (after opsB (after opsA V)))))))))))))) (main_v0 : DevRef τ sig) = predArr (V (main_arg0 : DevRef τ sig)) := by
    rw [(J_keep _).1, (G4_keep _).1, (G3_keep _).1, (G2_keep _).1, A_v0]
  have e7 : (after opsJ (after opsI (after opsC4 (after opsH (after opsC3 (after opsG (after opsC2 (after opsF (after opsE (after opsC1 (after opsD (after opsC0 (after opsB (after opsA V)))))))))))))) (main_v7 : DevRef τ sig) = cntErr (predArr (V (main_arg0 : DevRef τ sig))) (V (main_arg2 : DevRef τ sig)) := by
    rw [(J_keep _).2, (G4_keep _).2, (G3_keep _).2.1, (G2_keep _).2.1, A_v7]
  -- the weight table where the weights are selected
  have ecst : (after opsH (after opsC3 (after opsG (after opsC2 (after opsF (after opsE (after opsC1 (after opsD (after opsC0 (after opsB (after opsA V))))))))))) (main_cst : DevRef τ sig) = (fun i => FloatOps.ofBits .f32 (lit2 (S9.rowMajor i)) : FVec F S9 .f32) := by
    rw [(G3_keep _).2.2, (G2_keep _).2.2, A_cst]
  -- the target
  have e59 : (after opsJ (after opsI (after opsC4 (after opsH (after opsC3 (after opsG (after opsC2 (after opsF (after opsE (after opsC1 (after opsD (after opsC0 (after opsB (after opsA V)))))))))))))) (main_v59 : DevRef τ sig) = refTarget (V (main_arg1 : DevRef τ sig)) := by
    rw [J_v59, G4_v44, G4_v49, G4_v54, G4_v40 _ ecst (G3_cst_17 _), G3_v39, G3_v34, G2_v18 _ (A_c V), G2_v23 _ (A_c_0 V), A_arg1]
    rfl
  rw [K_v80 _ _ _ e0 e7, e59]
  rfl

set_option maxHeartbeats 1000000 in
/-- No operation writes argument 0. -/
theorem arg0_eq (V : Valuation τ sig (Elt F)) :
    after ops V (main_arg0 : DevRef τ sig) = V (main_arg0 : DevRef τ sig) := by
  simp only [ops, after_append]
  after_results_simp

set_option maxHeartbeats 1000000 in
/-- No operation writes argument 1. -/
theorem arg1_eq (V : Valuation τ sig (Elt F)) :
    after ops V (main_arg1 : DevRef τ sig) = V (main_arg1 : DevRef τ sig) := by
  simp only [ops, after_append]
  after_results_simp

set_option maxHeartbeats 1000000 in
/-- No operation writes argument 2. -/
theorem arg2_eq (V : Valuation τ sig (Elt F)) :
    after ops V (main_arg2 : DevRef τ sig) = V (main_arg2 : DevRef τ sig) := by
  simp only [ops, after_append]
  after_results_simp

/-- On every device, for any float values, from any memory with zero counters: every weakly fair execution of
    the program terminates with the result at the loss of the prediction against the target of the points, and
    the arguments unchanged. -/
theorem run (m : (ℓ : Loc nD τ sig) → Buf (Elt F) ℓ) (ρ : Dev nD → PrngReg) :
    θ_run (Cert.ReferenceIdeal.defs (F := F)) (onTc (τ := Cert.ReferenceIdeal.τ) (Cert.ReferenceIdeal.main (F := F))) ⟨m, fun _ => 0, ρ⟩ (fun r => ∀ c : Dev nD,
      r.2.mem ((c.tc : Thread nD τ).loc main_v80) = resTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v80).trans (out_eq _),
      (h c main_arg0).trans (arg0_eq _),
      (h c main_arg1).trans (arg1_eq _),
      (h c main_arg2).trans (arg2_eq _)⟩)
    (run_all m ρ)

end Cert.ReferenceIdeal.Hand

end
-- ==== Proof.HostRead.lean ====
/-
  Host operations read over the extended reals, at the literal shapes of this certificate: 32 images of 512 × 512
  cells, vectors of 32 per-image values, scalars.

  A reshape that drops the prediction's unit channel axis is the prediction read at channel 0. A scalar spread over
  any shape is the splat of its one entry; a vector of 32 values placed on the leading axis of a 32 × 1 × 1 array
  reads the value of the index's leading coordinate; a 32 × 1 × 1 array spread over 32 × 512 × 512 reads the entry of
  the cell's image. A sum over the two cell axes of an image batch, started from the zero word, is the per-image sum;
  a sum of a vector of 32 entries to a scalar, started from the zero word, is the sum of the entries (the zero word
  is the extended real zero, so the "0 +" of the initial value disappears).
-/
import proofs.«429451_j33646773797363_4_alg».proof.Proof.Spec
import proofs.«429451_j33646773797363_4_alg».proof.Proof.Reduce12
import Idealize.ShloMosaic.Lib.IdealHost
import Idealize.ShloMosaic.Lib.Pipeline.Value

noncomputable section

open scoped BigOperators

namespace Cert.HostRead

open Idealize.ShloMosaic Idealize.ShloMosaic.ValueIdx

/-! ## The layout operations as functions of the index -/

/-- Dropping the unit channel axis: the rank-3 view of the prediction is the prediction read at channel 0. -/
theorem reshape_img (a0 : Cert.Spec.SPred.Idx → EReal) (h : Cert.Spec.SPred.ShapeCasts Cert.Spec.SImg) :
    shapeCast Cert.Spec.SImg a0 h = Cert.Spec.img a0 := by
  funext j
  refine shapeCast_apply a0 h j (ix4 (j 0) (0 : Fin 1) (j 1) (j 2)) ?_
  rw [Shape.rowMajor_val_four, Shape.rowMajor_val_three]
  show ((((j 0).val * 1 + 0) * 512 + (j 1).val) * 512 + (j 2).val) = ((j 0).val * 512 + (j 1).val) * 512 + (j 2).val
  omega

/-- A scalar spread over any shape is the splat of its one entry. -/
theorem bcast_scalar {T : Shape} {α : Type} (h : (⟨0, ![]⟩ : Shape).BroadcastsInDim T ![])
    (x : (⟨0, ![]⟩ : Shape).Idx → α) : broadcastInDim T ![] h x = broadcast T (x ix0) :=
  funext fun j => broadcastInDim_scalar_apply h x j

/-- A vector of per-image values read on the leading axis of a 32 × 1 × 1 array. -/
def onLead {α : Type} (x : (⟨1, ![32]⟩ : Shape).Idx → α) : (⟨3, ![32, 1, 1]⟩ : Shape).Idx → α := fun j => x (ix1 (j 0))

/-- A 32 × 1 × 1 array read at every cell of its image. -/
def overImg {α : Type} (x : (⟨3, ![32, 1, 1]⟩ : Shape).Idx → α) : Cert.Spec.SImg.Idx → α :=
  fun j => x (ix3 (j 0) (0 : Fin 1) (0 : Fin 1))

/-- A vector of per-image values placed on the leading axis of a 32 × 1 × 1 array. -/
theorem bcast_vec {α : Type} (h : (⟨1, ![32]⟩ : Shape).BroadcastsInDim (⟨3, ![32, 1, 1]⟩ : Shape) (![0] : Fin 1 → Fin 3))
    (x : (⟨1, ![32]⟩ : Shape).Idx → α) : broadcastInDim (⟨3, ![32, 1, 1]⟩ : Shape) ![0] h x = onLead x :=
  funext fun j => broadcastInDim_apply _ h x j (ix1 (j 0)) (fun a => by
    match a with
    | ⟨0, _⟩ => rfl)

/-- A 32 × 1 × 1 array spread over every cell of its image. -/
theorem bcast_img {α : Type}
    (h : (⟨3, ![32, 1, 1]⟩ : Shape).BroadcastsInDim Cert.Spec.SImg (![0, 1, 2] : Fin 3 → Fin 3))
    (x : (⟨3, ![32, 1, 1]⟩ : Shape).Idx → α) : broadcastInDim Cert.Spec.SImg ![0, 1, 2] h x = overImg x :=
  funext fun j => broadcastInDim_apply _ h x j (ix3 (j 0) (0 : Fin 1) (0 : Fin 1)) (fun a => by
    match a with
    | ⟨0, _⟩ => rfl
    | ⟨1, _⟩ => rfl
    | ⟨2, _⟩ => rfl)

/-! ## The two sums, from a zero initial value -/

/-- A rank-1 index set is its one coordinate's range. -/
def idxEquiv1 {n : Nat} : (⟨1, ![n]⟩ : Shape).Idx ≃ Fin n where
  toFun i := i 0
  invFun b := ix1 b
  left_inv i := (eq_ix1 i).symm
  right_inv _ := rfl

/-- A sum over a rank-1 index set is the sum over the coordinate. -/
theorem sum_idx1 {n : Nat} (x : (⟨1, ![n]⟩ : Shape).Idx → EReal) : ∑ i, x i = ∑ b : Fin n, x (ix1 b) :=
  Fintype.sum_equiv idxEquiv1 _ _ fun k => congrArg x (eq_ix1 k)

/-- Summing each image of a batch from an initial scalar array: its first entry plus the image's sum. -/
theorem reduce12_apply (x : FVec Ideal Cert.Spec.SImg .f32) (init : FVec Ideal (⟨0, ![]⟩ : Shape) .f32)
    (hred : Cert.Spec.SImg.ReducesTo [1, 2] (⟨1, ![32]⟩ : Shape)) (hu : 0 < (⟨0, ![]⟩ : Shape).numel) (b : Fin 32) :
    Host.reduceAdd x init hred hu (ix1 b) = init (Shape.Idx.first hu) + Cert.Spec.sumImg x b :=
  (hostReduceAdd_apply x init hred hu _).trans (Cert.Reduce12.reduce12_apply x _ hred b)

/-- Summing each image of a batch, starting from the zero word, gives the per-image sums. -/
theorem reduce12_zero (x : FVec Ideal Cert.Spec.SImg .f32) (hred : Cert.Spec.SImg.ReducesTo [1, 2] (⟨1, ![32]⟩ : Shape))
    (hu : 0 < (⟨0, ![]⟩ : Shape).numel) :
    Host.reduceAdd x (constant (F := Ideal) (⟨0, ![]⟩ : Shape) .f32 0x00000000#32) hred hu
      = fun i => Cert.Spec.sumImg x (i 0) := by
  funext i
  rw [eq_ix1 i]
  refine (reduce12_apply x _ hred hu (i 0)).trans ?_
  rw [constant_apply, Ideal.ofBits_zero_f32, zero_add]

/-- Summing a vector of 32 entries to a scalar from an initial scalar array: its first entry plus the sum of the
    entries. -/
theorem reduce0_apply (x : FVec Ideal (⟨1, ![32]⟩ : Shape) .f32) (init : FVec Ideal (⟨0, ![]⟩ : Shape) .f32)
    (hred : (⟨1, ![32]⟩ : Shape).ReducesTo [0] (⟨0, ![]⟩ : Shape)) (hu : 0 < (⟨0, ![]⟩ : Shape).numel)
    (i : (⟨0, ![]⟩ : Shape).Idx) :
    Host.reduceAdd x init hred hu i = init (Shape.Idx.first hu) + ∑ b : Fin 32, x (ix1 b) := by
  refine (hostReduceAdd_apply x init hred hu _).trans ?_
  refine (Ideal.hostReduceAdd_total hred (fun b => b.elim0) x _ i).trans ?_
  rw [sum_idx1]

/-- Summing a vector of 32 entries, starting from the zero word, gives their sum. -/
theorem reduce0_zero (x : FVec Ideal (⟨1, ![32]⟩ : Shape) .f32) (hred : (⟨1, ![32]⟩ : Shape).ReducesTo [0] (⟨0, ![]⟩ : Shape))
    (hu : 0 < (⟨0, ![]⟩ : Shape).numel) :
    Host.reduceAdd x (constant (F := Ideal) (⟨0, ![]⟩ : Shape) .f32 0x00000000#32) hred hu
      = fun _ => ∑ b : Fin 32, x (ix1 b) := by
  funext i
  refine (reduce0_apply x _ hred hu i).trans ?_
  rw [constant_apply, Ideal.ofBits_zero_f32, zero_add]

end Cert.HostRead

end
-- ==== Proof.R.Loss.lean ====
/-
  The reference's loss read over the extended reals.

  From the prediction (its unit channel axis dropped), a target image batch and the area, the printed operations
  compute: the per-image sums of the prediction, each divided by the area, less the number of points, in absolute
  value, summed over the 32 images, divided by 32 and doubled; and, cell by cell, the prediction over its image's sum
  plus a small constant less the target over its image's sum, squared, summed per image, divided by the number of
  cells, summed over the images, divided by 32 and scaled by 0.15; the result is the sum of the two. Every sum starts
  from the zero word, which is the extended real zero, so each "0 + Σ" is the Σ of the specification.

  The reshape and the two kinds of sum are rewritten to the specification's image, per-image sum and sum over the
  images; the broadcasts to the functions of the index they are; what remains are elementwise operations, which are the
  extended reals' by definition, and that closes the comparison with the specification.
-/
import proofs.«429451_j33646773797363_4_alg».proof.Proof.Spec
import proofs.«429451_j33646773797363_4_alg».proof.Proof.HostRead
import proofs.«429451_j33646773797363_4_alg».proof.Proof.R.Term

noncomputable section

open scoped BigOperators

namespace Cert.ReferenceIdeal.HandLoss

open Idealize.ShloMosaic Idealize.ShloMosaic.ValueIdx Cert.HostRead

/-- The printed loss is the specification's: twice the mean absolute count error plus 0.15 times the mean over the
    images of the cell-by-cell mean squared difference of the normalised prediction and target. -/
theorem refLoss_eq (a0 : FVec Ideal Cert.ReferenceIdeal.S32x1x512x512 .f32) (t : FVec Ideal Cert.ReferenceIdeal.S32x512x512 .f32)
    (a2 : FVec Ideal Cert.ReferenceIdeal.S_ .f32) :
    Cert.ReferenceIdeal.Hand.refLoss (F := Ideal) a0 t a2
      = fun _ => Cert.Spec.final (Cert.Spec.sumImg (Cert.Spec.img a0)) (Cert.Spec.mseR (Cert.Spec.img a0) t) (a2 ValueIdx.ix0) := by
  unfold Cert.ReferenceIdeal.Hand.refLoss Cert.ReferenceIdeal.Hand.cntErr Cert.ReferenceIdeal.Hand.mseErr
    Cert.ReferenceIdeal.Hand.tnormArr Cert.ReferenceIdeal.Hand.pnormArr Cert.ReferenceIdeal.Hand.predArr
  simp only [reshape_img, reduce12_zero, reduce0_zero]
  repeat rw [bcast_scalar]
  repeat rw [bcast_vec]
  repeat rw [bcast_img]
  rfl

end Cert.ReferenceIdeal.HandLoss

end
-- ==== Proof.LibScatter2.lean ====
/-
  A two-coordinate scatter read index by index.

  `stablehlo.scatter` into an operand of shape [B, Q] with scatter indices of shape [B', N, K, 2] (the index vector on the
  last axis), updates of shape [B', N, K], no update-window axes, both operand axes inserted and the index vector's two
  components going to operand axes 0 and 1 in order: what `zeros((B, Q)).at[i0, i1].add(u)` lowers to for index arrays
  i0, i1 and updates u of one shape [B', N, K]. Update (b, n, k) lands at operand cell (idx[b, n, k, 0], idx[b, n, k, 1]),
  both read signed and not clamped, and lands nowhere when that cell is outside the operand.
-/
import Idealize.ShloMosaic.PureOps.Ideal
import Idealize.ShloMosaic.Lib.ValueIdx

namespace Idealize.ShloMosaic.Scatter2

open Idealize.ShloMosaic Idealize.ShloMosaic.ValueIdx

variable {B Q B' N K w : Nat}

/-- The dimension numbers: no update-window axes, inserted window axes [0, 1], scatter-dims-to-operand-dims [0, 1],
    index vector on axis 3. -/
abbrev dims (wf : ScatterDims.WF ⟨2, ![B, Q]⟩ ⟨4, ![B', N, K, 2]⟩ ⟨3, ![B', N, K]⟩ [] [0, 1] [0, 1] 3) :
    ScatterDims ⟨2, ![B, Q]⟩ ⟨4, ![B', N, K, 2]⟩ ⟨3, ![B', N, K]⟩ where
  updateWindowDims := []
  insertedWindowDims := [0, 1]
  scatterDimsToOperandDims := [0, 1]
  indexVectorDim := 3
  wf := wf

variable (wf : ScatterDims.WF ⟨2, ![B, Q]⟩ ⟨4, ![B', N, K, 2]⟩ ⟨3, ![B', N, K]⟩ [] [0, 1] [0, 1] 3)

/-- No operand axis is a window axis: every window coordinate is 0. -/
theorem window_eq_zero (j : (⟨3, ![B', N, K]⟩ : Shape).Idx) (a : Fin 2) : (dims wf).window j a = 0 := by
  unfold ScatterDims.window
  rw [dif_neg]
  intro h
  have : (dims wf).sKept = [] := by
    show (List.finRange 2).filter (fun a => a ∉ ([0, 1] : List (Fin 2))) = []
    decide
  rw [this] at h
  exact List.not_mem_nil h

/-- The start on operand axis 0 is component 0 of the update's index vector, read signed. -/
theorem start_zero (j : (⟨3, ![B', N, K]⟩ : Shape).Idx) (idx : IVec ⟨4, ![B', N, K, 2]⟩ w) :
    (dims wf).start j idx 0 = (idx (ix4 (j 0) (j 1) (j 2) (0 : Fin 2))).toInt := by
  unfold ScatterDims.start
  rw [dif_pos (show (0 : Fin 2) ∈ ([0, 1] : List (Fin 2)) by decide)]
  congr 2
  funext b; refine Fin.ext ?_
  match b with
  | ⟨0, _⟩ => rfl
  | ⟨1, _⟩ => rfl
  | ⟨2, _⟩ => rfl
  | ⟨3, _⟩ => rfl

/-- The start on operand axis 1 is component 1 of the update's index vector, read signed. -/
theorem start_one (j : (⟨3, ![B', N, K]⟩ : Shape).Idx) (idx : IVec ⟨4, ![B', N, K, 2]⟩ w) :
    (dims wf).start j idx 1 = (idx (ix4 (j 0) (j 1) (j 2) (1 : Fin 2))).toInt := by
  unfold ScatterDims.start
  rw [dif_pos (show (1 : Fin 2) ∈ ([0, 1] : List (Fin 2)) by decide)]
  congr 2
  funext b; refine Fin.ext ?_
  match b with
  | ⟨0, _⟩ => rfl
  | ⟨1, _⟩ => rfl
  | ⟨2, _⟩ => rfl
  | ⟨3, _⟩ => rfl

/-- WHERE AN UPDATE LANDS: update `j` lands at operand cell `i` exactly when the two components of its index vector,
    read signed, are `i`'s two coordinates. -/
theorem resultIdx?_eq_some_iff (j : (⟨3, ![B', N, K]⟩ : Shape).Idx) (idx : IVec ⟨4, ![B', N, K, 2]⟩ w)
    (i : (⟨2, ![B, Q]⟩ : Shape).Idx) :
    (dims wf).resultIdx? j idx = some i ↔
      (idx (ix4 (j 0) (j 1) (j 2) (0 : Fin 2))).toInt = ((i 0).val : Int) ∧
      (idx (ix4 (j 0) (j 1) (j 2) (1 : Fin 2))).toInt = ((i 1).val : Int) := by
  have h0 := start_zero wf j idx
  have h1 := start_one wf j idx
  have w0 := window_eq_zero wf j 0
  have w1 := window_eq_zero wf j 1
  unfold ScatterDims.resultIdx?
  constructor
  · intro h
    split at h
    · next hall =>
      have e := Option.some.inj h
      have e0 := congrArg (fun f => ((f 0 : Fin _).val : Int)) e
      have e1 := congrArg (fun f => ((f 1 : Fin _).val : Int)) e
      simp only [] at e0 e1
      have p0 := (hall 0).1
      have p1 := (hall 1).1
      rw [w0] at e0 p0; rw [w1] at e1 p1
      rw [h0] at e0 p0; rw [h1] at e1 p1
      constructor
      · rw [← e0]; simp only [Nat.cast_zero, add_zero] at p0 ⊢; exact (Int.toNat_of_nonneg p0).symm
      · rw [← e1]; simp only [Nat.cast_zero, add_zero] at p1 ⊢; exact (Int.toNat_of_nonneg p1).symm
    · exact absurd h (by simp)
  · rintro ⟨e0, e1⟩
    have hall : ∀ a : Fin 2, 0 ≤ (dims wf).start j idx a + ((dims wf).window j a : Int) ∧
        (dims wf).start j idx a + ((dims wf).window j a : Int) < ((⟨2, ![B, Q]⟩ : Shape).size a : Int) := by
      intro a
      match a with
      | ⟨0, _⟩ =>
        show 0 ≤ (dims wf).start j idx 0 + ((dims wf).window j 0 : Int) ∧ (dims wf).start j idx 0 + ((dims wf).window j 0 : Int) < (B : Int)
        rw [w0, h0, e0]; have := (i 0).isLt; change (i 0).val < B at this; omega
      | ⟨1, _⟩ =>
        show 0 ≤ (dims wf).start j idx 1 + ((dims wf).window j 1 : Int) ∧ (dims wf).start j idx 1 + ((dims wf).window j 1 : Int) < (Q : Int)
        rw [w1, h1, e1]; have := (i 1).isLt; change (i 1).val < Q at this; omega
    rw [dif_pos hall]
    congr 1
    funext a; refine Fin.ext ?_
    match a with
    | ⟨0, _⟩ =>
      show ((dims wf).start j idx 0 + ((dims wf).window j 0 : Int)).toNat = (i 0).val
      rw [w0, h0, e0]; simp
    | ⟨1, _⟩ =>
      show ((dims wf).start j idx 1 + ((dims wf).window j 1 : Int)).toNat = (i 1).val
      rw [w1, h1, e1]; simp

end Idealize.ShloMosaic.Scatter2
-- ==== Proof.R.Target1.lean ====
/-
  The reference's target, counted.

  Each point, clamped into the grid, sends nine updates, one per tap (dy, dx) of the 3 × 3 stencil: to the flat cell
  512 · clamp(y + dy) + clamp(x + dx) of its image, with the tap's weight when (y + dy, x + dx) is inside the grid and
  zero otherwise. This file reads those words as signed integers (nothing wraps: the clamped coordinates lie in
  [0, 511]), shows that an update of non-zero weight lands in cell 512 · h + w exactly when y + dy = h and x + dx = w,
  and sums: the updates landing in a cell add up to the stencil applied to the count map there.
-/
import Idealize.ShloMosaic.PureOps.Ideal
import Idealize.ShloMosaic.Lib.ValueIdx
import Idealize.ShloMosaic.Lib.StableHlo.Predicate
import Mathlib.Data.EReal.Operations
import proofs.«429451_j33646773797363_4_alg».proof.Proof.Spec
import proofs.«429451_j33646773797363_4_alg».proof.ReferenceIdeal

open Idealize.ShloMosaic Idealize.ShloMosaic.ValueIdx
open scoped BigOperators

noncomputable section

namespace Cert.ReferenceIdeal.HandTarget

open Cert.Spec

/-! ## Words as signed integers -/

theorem toInt_addi (a b : BitVec 32) (h : -(2:Int)^31 ≤ a.toInt + b.toInt ∧ a.toInt + b.toInt < (2:Int)^31) :
    (IntOp.addi a b).toInt = a.toInt + b.toInt := by
  unfold IntOp.addi
  rw [BitVec.toInt_add]
  unfold Int.bmod
  norm_num at h ⊢
  omega

theorem toInt_muli (a b : BitVec 32) (h : -(2:Int)^31 ≤ a.toInt * b.toInt ∧ a.toInt * b.toInt < (2:Int)^31) :
    (IntOp.muli a b).toInt = a.toInt * b.toInt := by
  unfold IntOp.muli
  rw [BitVec.toInt_mul]
  generalize a.toInt * b.toInt = p at h ⊢
  unfold Int.bmod
  norm_num at h ⊢
  omega

theorem cmpi_sge_iff (a b : BitVec 32) : IntOp.cmpi .sge a b = 1#1 ↔ b.toInt ≤ a.toInt := by
  unfold IntOp.cmpi
  simp only [StableHlo.Predicate.ofBool_eq_one_iff, BitVec.sle, decide_eq_true_eq]

theorem cmpi_slt_iff (a b : BitVec 32) : IntOp.cmpi .slt a b = 1#1 ↔ a.toInt < b.toInt := by
  unfold IntOp.cmpi
  simp only [StableHlo.Predicate.ofBool_eq_one_iff, BitVec.slt, decide_eq_true_eq]

theorem andi_one_iff (a b : BitVec 1) : IntOp.andi a b = 1#1 ↔ a = 1#1 ∧ b = 1#1 := by
  unfold IntOp.andi
  revert a b; decide

theorem toInt_clampW (v : BitVec 32) : (clampW v).toInt = max 0 (min 511 v.toInt) := by
  unfold clampW IntOp.minsi IntOp.maxsi
  simp only [BitVec.slt, decide_eq_true_eq]
  have h0 : (0#32).toInt = 0 := by decide
  have h511 : (511#32).toInt = 511 := by decide
  split <;> split <;> simp_all <;> omega

/-! ## The nine taps -/

/-- Tap `k`'s row offset dy and column offset dx, as integers. -/
def dyI : Fin 9 → ℤ := ![-1, -1, -1, 0, 0, 0, 1, 1, 1]
def dxI : Fin 9 → ℤ := ![-1, 0, 1, -1, 0, 1, -1, 0, 1]

theorem lit0_toInt (k : Fin 9) : (lit0 k).toInt = dyI k := by fin_cases k <;> rfl
theorem lit1_toInt (k : Fin 9) : (lit1 k).toInt = dxI k := by fin_cases k <;> rfl
theorem oy_eq (k : Fin 9) : (oy k : ℤ) = 1 - dyI k := by fin_cases k <;> rfl
theorem ox_eq (k : Fin 9) : (ox k : ℤ) = 1 - dxI k := by fin_cases k <;> rfl
theorem dyI_range (k : Fin 9) : -1 ≤ dyI k ∧ dyI k ≤ 1 := by fin_cases k <;> decide
theorem dxI_range (k : Fin 9) : -1 ≤ dxI k ∧ dxI k ≤ 1 := by fin_cases k <;> decide
theorem wgt_eq (k : Fin 9) : Ideal.ofBits .f32 (lit2 k) = wgt k := by fin_cases k <;> rfl

/-! ## One update's validity bit and flat cell, as words -/

def validW (ny nx : BitVec 32) : BitVec 1 :=
  IntOp.andi (IntOp.andi (IntOp.andi (IntOp.cmpi .sge ny 0#32) (IntOp.cmpi .slt ny 512#32)) (IntOp.cmpi .sge nx 0#32))
    (IntOp.cmpi .slt nx 512#32)
def flatW (ny nx : BitVec 32) : BitVec 32 := IntOp.addi (IntOp.muli (clampW ny) 512#32) (clampW nx)
/-- A possibly negative index normalised by adding the extent `m`. -/
def normW (m q : BitVec 32) : BitVec 32 := Scalar.select (IntOp.cmpi .slt q 0#32) (IntOp.addi q m) q

theorem tap_iff (y x dy dx : BitVec 32) (hy : 0 ≤ y.toInt ∧ y.toInt ≤ 511) (hx : 0 ≤ x.toInt ∧ x.toInt ≤ 511)
    (hdy : -1 ≤ dy.toInt ∧ dy.toInt ≤ 1) (hdx : -1 ≤ dx.toInt ∧ dx.toInt ≤ 1) (h w : ℕ) (hh : h < 512) (hw : w < 512) :
    (validW (IntOp.addi y dy) (IntOp.addi x dx) = 1#1 ∧
        (normW 262144#32 (flatW (IntOp.addi y dy) (IntOp.addi x dx))).toInt = ((512 * h + w : ℕ) : ℤ))
      ↔ (y.toInt + dy.toInt = (h : ℤ) ∧ x.toInt + dx.toInt = (w : ℤ)) := by
  have hny := toInt_addi y dy (by norm_num; omega)
  have hnx := toInt_addi x dx (by norm_num; omega)
  generalize IntOp.addi y dy = ny at hny ⊢
  generalize IntOp.addi x dx = nx at hnx ⊢
  have hcy := toInt_clampW ny
  have hcx := toInt_clampW nx
  have h512 : (512#32).toInt = 512 := by decide
  have h0 : (0#32).toInt = 0 := by decide
  have hmul := toInt_muli (clampW ny) 512#32 (by rw [hcy, h512]; norm_num; omega)
  have hflat := toInt_addi (IntOp.muli (clampW ny) 512#32) (clampW nx) (by rw [hmul, hcy, hcx, h512]; norm_num; omega)
  have hnorm : normW 262144#32 (flatW ny nx) = flatW ny nx := by
    unfold normW
    have hc : ¬ IntOp.cmpi .slt (flatW ny nx) 0#32 = 1#1 := by
      rw [cmpi_slt_iff]; unfold flatW; rw [hflat, hmul, hcy, hcx, h512, h0]; omega
    rw [eq_zero_of_ne_one hc, select_zero]
  rw [hnorm]
  unfold validW flatW
  rw [andi_one_iff, andi_one_iff, andi_one_iff, cmpi_sge_iff, cmpi_slt_iff, cmpi_sge_iff, cmpi_slt_iff, hflat, hmul, hcy, hcx,
    h512, h0, hny, hnx]
  push_cast
  omega

/-! ## Sums over a rank-3 index set, and a constant through a sum of non-negative terms -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- In the extended reals a factor goes through a sum of non-negative terms. -/
theorem mul_sum_nonneg {ι : Type*} (s : Finset ι) (c : EReal) (f : ι → EReal) (hf : ∀ i, 0 ≤ f i) :
    c * ∑ i ∈ s, f i = ∑ i ∈ s, c * f i := by
  classical
  induction s using Finset.induction_on with
  | empty => simp
  | insert a s ha ih =>
    rw [Finset.sum_insert ha, Finset.sum_insert ha, EReal.left_distrib_of_nonneg (hf a) (Finset.sum_nonneg fun i _ => hf i), ih]

/-! ## The update arrays, element by element -/

theorem py_range (pts : IVec SPts 32) (b : Fin 32) (n : Fin 4096) : 0 ≤ (py pts b n).toInt ∧ (py pts b n).toInt ≤ 511 := by
  unfold py; rw [toInt_clampW]; omega
theorem px_range (pts : IVec SPts 32) (b : Fin 32) (n : Fin 4096) : 0 ≤ (px pts b n).toInt ∧ (px pts b n).toInt ≤ 511 := by
  unfold px; rw [toInt_clampW]; omega

/-- The row and the column of the cell tap `k` of point `n` goes to, before validity: y + dy and x + dx. -/
def nyW (pts : IVec SPts 32) (b : Fin 32) (n : Fin 4096) (k : Fin 9) : BitVec 32 := IntOp.addi (py pts b n) (lit0 k)
def nxW (pts : IVec SPts 32) (b : Fin 32) (n : Fin 4096) (k : Fin 9) : BitVec 32 := IntOp.addi (px pts b n) (lit1 k)
/-- The flat cell index the scatter reads for update (b, n, k), -/
def cellW (pts : IVec SPts 32) (b : Fin 32) (n : Fin 4096) (k : Fin 9) : BitVec 32 :=
  normW 262144#32 (flatW (nyW pts b n k) (nxW pts b n k))
/-- the image index it reads, -/
def imgW (b : Fin 32) : BitVec 32 := normW 32#32 (BitVec.ofNat 32 b.val)
/-- and the update's value: the tap's weight where the neighbour is inside the grid, else zero. -/
def updV (pts : IVec SPts 32) (b : Fin 32) (n : Fin 4096) (k : Fin 9) : EReal :=
  Scalar.select (validW (nyW pts b n k) (nxW pts b n k)) (Ideal.ofBits .f32 (lit2 k)) (Ideal.ofBits .f32 0x00000000#32)

theorem imgW_toInt (b : Fin 32) : (imgW b).toInt = (b.val : ℤ) := by
  have hb := b.isLt
  have h1 : (BitVec.ofNat 32 b.val).toInt = (b.val : ℤ) := StableHlo.Predicate.toInt_ofNat_small b.val (by omega)
  have h0 : (0#32).toInt = 0 := by decide
  unfold imgW normW
  have hc : ¬ IntOp.cmpi .slt (BitVec.ofNat 32 b.val) 0#32 = 1#1 := by
    rw [cmpi_slt_iff, h1, h0]; omega
  rw [eq_zero_of_ne_one hc, select_zero]; exact h1

theorem ofBits_zero : Ideal.ofBits .f32 0x00000000#32 = 0 := by simp [Ideal.ofBits, Ideal.ieee]

/-- ONE UPDATE's contribution to cell (b, 512·h + w): the tap's weight when the update is of image `b` and its point, moved by
    the tap's offset, is (h, w); else nothing. -/
theorem term_eq (pts : IVec SPts 32) (b b' : Fin 32) (n : Fin 4096) (k : Fin 9) (h w : Fin 512) :
    (if (imgW b').toInt = (b.val : ℤ) ∧ (cellW pts b' n k).toInt = ((512 * h.val + w.val : ℕ) : ℤ) then updV pts b' n k else 0)
      = if b' = b ∧ ((py pts b' n).toInt + dyI k = (h.val : ℤ) ∧ (px pts b' n).toInt + dxI k = (w.val : ℤ)) then wgt k else 0 := by
  have T := tap_iff (py pts b' n) (px pts b' n) (lit0 k) (lit1 k) (py_range pts b' n) (px_range pts b' n)
    (by rw [lit0_toInt]; exact dyI_range k) (by rw [lit1_toInt]; exact dxI_range k) h.val w.val h.isLt w.isLt
  rw [lit0_toInt, lit1_toInt] at T
  rw [imgW_toInt]
  unfold updV cellW nyW nxW
  have hbb : ((b'.val : ℤ) = (b.val : ℤ)) ↔ b' = b := by rw [Fin.ext_iff]; omega
  by_cases hv : validW (IntOp.addi (py pts b' n) (lit0 k)) (IntOp.addi (px pts b' n) (lit1 k)) = 1#1
  · rw [hv, select_one, wgt_eq]
    refine if_congr (and_congr hbb ⟨fun hc => T.1 ⟨hv, hc⟩, fun hr => (T.2 hr).2⟩) rfl rfl
  · rw [eq_zero_of_ne_one hv, select_zero, ofBits_zero, ite_self, if_neg]
    rintro ⟨_, hr⟩; exact hv (T.2 hr).1

theorem hit_nonneg (pts : IVec SPts 32) (b : Fin 32) (n : Fin 4096) (h w : Fin 512) : 0 ≤ hit pts b n h w := by
  unfold hit; split <;> split <;> simp

theorem word_eq_iff (v : BitVec 32) (m : ℕ) (hm : m < 512) : v = BitVec.ofNat 32 m ↔ v.toInt = (m : ℤ) := by
  have e := StableHlo.Predicate.toInt_ofNat_small m (by omega)
  constructor
  · intro h; rw [h, e]
  · intro h; apply BitVec.eq_of_toInt_eq; rw [h, e]

/-- ONE TAP summed over the points: the tap's weight times the count map, padded, at the tap's neighbour. -/
theorem tap_sum (pts : IVec SPts 32) (b : Fin 32) (k : Fin 9) (h w : Fin 512) :
    ∑ n : Fin 4096, (if (py pts b n).toInt + dyI k = (h.val : ℤ) ∧ (px pts b n).toInt + dxI k = (w.val : ℤ) then wgt k else 0)
      = wgt k * Cert.Spec.pad (cnt pts) b (h.val + oy k) (w.val + ox k) := by
  have ey := oy_eq k
  have ex := ox_eq k
  unfold Cert.Spec.pad
  split
  · next hin =>
    show _ = wgt k * ∑ n : Fin 4096, hit pts b n ⟨h.val + oy k - 1, by omega⟩ ⟨w.val + ox k - 1, by omega⟩
    rw [mul_sum_nonneg _ _ _ (fun n => hit_nonneg pts b n _ _)]
    refine Finset.sum_congr rfl fun n _ => ?_
    unfold hit
    show (if (py pts b n).toInt + dyI k = (h.val : ℤ) ∧ (px pts b n).toInt + dxI k = (w.val : ℤ) then wgt k else 0)
      = wgt k * ((if py pts b n = BitVec.ofNat 32 (h.val + oy k - 1) then (1 : EReal) else 0)
          * (if px pts b n = BitVec.ofNat 32 (w.val + ox k - 1) then (1 : EReal) else 0))
    have hy : (py pts b n = BitVec.ofNat 32 (h.val + oy k - 1)) ↔ ((py pts b n).toInt + dyI k = (h.val : ℤ)) := by
      rw [word_eq_iff (py pts b n) (h.val + oy k - 1) (by omega)]; omega
    have hx : (px pts b n = BitVec.ofNat 32 (w.val + ox k - 1)) ↔ ((px pts b n).toInt + dxI k = (w.val : ℤ)) := by
      rw [word_eq_iff (px pts b n) (w.val + ox k - 1) (by omega)]; omega
    by_cases c1 : (py pts b n).toInt + dyI k = (h.val : ℤ)
    · by_cases c2 : (px pts b n).toInt + dxI k = (w.val : ℤ)
      · rw [if_pos (show _ ∧ _ from ⟨c1, c2⟩), if_pos (hy.2 c1), if_pos (hx.2 c2), mul_one, mul_one]
      · have nA : ¬ ((py pts b n).toInt + dyI k = (h.val : ℤ) ∧ (px pts b n).toInt + dxI k = (w.val : ℤ)) := fun hc => c2 hc.2
        have nX : ¬ (px pts b n = BitVec.ofNat 32 (w.val + ox k - 1)) := fun hc => c2 (hx.1 hc)
        rw [if_neg nA, if_neg nX, mul_zero, mul_zero]
    · have nA : ¬ ((py pts b n).toInt + dyI k = (h.val : ℤ) ∧ (px pts b n).toInt + dxI k = (w.val : ℤ)) := fun hc => c1 hc.1
      have nY : ¬ (py pts b n = BitVec.ofNat 32 (h.val + oy k - 1)) := fun hc => c1 (hy.1 hc)
      rw [if_neg nA, if_neg nY, zero_mul, mul_zero]
  · next hout =>
    rw [mul_zero]
    refine Finset.sum_eq_zero fun n _ => if_neg ?_
    rintro ⟨r1, r2⟩
    have := py_range pts b n; have := px_range pts b n
    apply hout; omega

/-- THE COUNTING IDENTITY: the updates landing in cell (b, 512·h + w), summed, are the stencil applied to the count map. -/
theorem scatter_count (pts : IVec SPts 32) (b : Fin 32) (h w : Fin 512) :
    ∑ j : (⟨3, ![32, 4096, 9]⟩ : Shape).Idx,
        (if (imgW (j 0)).toInt = (b.val : ℤ) ∧ (cellW pts (j 0) (j 1) (j 2)).toInt = ((512 * h.val + w.val : ℕ) : ℤ)
          then updV pts (j 0) (j 1) (j 2) else 0)
      = targ (cnt pts) (ix3 b h w) := by
  rw [sum_idx3]
  calc _ = ∑ b' : Fin 32, ∑ n : Fin 4096, ∑ k : Fin 9,
            (if b' = b ∧ ((py pts b' n).toInt + dyI k = (h.val : ℤ) ∧ (px pts b' n).toInt + dxI k = (w.val : ℤ)) then wgt k else 0) :=
        Finset.sum_congr rfl fun b' _ => Finset.sum_congr rfl fun n _ => Finset.sum_congr rfl fun k _ => term_eq pts b b' n k h w
    _ = ∑ n : Fin 4096, ∑ k : Fin 9,
            (if (py pts b n).toInt + dyI k = (h.val : ℤ) ∧ (px pts b n).toInt + dxI k = (w.val : ℤ) then wgt k else 0) := by
        rw [Finset.sum_eq_single b]
        · refine Finset.sum_congr rfl fun n _ => Finset.sum_congr rfl fun k _ => if_congr ?_ rfl rfl
          exact ⟨fun hc => hc.2, fun hc => ⟨rfl, hc⟩⟩
        · intro b' _ hne
          exact Finset.sum_eq_zero fun n _ => Finset.sum_eq_zero fun k _ => if_neg fun hc => hne hc.1
        · intro hb; exact absurd (Finset.mem_univ b) hb
    _ = ∑ k : Fin 9, ∑ n : Fin 4096,
            (if (py pts b n).toInt + dyI k = (h.val : ℤ) ∧ (px pts b n).toInt + dxI k = (w.val : ℤ) then wgt k else 0) :=
        Finset.sum_comm
    _ = ∑ k : Fin 9, wgt k * Cert.Spec.pad (cnt pts) b (h.val + oy k) (w.val + ox k) :=
        Finset.sum_congr rfl fun k _ => tap_sum pts b k h w
    _ = targ (cnt pts) (ix3 b h w) := rfl

end Cert.ReferenceIdeal.HandTarget

end
-- ==== Proof.R.Target2.lean ====
/-
  The reference's target is the stencil applied to the count map.

  The printed arrays are read index by index: the clamped coordinates, the nine neighbours' rows and columns, the mask of
  the neighbours inside the grid, the flat cell indices, the weights, the image numbers, and the two scatter coordinates
  side by side. The scatter-add into the zero image then holds, at cell (b, 512 · h + w), the sum of the weights of the
  updates whose two scatter coordinates, read signed, are b and 512 · h + w; the reshape to 32 × 512 × 512 reads that
  cell at (b, h, w); and the counting identity turns the sum into the stencil applied to the count map.
-/
import Idealize.ShloMosaic.PureOps.Ideal
import Idealize.ShloMosaic.Lib.ValueIdx
import Idealize.ShloMosaic.Lib.Pipeline.Value
import proofs.«429451_j33646773797363_4_alg».proof.Proof.Spec
import proofs.«429451_j33646773797363_4_alg».proof.ReferenceIdeal
import proofs.«429451_j33646773797363_4_alg».proof.Proof.Gen.ReferenceIdeal
import proofs.«429451_j33646773797363_4_alg».proof.Proof.LibScatter2
import proofs.«429451_j33646773797363_4_alg».proof.Proof.R.Target1

open Idealize.ShloMosaic Idealize.ShloMosaic.ValueIdx
open scoped BigOperators

noncomputable section

namespace Cert.ReferenceIdeal.HandTarget

open Cert.Spec Cert.ReferenceIdeal Cert.ReferenceIdeal.Gen

/-! ## Broadcasts read at an index -/

section Bcast
variable {α : Type}

/-- A per-point array laid along the taps: [32, 4096] → [32, 4096, 1] → [32, 4096, 9] reads the point's element. -/
theorem bcast_pts (h1 : S32x4096.BroadcastsInDim S32x4096x1 ![0, 1]) (h2 : S32x4096x1.BroadcastsInDim S32x4096x9 ![0, 1, 2])
    (v : S32x4096.Idx → α) (b : Fin 32) (n : Fin 4096) (k : Fin 9) :
    broadcastInDim S32x4096x9 ![0, 1, 2] h2 (broadcastInDim S32x4096x1 ![0, 1] h1 v) (ix3 b n k) = v (ix2 b n) := by
  rw [broadcastInDim_apply ![0, 1, 2] h2 _ (ix3 b n k) (ix3 b n (0 : Fin 1)) (by
    intro a; match a with | ⟨0, _⟩ => rfl | ⟨1, _⟩ => rfl | ⟨2, _⟩ => rfl)]
  exact broadcastInDim_apply ![0, 1] h1 v (ix3 b n (0 : Fin 1)) (ix2 b n) (by
    intro a; match a with | ⟨0, _⟩ => rfl | ⟨1, _⟩ => rfl)

/-- A per-tap array laid along images and points: [9] → [1, 1, 9] → [32, 4096, 9] reads the tap's element. -/
theorem bcast_tap (h1 : S9.BroadcastsInDim S1x1x9 ![2]) (h2 : S1x1x9.BroadcastsInDim S32x4096x9 ![0, 1, 2])
    (v : S9.Idx → α) (b : Fin 32) (n : Fin 4096) (k : Fin 9) :
    broadcastInDim S32x4096x9 ![0, 1, 2] h2 (broadcastInDim S1x1x9 ![2] h1 v) (ix3 b n k) = v (ix1 k) := by
  rw [broadcastInDim_apply ![0, 1, 2] h2 _ (ix3 b n k) (ix3 (0 : Fin 1) (0 : Fin 1) k) (by
    intro a; match a with | ⟨0, _⟩ => rfl | ⟨1, _⟩ => rfl | ⟨2, _⟩ => rfl)]
  exact broadcastInDim_apply ![2] h1 v (ix3 (0 : Fin 1) (0 : Fin 1) k) (ix1 k) (by
    intro a; match a with | ⟨0, _⟩ => rfl)

/-- The same in one step: [9] → [32, 4096, 9]. -/
theorem bcast_tap1 (h : S9.BroadcastsInDim S32x4096x9 ![2]) (v : S9.Idx → α) (b : Fin 32) (n : Fin 4096) (k : Fin 9) :
    broadcastInDim S32x4096x9 ![2] h v (ix3 b n k) = v (ix1 k) :=
  broadcastInDim_apply ![2] h v (ix3 b n k) (ix1 k) (by intro a; match a with | ⟨0, _⟩ => rfl)

/-- A per-image array laid along points and taps: [32] → [32, 1, 1] → [32, 4096, 9] reads the image's element. -/
theorem bcast_img (h1 : S32.BroadcastsInDim S32x1x1 ![0]) (h2 : S32x1x1.BroadcastsInDim S32x4096x9 ![0, 1, 2])
    (v : S32.Idx → α) (b : Fin 32) (n : Fin 4096) (k : Fin 9) :
    broadcastInDim S32x4096x9 ![0, 1, 2] h2 (broadcastInDim S32x1x1 ![0] h1 v) (ix3 b n k) = v (ix1 b) := by
  rw [broadcastInDim_apply ![0, 1, 2] h2 _ (ix3 b n k) (ix3 b (0 : Fin 1) (0 : Fin 1)) (by
    intro a; match a with | ⟨0, _⟩ => rfl | ⟨1, _⟩ => rfl | ⟨2, _⟩ => rfl)]
  exact broadcastInDim_apply ![0] h1 v (ix3 b (0 : Fin 1) (0 : Fin 1)) (ix1 b) (by
    intro a; match a with | ⟨0, _⟩ => rfl)

/-- A trailing unit axis added: [32, 4096, 9] → [32, 4096, 9, 1]. -/
theorem bcast_last (h : S32x4096x9.BroadcastsInDim S32x4096x9x1 ![0, 1, 2]) (v : S32x4096x9.Idx → α)
    (b : Fin 32) (n : Fin 4096) (k : Fin 9) :
    broadcastInDim S32x4096x9x1 ![0, 1, 2] h v (ix4 b n k (0 : Fin 1)) = v (ix3 b n k) :=
  broadcastInDim_apply ![0, 1, 2] h v (ix4 b n k (0 : Fin 1)) (ix3 b n k) (by
    intro a; match a with | ⟨0, _⟩ => rfl | ⟨1, _⟩ => rfl | ⟨2, _⟩ => rfl)

/-- Column `c` of the points, as a [32, 4096] array: the slice at offset (0, 0, c) with its unit axis dropped. -/
theorem slice_reshape_apply (o : ℕ) (c : Fin 2) (hc : c.val = o) (hs : S32x4096x2.Slices ![0, 0, o] S32x4096x1)
    (hr : S32x4096x1.ShapeCasts S32x4096) (a1 : S32x4096x2.Idx → α) (b : Fin 32) (n : Fin 4096) :
    shapeCast S32x4096 (extractStridedSlice S32x4096x1 ![0, 0, o] a1 hs) hr (ix2 b n) = a1 (ix3 b n c) := by
  rw [shapeCast_apply _ hr (ix2 b n) (ix3 b n (0 : Fin 1)) (by
    rw [Shape.rowMajor_val_three, Shape.rowMajor_val_two]; simp)]
  unfold extractStridedSlice
  refine congrArg a1 (funext fun a => Fin.ext ?_)
  match a with
  | ⟨0, _⟩ => simp
  | ⟨1, _⟩ => simp
  | ⟨2, _⟩ => simp [hc]

end Bcast

/-- A length-9 vector's row-major position is its coordinate. -/
theorem rowMajor_ix1 (k : Fin 9) : S9.rowMajor (ix1 k) = k := Fin.ext (Shape.rowMajor_val_one _)

/-! ## The printed arrays, read at an index -/

section Arrays
variable (a1 : IVec S32x4096x2 32)

/-- The clamped x coordinates. -/
def xArr : IVec S32x4096 32 :=
  let v8 : IVec S32x4096x1 32 := extractStridedSlice S32x4096x1 ![0, 0, 0] a1 slices_S32x4096x2_S32x4096x1_0_0_0
  let v9 : IVec S32x4096 32 := shapeCast S32x4096 v8 shapeCasts_S32x4096x1_S32x4096
  let c_4 : IVec S_ 32 := constantI S_ 32 0#32
  let c_5 : IVec S_ 32 := constantI S_ 32 511#32
  let call0_v0 : IVec S_ 32 := id c_4
  let call0_v1 : IVec S32x4096 32 := broadcastInDim S32x4096 ![] bcast_S_S32x4096 call0_v0
  let call0_v2 : IVec S32x4096 32 := maxsi call0_v1 v9
  let call0_v3 : IVec S_ 32 := id c_5
  let call0_v4 : IVec S32x4096 32 := broadcastInDim S32x4096 ![] bcast_S_S32x4096 call0_v3
  minsi call0_v4 call0_v2

/-- The clamped y coordinates. -/
def yArr : IVec S32x4096 32 :=
  let v11 : IVec S32x4096x1 32 := extractStridedSlice S32x4096x1 ![0, 0, 1] a1 slices_S32x4096x2_S32x4096x1_0_0_1
  let v12 : IVec S32x4096 32 := shapeCast S32x4096 v11 shapeCasts_S32x4096x1_S32x4096
  let c_6 : IVec S_ 32 := constantI S_ 32 0#32
  let c_7 : IVec S_ 32 := constantI S_ 32 511#32
  let call1_v0 : IVec S_ 32 := id c_6
  let call1_v1 : IVec S32x4096 32 := broadcastInDim S32x4096 ![] bcast_S_S32x4096 call1_v0
  let call1_v2 : IVec S32x4096 32 := maxsi call1_v1 v12
  let call1_v3 : IVec S_ 32 := id c_7
  let call1_v4 : IVec S32x4096 32 := broadcastInDim S32x4096 ![] bcast_S_S32x4096 call1_v3
  minsi call1_v4 call1_v2

theorem xArr_apply (b : Fin 32) (n : Fin 4096) : xArr a1 (ix2 b n) = px a1 b n := by
  show clampW (shapeCast S32x4096 (extractStridedSlice S32x4096x1 ![0, 0, 0] a1 slices_S32x4096x2_S32x4096x1_0_0_0)
    shapeCasts_S32x4096x1_S32x4096 (ix2 b n)) = clampW (a1 (ix3 b n (0 : Fin 2)))
  rw [slice_reshape_apply 0 (0 : Fin 2) rfl]

theorem yArr_apply (b : Fin 32) (n : Fin 4096) : yArr a1 (ix2 b n) = py a1 b n := by
  show clampW (shapeCast S32x4096 (extractStridedSlice S32x4096x1 ![0, 0, 1] a1 slices_S32x4096x2_S32x4096x1_0_0_1)
    shapeCasts_S32x4096x1_S32x4096 (ix2 b n)) = clampW (a1 (ix3 b n (1 : Fin 2)))
  rw [slice_reshape_apply 1 (1 : Fin 2) rfl]

/-- The nine neighbours' rows y + dy. -/
def nyArr : IVec S32x4096x9 32 :=
  let c : IVec S9 32 := fun i => lit0 (S9.rowMajor i)
  let v14 : IVec S32x4096x1 32 := broadcastInDim S32x4096x1 ![0, 1] bcast_S32x4096_S32x4096x1_0_1 (yArr a1)
  let v15 : IVec S1x1x9 32 := broadcastInDim S1x1x9 ![2] bcast_S9_S1x1x9_2 c
  let v16 : IVec S32x4096x9 32 := broadcastInDim S32x4096x9 ![0, 1, 2] bcast_S32x4096x1_S32x4096x9_0_1_2 v14
  let v17 : IVec S32x4096x9 32 := broadcastInDim S32x4096x9 ![0, 1, 2] bcast_S1x1x9_S32x4096x9_0_1_2 v15
  addi v16 v17

/-- The nine neighbours' columns x + dx. -/
def nxArr : IVec S32x4096x9 32 :=
  let c_0 : IVec S9 32 := fun i => lit1 (S9.rowMajor i)
  let v19 : IVec S32x4096x1 32 := broadcastInDim S32x4096x1 ![0, 1] bcast_S32x4096_S32x4096x1_0_1 (xArr a1)
  let v20 : IVec S1x1x9 32 := broadcastInDim S1x1x9 ![2] bcast_S9_S1x1x9_2 c_0
  let v21 : IVec S32x4096x9 32 := broadcastInDim S32x4096x9 ![0, 1, 2] bcast_S32x4096x1_S32x4096x9_0_1_2 v19
  let v22 : IVec S32x4096x9 32 := broadcastInDim S32x4096x9 ![0, 1, 2] bcast_S1x1x9_S32x4096x9_0_1_2 v20
  addi v21 v22

theorem nyArr_apply (b : Fin 32) (n : Fin 4096) (k : Fin 9) : nyArr a1 (ix3 b n k) = nyW a1 b n k := by
  show IntOp.addi
      (broadcastInDim S32x4096x9 ![0, 1, 2] bcast_S32x4096x1_S32x4096x9_0_1_2
        (broadcastInDim S32x4096x1 ![0, 1] bcast_S32x4096_S32x4096x1_0_1 (yArr a1)) (ix3 b n k))
      (broadcastInDim S32x4096x9 ![0, 1, 2] bcast_S1x1x9_S32x4096x9_0_1_2
        (broadcastInDim S1x1x9 ![2] bcast_S9_S1x1x9_2 (fun i => lit0 (S9.rowMajor i))) (ix3 b n k))
    = IntOp.addi (py a1 b n) (lit0 k)
  rw [bcast_pts, bcast_tap, yArr_apply]
  beta_reduce
  rw [rowMajor_ix1]

theorem nxArr_apply (b : Fin 32) (n : Fin 4096) (k : Fin 9) : nxArr a1 (ix3 b n k) = nxW a1 b n k := by
  show IntOp.addi
      (broadcastInDim S32x4096x9 ![0, 1, 2] bcast_S32x4096x1_S32x4096x9_0_1_2
        (broadcastInDim S32x4096x1 ![0, 1] bcast_S32x4096_S32x4096x1_0_1 (xArr a1)) (ix3 b n k))
      (broadcastInDim S32x4096x9 ![0, 1, 2] bcast_S1x1x9_S32x4096x9_0_1_2
        (broadcastInDim S1x1x9 ![2] bcast_S9_S1x1x9_2 (fun i => lit1 (S9.rowMajor i))) (ix3 b n k))
    = IntOp.addi (px a1 b n) (lit1 k)
  rw [bcast_pts, bcast_tap, xArr_apply]
  beta_reduce
  rw [rowMajor_ix1]

/-- The mask of the neighbours inside the grid. -/
def validArr : IVec S32x4096x9 1 :=
  let v18 : IVec S32x4096x9 32 := nyArr a1
  let v23 : IVec S32x4096x9 32 := nxArr a1
  let c_8 : IVec S_ 32 := constantI S_ 32 0#32
  let v24 : IVec S32x4096x9 32 := broadcastInDim S32x4096x9 ![] bcast_S_S32x4096x9 c_8
  let v25 : IVec S32x4096x9 1 := cmpi .sge v18 v24
  let c_9 : IVec S_ 32 := constantI S_ 32 512#32
  let v26 : IVec S32x4096x9 32 := broadcastInDim S32x4096x9 ![] bcast_S_S32x4096x9 c_9
  let v27 : IVec S32x4096x9 1 := cmpi .slt v18 v26
  let v28 : IVec S32x4096x9 1 := andi v25 v27
  let c_10 : IVec S_ 32 := constantI S_ 32 0#32
  let v29 : IVec S32x4096x9 32 := broadcastInDim S32x4096x9 ![] bcast_S_S32x4096x9 c_10
  let v30 : IVec S32x4096x9 1 := cmpi .sge v23 v29
  let v31 : IVec S32x4096x9 1 := andi v28 v30
  let c_11 : IVec S_ 32 := constantI S_ 32 512#32
  let v32 : IVec S32x4096x9 32 := broadcastInDim S32x4096x9 ![] bcast_S_S32x4096x9 c_11
  let v33 : IVec S32x4096x9 1 := cmpi .slt v23 v32
  andi v31 v33

theorem validArr_apply (b : Fin 32) (n : Fin 4096) (k : Fin 9) :
    validArr a1 (ix3 b n k) = validW (nyW a1 b n k) (nxW a1 b n k) := by
  rw [← nyArr_apply, ← nxArr_apply]; rfl

/-- The flat cell index 512 · clamp(row) + clamp(column). -/
def flatArr : IVec S32x4096x9 32 :=
  let v18 : IVec S32x4096x9 32 := nyArr a1
  let v23 : IVec S32x4096x9 32 := nxArr a1
  let c_12 : IVec S_ 32 := constantI S_ 32 0#32
  let c_13 : IVec S_ 32 := constantI S_ 32 511#32
  let call2_v0 : IVec S_ 32 := id c_12
  let call2_v1 : IVec S32x4096x9 32 := broadcastInDim S32x4096x9 ![] bcast_S_S32x4096x9 call2_v0
  let call2_v2 : IVec S32x4096x9 32 := maxsi call2_v1 v18
  let call2_v3 : IVec S_ 32 := id c_13
  let call2_v4 : IVec S32x4096x9 32 := broadcastInDim S32x4096x9 ![] bcast_S_S32x4096x9 call2_v3
  let v35 : IVec S32x4096x9 32 := minsi call2_v4 call2_v2
  let c_14 : IVec S_ 32 := constantI S_ 32 512#32
  let v36 : IVec S32x4096x9 32 := broadcastInDim S32x4096x9 ![] bcast_S_S32x4096x9 c_14
  let v37 : IVec S32x4096x9 32 := muli v35 v36
  let c_15 : IVec S_ 32 := constantI S_ 32 0#32
  let c_16 : IVec S_ 32 := constantI S_ 32 511#32
  let call3_v0 : IVec S_ 32 := id c_15
  let call3_v1 : IVec S32x4096x9 32 := broadcastInDim S32x4096x9 ![] bcast_S_S32x4096x9 call3_v0
  let call3_v2 : IVec S32x4096x9 32 := maxsi call3_v1 v23
  let call3_v3 : IVec S_ 32 := id c_16
  let call3_v4 : IVec S32x4096x9 32 := broadcastInDim S32x4096x9 ![] bcast_S_S32x4096x9 call3_v3
  let v38 : IVec S32x4096x9 32 := minsi call3_v4 call3_v2
  addi v37 v38

/-- The flat cell index brought into range. -/
def cellArr : IVec S32x4096x9 32 :=
  let v39 : IVec S32x4096x9 32 := flatArr a1
  let c_21 : IVec S_ 32 := constantI S_ 32 0#32
  let v50 : IVec S32x4096x9 32 := broadcastInDim S32x4096x9 ![] bcast_S_S32x4096x9 c_21
  let v51 : IVec S32x4096x9 1 := cmpi .slt v39 v50
  let c_22 : IVec S_ 32 := constantI S_ 32 262144#32
  let v52 : IVec S32x4096x9 32 := broadcastInDim S32x4096x9 ![] bcast_S_S32x4096x9 c_22
  let v53 : IVec S32x4096x9 32 := addi v39 v52
  select v51 v53 v39

theorem cellArr_apply (b : Fin 32) (n : Fin 4096) (k : Fin 9) : cellArr a1 (ix3 b n k) = cellW a1 b n k := by
  unfold cellW
  rw [← nyArr_apply, ← nxArr_apply]; rfl

/-- The weights: the stencil's inside the grid, zero outside. -/
def updArr : FVec Ideal S32x4096x9 .f32 :=
  let cst : FVec Ideal S9 .f32 := fun i => FloatOps.ofBits .f32 (lit2 (S9.rowMajor i))
  let v34 : IVec S32x4096x9 1 := validArr a1
  let cst_17 : FVec Ideal S_ .f32 := constant S_ .f32 0x00000000#32
  let call4_v0 : FVec Ideal S32x4096x9 .f32 := broadcastInDim S32x4096x9 ![2] bcast_S9_S32x4096x9_2 cst
  let call4_v1 : FVec Ideal S32x4096x9 .f32 := broadcastInDim S32x4096x9 ![] bcast_S_S32x4096x9 cst_17
  select v34 call4_v0 call4_v1

theorem updArr_apply (b : Fin 32) (n : Fin 4096) (k : Fin 9) : updArr a1 (ix3 b n k) = updV a1 b n k := by
  show Scalar.select (validArr a1 (ix3 b n k))
      (broadcastInDim S32x4096x9 ![2] bcast_S9_S32x4096x9_2
        (fun i => (FloatOps.ofBits (F := Ideal) .f32 (lit2 (S9.rowMajor i)) : Ideal .f32)) (ix3 b n k))
      (Ideal.ofBits .f32 0x00000000#32) = _
  rw [bcast_tap1, validArr_apply]
  beta_reduce
  rw [rowMajor_ix1]
  rfl

/-- The image number of each update, brought into range. -/
def imgArr : IVec S32x4096x9 32 :=
  let v41 : IVec S32 32 := iotaInDim S32 32 0
  let v42 : IVec S32x1x1 32 := broadcastInDim S32x1x1 ![0] bcast_S32_S32x1x1_0 v41
  let v43 : IVec S32x4096x9 32 := broadcastInDim S32x4096x9 ![0, 1, 2] bcast_S32x1x1_S32x4096x9_0_1_2 v42
  let c_19 : IVec S_ 32 := constantI S_ 32 0#32
  let v45 : IVec S32x4096x9 32 := broadcastInDim S32x4096x9 ![] bcast_S_S32x4096x9 c_19
  let v46 : IVec S32x4096x9 1 := cmpi .slt v43 v45
  let c_20 : IVec S_ 32 := constantI S_ 32 32#32
  let v47 : IVec S32x4096x9 32 := broadcastInDim S32x4096x9 ![] bcast_S_S32x4096x9 c_20
  let v48 : IVec S32x4096x9 32 := addi v43 v47
  select v46 v48 v43

theorem imgArr_apply (b : Fin 32) (n : Fin 4096) (k : Fin 9) : imgArr (ix3 b n k) = imgW b := by
  show normW 32#32 (broadcastInDim S32x4096x9 ![0, 1, 2] bcast_S32x1x1_S32x4096x9_0_1_2
      (broadcastInDim S32x1x1 ![0] bcast_S32_S32x1x1_0 (iotaInDim S32 32 0)) (ix3 b n k)) = _
  rw [bcast_img]
  rfl

/-- The scatter indices: the image number and the flat cell index of each update, side by side. -/
def idxArr : IVec S32x4096x9x2 32 :=
  let v55 : IVec S32x4096x9x1 32 := broadcastInDim S32x4096x9x1 ![0, 1, 2] bcast_S32x4096x9_S32x4096x9x1_0_1_2 imgArr
  let v56 : IVec S32x4096x9x1 32 := broadcastInDim S32x4096x9x1 ![0, 1, 2] bcast_S32x4096x9_S32x4096x9x1_0_1_2 (cellArr a1)
  concatenate S32x4096x9x2 3 [⟨S32x4096x9x1, v55⟩, ⟨S32x4096x9x1, v56⟩] concatenates_S32x4096x9x1_S32x4096x9x1_S32x4096x9x2_d3

theorem idxArr_zero (b : Fin 32) (n : Fin 4096) (k : Fin 9) : idxArr a1 (ix4 b n k (0 : Fin 2)) = imgW b := by
  show concatenate S32x4096x9x2 3 [⟨S32x4096x9x1, broadcastInDim S32x4096x9x1 ![0, 1, 2] bcast_S32x4096x9_S32x4096x9x1_0_1_2 imgArr⟩,
      ⟨S32x4096x9x1, broadcastInDim S32x4096x9x1 ![0, 1, 2] bcast_S32x4096x9_S32x4096x9x1_0_1_2 (cellArr a1)⟩]
      concatenates_S32x4096x9x1_S32x4096x9x1_S32x4096x9x2_d3 (ix4 b n k (0 : Fin 2)) = _
  rw [concatenate_pair_apply_left (t := S32x4096x9x2) (s₁ := S32x4096x9x1) (s₂ := S32x4096x9x1) (3 : Fin 4) _ _ _ (ix4 b n k (0 : Fin 2)) rfl (ix4 b n k (0 : Fin 1)) (fun a => by
    match a with | ⟨0, _⟩ => rfl | ⟨1, _⟩ => rfl | ⟨2, _⟩ => rfl | ⟨3, _⟩ => rfl), bcast_last, imgArr_apply]

theorem idxArr_one (b : Fin 32) (n : Fin 4096) (k : Fin 9) : idxArr a1 (ix4 b n k (1 : Fin 2)) = cellW a1 b n k := by
  show concatenate S32x4096x9x2 3 [⟨S32x4096x9x1, broadcastInDim S32x4096x9x1 ![0, 1, 2] bcast_S32x4096x9_S32x4096x9x1_0_1_2 imgArr⟩,
      ⟨S32x4096x9x1, broadcastInDim S32x4096x9x1 ![0, 1, 2] bcast_S32x4096x9_S32x4096x9x1_0_1_2 (cellArr a1)⟩]
      concatenates_S32x4096x9x1_S32x4096x9x1_S32x4096x9x2_d3 (ix4 b n k (1 : Fin 2)) = _
  rw [concatenate_pair_apply_right (t := S32x4096x9x2) (s₁ := S32x4096x9x1) (s₂ := S32x4096x9x1) (3 : Fin 4) _ _ _ (ix4 b n k (1 : Fin 2)) rfl rfl (ix4 b n k (0 : Fin 1)) (fun a ha => by
    match a with | ⟨0, _⟩ => rfl | ⟨1, _⟩ => rfl | ⟨2, _⟩ => rfl | ⟨3, _⟩ => exact absurd rfl ha) rfl, bcast_last, cellArr_apply]

end Arrays

/-! ## The scatter and the reshape -/

section Final
variable (a1 : IVec S32x4096x2 32)

/-- The target: the weights added into the zero image at their cells, as 32 × 512 × 512. -/
def tgt : FVec Ideal S32x512x512 .f32 :=
  let cst_18 : FVec Ideal S_ .f32 := constant S_ .f32 0x00000000#32
  let v44 : FVec Ideal S32x262144 .f32 := broadcastInDim S32x262144 ![] bcast_S_S32x262144 cst_18
  let v58 : FVec Ideal S32x262144 .f32 :=
    Host.scatterAdd scatter_S32x262144_S32x4096x9x2_S32x4096x9_n_01_01_3 v44 (idxArr a1) (updArr a1)
  shapeCast S32x512x512 v58 shapeCasts_S32x262144_S32x512x512

/-- THE TARGET is the stencil applied to the count map. -/
theorem tgt_eq : tgt a1 = targ (cnt a1) := by
  funext j
  obtain ⟨b, h, w, rfl⟩ : ∃ b h w, j = ix3 b h w := ⟨j 0, j 1, j 2, eq_ix3 j⟩
  have hq : 512 * h.val + w.val < 262144 := by have := h.isLt; have := w.isLt; omega
  rw [← scatter_count a1 b h w]
  show shapeCast S32x512x512
      (Ideal.hostScatterAdd scatter_S32x262144_S32x4096x9x2_S32x4096x9_n_01_01_3
        (broadcastInDim S32x262144 ![] bcast_S_S32x262144 (constant (F := Ideal) S_ .f32 0x00000000#32)) (idxArr a1) (updArr a1))
      shapeCasts_S32x262144_S32x512x512 (ix3 b h w) = _
  rw [shapeCast_apply _ shapeCasts_S32x262144_S32x512x512 (ix3 b h w) (ix2 b (⟨512 * h.val + w.val, hq⟩ : Fin 262144)) (by
    rw [Shape.rowMajor_val_two, Shape.rowMajor_val_three]
    show b.val * 262144 + (512 * h.val + w.val) = (b.val * 512 + h.val) * 512 + w.val
    omega)]
  unfold Ideal.hostScatterAdd
  rw [show broadcastInDim S32x262144 ![] bcast_S_S32x262144 (constant (F := Ideal) S_ .f32 0x00000000#32)
      (ix2 b (⟨512 * h.val + w.val, hq⟩ : Fin 262144)) = (0 : EReal) from ofBits_zero, zero_add, Finset.sum_filter]
  refine Finset.sum_congr rfl fun j _ => ?_
  obtain ⟨b', n, k, rfl⟩ : ∃ b' n k, j = ix3 b' n k := ⟨j 0, j 1, j 2, eq_ix3 j⟩
  refine if_congr ?_ (updArr_apply a1 b' n k) rfl
  refine (Scatter2.resultIdx?_eq_some_iff (B := 32) (Q := 262144) (B' := 32) (N := 4096) (K := 9)
    scatter_S32x262144_S32x4096x9x2_S32x4096x9_n_01_01_3_wf (ix3 b' n k) (idxArr a1)
    (ix2 b (⟨512 * h.val + w.val, hq⟩ : Fin 262144))).trans ?_
  show ((idxArr a1 (ix4 b' n k (0 : Fin 2))).toInt = ((b.val : ℕ) : ℤ) ∧
      (idxArr a1 (ix4 b' n k (1 : Fin 2))).toInt = ((512 * h.val + w.val : ℕ) : ℤ))
    ↔ ((imgW b').toInt = ((b.val : ℕ) : ℤ) ∧ (cellW a1 b' n k).toInt = ((512 * h.val + w.val : ℕ) : ℤ))
  rw [idxArr_zero, idxArr_one]

end Final

end Cert.ReferenceIdeal.HandTarget

end
-- ==== Proof.R.Target.lean ====
/-
  The reference's target, as the printed program computes it, is the stencil applied to the count map of the clamped
  points: the program's arrays are, stage by stage, the arrays read index by index beside this file, and their scatter-add,
  reshaped, was shown there to be the stencil applied to the count map.
-/
import proofs.«429451_j33646773797363_4_alg».proof.Proof.R.Term
import proofs.«429451_j33646773797363_4_alg».proof.Proof.R.Target2

open Idealize.ShloMosaic Idealize.ShloMosaic.ValueIdx

noncomputable section

namespace Cert.ReferenceIdeal.HandTarget

open Cert.Spec Cert.ReferenceIdeal Cert.ReferenceIdeal.Gen

section Stages
variable (a1 : IVec S32x4096x2 32)

theorem xArr_eq : Hand.xArr a1 = xArr a1 := rfl
theorem yArr_eq : Hand.yArr a1 = yArr a1 := rfl
theorem nyArr_eq : Hand.nyArr (yArr a1) = nyArr a1 := rfl
theorem nxArr_eq : Hand.nxArr (xArr a1) = nxArr a1 := rfl
theorem validArr_eq : Hand.validArr (nyArr a1) (nxArr a1) = validArr a1 := rfl
theorem flatArr_eq : Hand.flatArr (nyArr a1) (nxArr a1) = flatArr a1 := rfl
theorem updArr_eq : Hand.updArr (F := Ideal) (validArr a1) = updArr a1 := rfl
theorem imgArr_eq : Hand.imgArr = imgArr := rfl
theorem cellArr_eq : Hand.cellArr (flatArr a1) = cellArr a1 := rfl
theorem idxArr_eq : Hand.idxArr imgArr (cellArr a1) = idxArr a1 := rfl

/-- The program's target is the scatter-add of the weights at the scatter indices, reshaped. -/
theorem refTarget_eq_tgt : Hand.refTarget (F := Ideal) a1 = tgt a1 := by
  show shapeCast S32x512x512
      (Host.scatterAdd (F := Ideal) scatter_S32x262144_S32x4096x9x2_S32x4096x9_n_01_01_3
        (broadcastInDim S32x262144 ![] bcast_S_S32x262144 (constant (F := Ideal) S_ .f32 0x00000000#32))
        (Hand.idxArr Hand.imgArr (Hand.cellArr (Hand.flatArr (Hand.nyArr (Hand.yArr a1)) (Hand.nxArr (Hand.xArr a1)))))
        (Hand.updArr (F := Ideal) (Hand.validArr (Hand.nyArr (Hand.yArr a1)) (Hand.nxArr (Hand.xArr a1)))))
      shapeCasts_S32x262144_S32x512x512 = _
  rw [xArr_eq, yArr_eq, nyArr_eq, nxArr_eq, validArr_eq, flatArr_eq, updArr_eq, imgArr_eq, cellArr_eq, idxArr_eq]
  rfl

end Stages

/-- THE REFERENCE'S TARGET is the stencil applied to the count map of the clamped points. -/
theorem refTarget_eq (a1 : IVec Cert.ReferenceIdeal.S32x4096x2 32) :
    Cert.ReferenceIdeal.Hand.refTarget (F := Ideal) a1 = Cert.Spec.targ (Cert.Spec.cnt a1) :=
  (refTarget_eq_tgt a1).trans (tgt_eq a1)

end Cert.ReferenceIdeal.HandTarget

end
-- ==== Proof.lean ====
/-
  The certificate's five claims assembled.

  Both programs compute one loss of a prediction (32 images of 512 × 512 cells), 4096 points per image and a scalar cell area:
  twice the mean absolute difference between each image's sum divided by the cell area and the number of points, plus 0.15
  times the mean, over the images, of the mean squared difference between the prediction divided by (its sum + a small constant)
  and a target divided by its sum. The target spreads the image's count map — how many of its clamped points fall in each cell —
  by a 3 × 3 stencil of weights exp(−√(dx² + dy²)/2).
  The kernel builds the count map as a product of one-hot arrays accumulated over eight chunks of 512 points, spreads it through
  a scratch image padded by a zero cell all round, and expands the square into five whole-image sums; the reference adds each
  point's nine weighted neighbours into a flat image by a scatter and compares cell by cell. The two targets are one array
  (a count of the pairs (point, tap) landing in a cell, grouped by tap); the two errors are one number because, the
  prediction's entries being real and no divisor zero — what the precondition says —, the square expands over the reals.
  The frames of the two kernel programs run the two regions over the library's several-regions launch: region 0 keeps its
  accumulator in a scratch buffer from one grid point to the next, which its invariant names; region 1 refills its scratch
  at every point. The reference's frame is its run with the result forgotten.
-/
import proofs.«429451_j33646773797363_4_alg».proof.Defs
import proofs.«429451_j33646773797363_4_alg».proof.Proof.Gen.Kernel
import proofs.«429451_j33646773797363_4_alg».proof.Proof.Gen.KernelIdeal
import proofs.«429451_j33646773797363_4_alg».proof.Proof.Gen.ReferenceIdeal
import proofs.«429451_j33646773797363_4_alg».proof.Proof.Gen.Pre_finite_inputs
import proofs.«429451_j33646773797363_4_alg».proof.Proof.Bridge
import proofs.«429451_j33646773797363_4_alg».proof.Proof.K.Run
import proofs.«429451_j33646773797363_4_alg».proof.Proof.K.KernelVal
import proofs.«429451_j33646773797363_4_alg».proof.Proof.KB.Run
import proofs.«429451_j33646773797363_4_alg».proof.Proof.R.Run
import proofs.«429451_j33646773797363_4_alg».proof.Proof.R.Loss
import proofs.«429451_j33646773797363_4_alg».proof.Proof.R.Target

noncomputable section

namespace Cert.Proof

open Idealize.ShloMosaic Idealize.SL.Sem Idealize.ShloMosaic.ValueIdx

/-- The word-level program runs and leaves its arguments as they were. -/
theorem frame_k : Cert.frame_Kernel := fun m ρ _ => Cert.Kernel.Hand.frame (F := Bits) m ρ

/-- So does the idealized program. -/
theorem frame_ki : Cert.frame_KernelIdeal := fun m ρ _ => Cert.KernelIdeal.Hand.frame (F := Ideal) m ρ

/-- The reference's frame is its run with the result forgotten. -/
theorem frame_ri : Cert.frame_ReferenceIdeal := fun m ρ _ =>
  (θ_run (Cert.ReferenceIdeal.defs (F := Ideal)) _ _).mono (fun _ h c => (h c).2) (Cert.ReferenceIdeal.Hand.run (F := Ideal) m ρ)

/-- The loss both programs end with, as a function of the three argument arrays: the kernel's form. -/
def lossK (a0 : Cert.Spec.SPred.Idx → EReal) (a1 : IVec Cert.Spec.SPts 32) (a2 : (⟨0, ![]⟩ : Shape).Idx → EReal) : EReal :=
  Cert.Spec.final (Cert.Spec.sumImg (Cert.Spec.img a0)) (Cert.Spec.mseK (Cert.Spec.img a0) (Cert.Spec.targ (Cert.Spec.cnt a1))) (a2 ix0)

/-- From memories that agree on the arguments both idealized programs end with the same loss. -/
theorem algebraic : Cert.algebraic_KernelIdeal_ReferenceIdeal := by
  intro m ρ m' ρ' hpre hagree
  refine ⟨fun c _ => lossK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run (Cert.KernelIdeal.defs (F := Ideal)) _ _).mono (fun r h c => ⟨?_, ?_, ?_, ?_⟩)
      (Cert.KernelIdeal.Hand.run_all (F := Ideal) m ρ)
    · exact (h c _ (Cert.KernelIdeal.Hand.mem_uc Cert.KernelIdeal.main_v18 (by decide))).trans
        (Cert.KernelIdeal.HandValue.kernel_val m ρ c)
    · exact (h c _ (Cert.KernelIdeal.Hand.mem_uc Cert.KernelIdeal.main_arg0 (by decide))).trans
        (Cert.KernelIdeal.Hand.W4_main_arg0 m ρ c)
    · exact (h c _ (Cert.KernelIdeal.Hand.mem_uc Cert.KernelIdeal.main_arg1 (by decide))).trans
        (Cert.KernelIdeal.Hand.W4_main_arg1 m ρ c)
    · exact (h c _ (Cert.KernelIdeal.Hand.mem_uc Cert.KernelIdeal.main_arg2 (by decide))).trans
        (Cert.KernelIdeal.Hand.W4_main_arg2 m ρ c)
  · refine (θ_run (Cert.ReferenceIdeal.defs (F := Ideal)) _ _).mono (fun r h c => ⟨(h c).1.trans ?_, (h c).2⟩)
      (Cert.ReferenceIdeal.Hand.run (F := Ideal) m' ρ')
    rw [(hagree c).1, (hagree c).2.1, (hagree c).2.2]
    unfold Cert.ReferenceIdeal.Hand.resTerm
    rw [Cert.ReferenceIdeal.HandTarget.refTarget_eq, Cert.ReferenceIdeal.HandLoss.refLoss_eq]
    funext _
    exact (Cert.Bridge.final_agree _ _ _ (hpre c)).symm

/-- The claim. The idealization rewrote nothing, so its statement is the trivial one. -/
theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
